-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000 : Shape := ⟨1, ![2000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S2000000x64 .f32) (main_arg1 : IVec S2000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_c_0 : IVec S_ 32 := constantI S_ 32 0#32
  let main_v4 : IVec S2000000 32 := broadcastInDim S2000000 ![] bcast_S_S2000000 main_c_0
  let main_v5 : IVec S2000000 1 := cmpi .sge main_arg1 main_v4
  let main_c_1 : IVec S_ 1 := constantI S_ 1 1#1
  let main_v6 : IVec S_ 1 := (fun x v => Host.reduce IntOp.andi x v reducesTo_S2000000_S_d0 h_S_) main_v5 main_c_1
  let main_v7 : IVec S_ 1 := andi main_v3 main_v6
  let main_c_2 : IVec S_ 32 := constantI S_ 32 64#32
  let main_v8 : IVec S2000000 32 := broadcastInDim S2000000 ![] bcast_S_S2000000 main_c_2
  let main_v9 : IVec S2000000 1 := cmpi .slt main_arg1 main_v8
  let main_c_3 : IVec S_ 1 := constantI S_ 1 1#1
  let main_v10 : IVec S_ 1 := (fun x v => Host.reduce IntOp.andi x v reducesTo_S2000000_S_d0 h_S_) main_v9 main_c_3
  let main_v11 : IVec S_ 1 := andi main_v7 main_v10
  main_v11
-- ==== Kernel.lean ====
abbrev S2000000x64 : Shape := ⟨2, ![2000000, 64]⟩
abbrev S2000000 : Shape := ⟨1, ![2000000]⟩
abbrev S1000000x128 : Shape := ⟨2, ![1000000, 128]⟩
abbrev S1000000x2 : Shape := ⟨2, ![1000000, 2]⟩
abbrev S2x1x256 : Shape := ⟨3, ![2, 1, 256]⟩
abbrev S2x1x128 : Shape := ⟨3, ![2, 1, 128]⟩
abbrev S5000x128 : Shape := ⟨2, ![5000, 128]⟩
abbrev S5000x2 : Shape := ⟨2, ![5000, 2]⟩
abbrev S1x1x256 : Shape := ⟨3, ![1, 1, 256]⟩
abbrev S1x1x128 : Shape := ⟨3, ![1, 1, 128]⟩
abbrev S1x128 : Shape := ⟨2, ![1, 128]⟩
abbrev S5000x1 : Shape := ⟨2, ![5000, 1]⟩
abbrev S128 : Shape := ⟨1, ![128]⟩
abbrev S2x128 : Shape := ⟨2, ![2, 128]⟩
abbrev S_ : Shape := ⟨0, ![]⟩
abbrev S64 : Shape := ⟨1, ![64]⟩

abbrev nBuf : Space → Nat
  | .hbm => 35
  | .vmem => 11
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S1000000x128, .f32⟩
  | .hbm, ⟨3, _⟩ => ⟨S1000000x2, .i32⟩
  | .hbm, ⟨4, _⟩ => ⟨S2x1x256, .f32⟩
  | .hbm, ⟨5, _⟩ => ⟨S2x1x128, .f32⟩
  | .hbm, ⟨6, _⟩ => ⟨S2x1x128, .f32⟩
  | .hbm, ⟨7, _⟩ => ⟨S2x128, .f32⟩
  | .hbm, ⟨8, _⟩ => ⟨S_, .f32⟩
  | .hbm, ⟨9, _⟩ => ⟨S128, .f32⟩
  | .hbm, ⟨10, _⟩ => ⟨S2x1x128, .f32⟩
  | .hbm, ⟨11, _⟩ => ⟨S2x128, .f32⟩
  | .hbm, ⟨12, _⟩ => ⟨S_, .f32⟩
  | .hbm, ⟨13, _⟩ => ⟨S128, .f32⟩
  | .hbm, ⟨14, _⟩ => ⟨S2x128, .f32⟩
  | .hbm, ⟨15, _⟩ => ⟨S_, .f32⟩
  | .hbm, ⟨16, _⟩ => ⟨S128, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x2, .i32⟩
  | .local _ .vmem, ⟨3, _⟩ => ⟨S5000x2, .i32⟩
  | .local _ .vmem, ⟨4, _⟩ => ⟨S1x1x256, .f32⟩
  | .local _ .vmem, ⟨5, _⟩ => ⟨S1x1x256, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v47 : BitVec 1 := Scalar.cmpi .eq arg1 c99_i32
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2000000x64_S1000000x128 : S2000000x64.ShapeCasts S1000000x128
  shapeCasts_S2000000_S1000000x2 : S2000000.ShapeCasts S1000000x2
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  iota_S5000x128_d1_w32 : S5000x128.Iotas .tc 32 [1]
  slices_S5000x2_o0_0_S5000x1 : S5000x2.Slices ![0, 0] S5000x1
  slices_S5000x2_o0_1_S5000x1 : S5000x2.Slices ![0, 1] S5000x1
  shapeCasts_S5000x1_S5000x1 : S5000x1.ShapeCasts S5000x1
  broadcasts_S5000x1_S5000x128 : S5000x1.Broadcasts S5000x128
  natLt_1_32 : 1 < 32
  reduces_S5000x128_S128 : S5000x128.Reduces [0] S128
  shapeCasts_S128_S1x128 : S128.ShapeCasts S1x128
  shapeCasts_S1x128_S1x1x128 : S1x128.ShapeCasts S1x1x128
  inb_S1x1x256_S1x1x128_0_0_0 : ∀ a, (![0, 0, 0] : Fin 3 → Nat) a + S1x1x128.size a ≤ S1x1x256.size a
  h_S1x1x128 : 0 < S1x1x128.numel
  inb_S1x1x256_S1x1x128_0_0_128 : ∀ a, (![0, 0, 128] : Fin 3 → Nat) a + S1x1x128.size a ≤ S1x1x256.size a
  inb_S1x1x128_S1x1x128_0_0_0 : ∀ a, (![0, 0, 0] : Fin 3 → Nat) a + S1x1x128.size a ≤ S1x1x128.size a
  slices_S2x1x256_S2x1x128_0_0_0 : S2x1x256.Slices ![0, 0, 0] S2x1x128
  shapeCasts_S2x1x128_S2x128 : S2x1x128.ShapeCasts S2x128
  reducesTo_S2x128_S128_d0 : S2x128.ReducesTo [0] S128
  h_S_ : 0 < S_.numel
  slices_S2x1x256_S2x1x128_0_0_128 : S2x1x256.Slices ![0, 0, 128] S2x1x128
  slices_S128_S64_0 : S128.Slices ![0] S64
  slices_S128_S64_64 : S128.Slices ![64] S64
  reducesTo_S128_S_d0 : S128.ReducesTo [0] S_
  reducesTo_S64_S_d0 : S64.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S1000000x2.size a
  hwx0_1 : ∀ i : grid0.Coords, EltTy.bits .i32 = 32 ∨ (Rect.block (s := S1000000x2) S5000x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S2x1x256.size a
  hwx0_2 : ∀ i : grid0.Coords, EltTy.bits .f32 = 32 ∨ (Rect.block (s := S2x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2000000x64 : Shape := ⟨2, ![2000000, 64]⟩
abbrev S2000000 : Shape := ⟨1, ![2000000]⟩
abbrev S_ : Shape := ⟨0, ![]⟩
abbrev S64 : Shape := ⟨1, ![64]⟩
abbrev S2000000x1 : Shape := ⟨2, ![2000000, 1]⟩
abbrev S2000000x1x1 : Shape := ⟨3, ![2000000, 1, 1]⟩
abbrev S1 : Shape := ⟨1, ![1]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S_, .f32⟩
  | .hbm, ⟨3, _⟩ => ⟨S2000000, .f32⟩
  | .hbm, ⟨4, _⟩ => ⟨S_, .f32⟩
  | .hbm, ⟨5, _⟩ => ⟨S64, .f32⟩
  | .hbm, ⟨6, _⟩ => ⟨S2000000x1, .i32⟩
  | .hbm, ⟨7, _⟩ => ⟨S64, .f32⟩
  | .hbm, ⟨8, _⟩ => ⟨S2000000x64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2000000x1, .i32⟩
  | .hbm, ⟨18, _⟩ => ⟨S_, .i32⟩
  | .hbm, ⟨19, _⟩ => ⟨S2000000x1, .i32⟩
  | .hbm, ⟨20, _⟩ => ⟨S2000000x1, .i1⟩
  | .hbm, ⟨21, _⟩ => ⟨S_, .i32⟩
  | .hbm, ⟨22, _⟩ => ⟨S2000000x1, .i32⟩
  | .hbm, ⟨23, _⟩ => ⟨S2000000x1, .i32⟩
  | .hbm, ⟨24, _⟩ => ⟨S2000000x1, .i32⟩
  | .hbm, ⟨25, _⟩ => ⟨S2000000x1x1, .i32⟩
  | .hbm, ⟨26, _⟩ => ⟨S1, .i32⟩
  | .hbm, ⟨27, _⟩ => ⟨S_, .i32⟩
  | .hbm, ⟨28, _⟩ => ⟨S2000000x1x1, .i32⟩
  | .hbm, ⟨29, _⟩ => ⟨S2000000x1x1, .i1⟩
  | .hbm, ⟨30, _⟩ => ⟨S1x1x1, .i32⟩
  | .hbm, ⟨31, _⟩ => ⟨S2000000x1x1, .i32⟩
  | .hbm, ⟨32, _⟩ => ⟨S2000000x1x1, .i1⟩
  | .hbm, ⟨33, _⟩ => ⟨S2000000x1x1, .i1⟩
  | .hbm, ⟨34, _⟩ => ⟨S_, .i1⟩
  | .hbm, ⟨35, _⟩ => ⟨S2000000x1, .i1⟩
  | .hbm, ⟨36, _⟩ => ⟨S2000000x1, .f32⟩
  | .hbm, ⟨37, _⟩ => ⟨S_, .f32⟩
  | .hbm, ⟨38, _⟩ => ⟨S2000000x1, .f32⟩
  | .hbm, ⟨39, _⟩ => ⟨S2000000x1, .f32⟩
  | .hbm, ⟨40, _⟩ => ⟨S2000000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_cst_4 : Ref sig .tc := ⟨.hbm, 41, rfl⟩
abbrev main_v13 : Ref sig .tc := ⟨.hbm, 42, rfl⟩
abbrev main_cst_5 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S64 : S_.BroadcastsInDim S64 (![] : Fin 0 → Fin S64.rank)
  bcast_S2000000_S2000000x1_0 : S2000000.BroadcastsInDim S2000000x1 (![0] : Fin 1 → Fin S2000000x1.rank)
  reducesTo_S2000000x64_S64_d0 : S2000000x64.ReducesTo [0] S64
  h_S_ : 0 < S_.numel
  reducesTo_S64_S_d0 : S64.ReducesTo [0] S_
  bcast_S_S2000000x1 : S_.BroadcastsInDim S2000000x1 (![] : Fin 0 → Fin S2000000x1.rank)
  shapeCasts_S2000000x1_S2000000x1x1 : S2000000x1.ShapeCasts S2000000x1x1
  bcast_S_S2000000x1x1 : S_.BroadcastsInDim S2000000x1x1 (![] : Fin 0 → Fin S2000000x1x1.rank)
  bcast_S1_S1x1x1_2 : S1.BroadcastsInDim S1x1x1 (![2] : Fin 1 → Fin S1x1x1.rank)
  bcast_S1x1x1_S2000000x1x1_0_1_2 : S1x1x1.BroadcastsInDim S2000000x1x1 (![0, 1, 2] : Fin 3 → Fin S2000000x1x1.rank)
  reducesTo_S2000000x1x1_S2000000x1_d2 : S2000000x1x1.ReducesTo [2] S2000000x1
  shapeCasts_S2000000x1_S2000000 : S2000000x1.ShapeCasts S2000000
  reducesTo_S2000000_S_d0 : S2000000.ReducesTo [0] S_
  scatter_S64_S2000000x1_S2000000_n_0_0_1_wf : ScatterDims.WF S64 S2000000x1 S2000000 [] [0] [0] 1
  gather_S2000000x64_S2000000x1x1_S2000000x1_n_1_0_0_1_2_11_wf : GatherDims.WF S2000000x64 S2000000x1x1 S2000000x1 [] [1] [0] [1] [0] 2 ![1, 1]

variable [Facts₀]

def scatter_S64_S2000000x1_S2000000_n_0_0_1 : ScatterDims S64 S2000000x1 S2000000 where
  updateWindowDims := []
  insertedWindowDims := [0]
  scatterDimsToOperandDims := [0]
  indexVectorDim := 1
  wf := scatter_S64_S2000000x1_S2000000_n_0_0_1_wf
def gather_S2000000x64_S2000000x1x1_S2000000x1_n_1_0_0_1_2_11 : GatherDims S2000000x64 S2000000x1x1 S2000000x1 where
  offsetDims := []
  collapsedSliceDims := [1]
  operandBatchingDims := [0]
  startIndicesBatchingDims := [0]
  startIndexMap := [1]
  indexVectorDim := 2
  sliceSizes := ![1, 1]
  wf := gather_S2000000x64_S2000000x1x1_S2000000x1_n_1_0_0_1_2_11_wf

class Facts : Prop extends Facts₀ where

variable [Facts]
-- ==== Proof.Spec.lean ====
/-
  The loss both programs compute, as one function of the two argument arrays, over the extended reals.

  With N = 2 000 000 rows and 64 classes, for predictions p[n, j] and targets t[n] (read as signed words):
    count[j]  = #{ n | t[n] = j }                      (how often class j is a target)
    colexp[j] = Σ_n exp p[n, j]                         (column sums of the exponentials)
    picked    = Σ_n Σ_j [t[n] = j] · p[n, j]            (the prediction at each row's target; a row whose
                                                          target is no class contributes nothing)
    loss      = (−picked) / N + (Σ_j (count[j] − colexp[j])²) / N.
  Every sum is a finite sum in the commutative monoid of extended reals, so no order or grouping matters.
-/
import Idealize.ShloMosaic.PureOps.Ideal
import Idealize.ShloMosaic.Lib.ValueIdx

noncomputable section

namespace Cert.Loss

open Idealize.ShloMosaic Idealize.ShloMosaic.ValueIdx

/-- The predictions' shape, [2 000 000, 64], and the targets', [2 000 000]. -/
abbrev SPred : Shape := ⟨2, ![2000000, 64]⟩
abbrev STgt : Shape := ⟨1, ![2000000]⟩

/-- How often class `j` occurs among the targets. -/
def classCount (tgt : STgt.Idx → BitVec 32) (j : Fin 64) : EReal :=
  ∑ n : Fin 2000000, if (tgt (ix1 n)).toInt = (j.val : ℤ) then (1 : EReal) else 0

/-- Column `j` of the exponentials, summed over the rows. -/
def expColSum (pred : SPred.Idx → EReal) (j : Fin 64) : EReal :=
  ∑ n : Fin 2000000, Ideal.exp (pred (ix2 n j))

/-- The predictions at the rows' targets, summed: row `n` contributes `pred[n, j]` for the class `j` its target names. -/
def pickedSum (pred : SPred.Idx → EReal) (tgt : STgt.Idx → BitVec 32) : EReal :=
  ∑ n : Fin 2000000, ∑ j : Fin 64, if (tgt (ix1 n)).toInt = (j.val : ℤ) then pred (ix2 n j) else 0

/-- The squared distance between the class counts and the exponentials' column sums. -/
def penaltySum (pred : SPred.Idx → EReal) (tgt : STgt.Idx → BitVec 32) : EReal :=
  ∑ j : Fin 64, (classCount tgt j - expColSum pred j) * (classCount tgt j - expColSum pred j)

/-- The row count as both programs spell it: the f32 word of 2 000 000. -/
def rowCount : EReal := Ideal.ofBits .f32 0x49F42400#32

/-- The loss: the negated picked sum and the penalty, each divided by the row count. -/
def loss (pred : SPred.Idx → EReal) (tgt : STgt.Idx → BitVec 32) : EReal :=
  Ideal.div (-(pickedSum pred tgt)) rowCount + Ideal.div (penaltySum pred tgt) rowCount

/-- A packed row holds two consecutive original rows side by side: lane `l < 64` is class `l` of the first,
    lane `l ≥ 64` class `l − 64` of the second. The lane is HIT when that class is the target word of its
    original row (`t0` the first row's target, `t1` the second's). -/
def laneHit (t0 t1 : BitVec 32) (l : Fin 128) : Prop :=
  if l.val < 64 then BitVec.ofNat 32 l.val = t0 else BitVec.ofNat 32 (l.val - 64) = t1

instance (t0 t1 : BitVec 32) (l : Fin 128) : Decidable (laneHit t0 t1 l) := by
  unfold laneHit; infer_instance

/-! ## One tile: 5000 packed rows, lane by lane

A tile is a block `x0` of 5000 packed rows of predictions and the block `x1` of their target pairs. Per lane the
kernel adds three sums over the tile's rows to its three accumulators. -/

/-- How many of the tile's rows hit lane `l`. -/
def tileCount (x1 : (⟨2, ![5000, 2]⟩ : Shape).Idx → BitVec 32) (l : Fin 128) : EReal :=
  ∑ r : Fin 5000, if laneHit (x1 (ix2 r 0)) (x1 (ix2 r 1)) l then (1 : EReal) else 0

/-- The exponentials of lane `l`, summed over the tile's rows. -/
def tileExp (x0 : (⟨2, ![5000, 128]⟩ : Shape).Idx → EReal) (l : Fin 128) : EReal :=
  ∑ r : Fin 5000, Ideal.exp (x0 (ix2 r l))

/-- Lane `l`'s entries at the rows that hit it, summed over the tile's rows. -/
def tilePicked (x0 : (⟨2, ![5000, 128]⟩ : Shape).Idx → EReal) (x1 : (⟨2, ![5000, 2]⟩ : Shape).Idx → BitVec 32)
    (l : Fin 128) : EReal :=
  ∑ r : Fin 5000, if laneHit (x1 (ix2 r 0)) (x1 (ix2 r 1)) l then x0 (ix2 r l) else 0

/-! ## After the kernel: the two output arrays folded to the loss

`o1[c, 0, l]` for `l < 128` is core `c`'s count of lane `l`, for `l ≥ 128` its sum of exponentials of lane `l − 128`;
`o2[c, 0, l]` is core `c`'s picked sum of lane `l`. The host adds the two cores, then lanes `j` and `j + 64`
(the two original rows of a packed row), and forms the loss. -/

/-- Class `j`'s count from the first output array: both cores, lanes `j` and `j + 64`. -/
def foldedCount (o1 : (⟨3, ![2, 1, 256]⟩ : Shape).Idx → EReal) (j : Fin 64) : EReal :=
  (∑ c : Fin 2, o1 (ix3 c 0 ⟨j.val, by omega⟩)) + (∑ c : Fin 2, o1 (ix3 c 0 ⟨j.val + 64, by omega⟩))

/-- Class `j`'s sum of exponentials from the first output array: both cores, lanes `128 + j` and `128 + j + 64`. -/
def foldedExp (o1 : (⟨3, ![2, 1, 256]⟩ : Shape).Idx → EReal) (j : Fin 64) : EReal :=
  (∑ c : Fin 2, o1 (ix3 c 0 ⟨128 + j.val, by omega⟩)) + (∑ c : Fin 2, o1 (ix3 c 0 ⟨128 + j.val + 64, by omega⟩))

/-- The picked total from the second output array: every lane, both cores. -/
def foldedPicked (o2 : (⟨3, ![2, 1, 128]⟩ : Shape).Idx → EReal) : EReal :=
  ∑ l : Fin 128, ∑ c : Fin 2, o2 (ix3 c 0 l)

/-- What the host operations after the kernel make of its two output arrays. -/
def tailVal (o1 : (⟨3, ![2, 1, 256]⟩ : Shape).Idx → EReal) (o2 : (⟨3, ![2, 1, 128]⟩ : Shape).Idx → EReal) : EReal :=
  Ideal.div (-(foldedPicked o2)) rowCount
    + Ideal.div (∑ j : Fin 64, (foldedCount o1 j - foldedExp o1 j) * (foldedCount o1 j - foldedExp o1 j)) rowCount

/-- Packed row `k` of core `c`, tile `i`, row `r` inside the tile. -/
abbrev packedRow (c : Fin 2) (i : Fin 100) (r : Fin 5000) : ℕ := (100 * c.val + i.val) * 5000 + r.val

end Cert.Loss

end
-- ==== Proof.Pieces.lean ====
/-
  What one run of the kernel body leaves behind, as values of the tile it was given.

  The body keeps three accumulator rows of 128 lanes (hit counts, sums of exponentials, sums of picked entries).
  At the first tile of a core it stores zeros into each and then adds the tile's lane sums; at every other tile it adds
  the tile's lane sums to what the tile before left; at the last tile of a core it also copies the three rows into the
  two output blocks (the counts into lanes 0–127 and the exponentials into lanes 128–255 of the first, the picked sums
  into the second). Each accumulator row after the body is therefore ONE payload of the tile's two input blocks and of
  the row before (the zero row at a core's first tile), and each output block is a relaid copy of those payloads.
-/
import proofs.«418228_j46265387712705_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A core's first tile: the zero rows, then the tile's sums -/

theorem countA (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S5000x2 .i32) :
    sout0_A_0 c i arg2 harg2 arg3 harg3 arg4 harg4 arg5 harg5 arg6 harg6 arg7 harg7 arg8 harg8 hc0 hc1 x0 x1 = k0_pay12 x1 k0_pay6 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x128) hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

theorem expA (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S5000x2 .i32) :
    sout0_A_1 c i arg2 harg2 arg3 harg3 arg4 harg4 arg5 harg5 arg6 harg6 arg7 harg7 arg8 harg8 hc0 hc1 x0 x1 = k0_pay1 (k0_pay13 x0 k0_pay7) := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x128) hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

theorem pickA (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i) (x0 : Vec F S5000x128 .f32) (x1 : Vec F S5000x2 .i32) :
    sout0_A_2 c i arg2 harg2 arg3 harg3 arg4 harg4 arg5 harg5 arg6 harg6 arg7 harg7 arg8 harg8 hc0 hc1 x0 x1 = k0_pay2 (k0_pay11 x0 x1) k0_pay8 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x128) hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

/-! ## A later tile: the tile's sums added to the rows the tile before left -/

theorem countB (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S5000x2 .i32) (xs0 xs1 xs2 : Vec F S1x128 .f32) :
    sout0_B_0 c i arg2 harg2 arg3 harg3 arg4 harg4 arg5 harg5 arg6 harg6 arg7 harg7 arg8 harg8 hc0 hc1 x0 x1 xs0 xs1 xs2 = k0_pay12 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

theorem expB (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S5000x2 .i32) (xs0 xs1 xs2 : Vec F S1x128 .f32) :
    sout0_B_1 c i arg2 harg2 arg3 harg3 arg4 harg4 arg5 harg5 arg6 harg6 arg7 harg7 arg8 harg8 hc0 hc1 x0 x1 xs0 xs1 xs2 = k0_pay1 (k0_pay13 x0 xs1) := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

theorem pickB (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i) (x0 : Vec F S5000x128 .f32) (x1 : Vec F S5000x2 .i32) (xs0 xs1 xs2 : Vec F S1x128 .f32) :
    sout0_B_2 c i arg2 harg2 arg3 harg3 arg4 harg4 arg5 harg5 arg6 harg6 arg7 harg7 arg8 harg8 hc0 hc1 x0 x1 xs0 xs1 xs2 = k0_pay2 (k0_pay11 x0 x1) xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

/-! ## A core's last tile: the same sums, and the rows copied into the output blocks -/

theorem countC (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S5000x2 .i32) (xs0 xs1 xs2 : Vec F S1x128 .f32) :
    sout0_C_0 c i arg2 harg2 arg3 harg3 arg4 harg4 arg5 harg5 arg6 harg6 arg7 harg7 arg8 harg8 hc0 hc1 x0 x1 xs0 xs1 xs2 = k0_pay12 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

theorem expC (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S5000x2 .i32) (xs0 xs1 xs2 : Vec F S1x128 .f32) :
    sout0_C_1 c i arg2 harg2 arg3 harg3 arg4 harg4 arg5 harg5 arg6 harg6 arg7 harg7 arg8 harg8 hc0 hc1 x0 x1 xs0 xs1 xs2 = k0_pay1 (k0_pay13 x0 xs1) := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

theorem pickC (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S5000x2 .i32) (xs0 xs1 xs2 : Vec F S1x128 .f32) :
    sout0_C_2 c i arg2 harg2 arg3 harg3 arg4 harg4 arg5 harg5 arg6 harg6 arg7 harg7 arg8 harg8 hc0 hc1 x0 x1 xs0 xs1 xs2 = k0_pay2 (k0_pay11 x0 x1) xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

/-- The second output block after a core's last tile: the picked row, relaid as a [1,1,128] block. -/
theorem out3C (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S5000x2 .i32) (xs0 xs1 xs2 : Vec F S1x128 .f32) :
    out0_C_3 c i arg2 harg2 arg3 harg3 arg4 harg4 arg5 harg5 arg6 harg6 arg7 harg7 arg8 harg8 hc0 hc1 x0 x1 xs0 xs1 xs2 = k0_pay5 (k0_pay2 (k0_pay11 x0 x1) xs2) := by
  unfold out0_C_3
  rw [View.read_writes_eq_canon _ _ _ (cover0_C_3 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz3]
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

/-- The first output block after a core's last tile, as its two stores: lanes 128–255 hold the exponentials' row, lanes
    0–127 the counts' row (the later store first). -/
theorem out2C (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S5000x2 .i32) (xs0 xs1 xs2 : Vec F S1x128 .f32) :
    out0_C_2 c i arg2 harg2 arg3 harg3 arg4 harg4 arg5 harg5 arg6 harg6 arg7 harg7 arg8 harg8 hc0 hc1 x0 x1 xs0 xs1 xs2 = View.canon [(⟨Rect.unit ![0, 0, 128] ![1, 1, 128] Facts₀.inb_S1x1x256_S1x1x128_0_0_128, k0_pay4 (k0_pay1 (k0_pay13 x0 xs1))⟩ : View.Piece (Elt F) S1x1x256 .f32), ⟨Rect.unit ![0, 0, 0] ![1, 1, 128] Facts₀.inb_S1x1x256_S1x1x128_0_0_0, k0_pay3 (k0_pay12 x1 xs0)⟩] := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2)]
  unfold kernelRun0_C
  dsimp only
  sl_unfold_words
  simp only [View.readCov_unit_zero (S := S1x128) _ hz2, View.readAt_eq_ld, harg2.read_unread, harg3.read_unread, harg6.read_unread, harg7.read_unread, harg8.read_unread, View.ld_unit_zero (S := S5000x128) hz2, View.ld_unit_zero (S := S5000x2) hz2, View.ld_unit_zero (S := S1x128) hz2]

/-! ## Two half-blocks of 128 lanes stored into a block of 256 lanes, read back lane by lane -/

/-- Lane `128 + l` of the block reads the later store (the upper half) at lane `l`. -/
theorem canon2_hi (w4 w3 : S1x1x128.Idx → Elt F .f32) (l : Fin 128) :
    View.canon [(⟨Rect.unit ![0, 0, 128] ![1, 1, 128] Facts₀.inb_S1x1x256_S1x1x128_0_0_128, w4⟩ : View.Piece (Elt F) S1x1x256 .f32),
        ⟨Rect.unit ![0, 0, 0] ![1, 1, 128] Facts₀.inb_S1x1x256_S1x1x128_0_0_0, w3⟩] (ix3 0 0 ⟨128 + l.val, by omega⟩)
      = w4 (ix3 0 0 l) := by
  have e : (ix3 (0 : Fin 1) (0 : Fin 1) (⟨128 + l.val, by omega⟩ : Fin 256) : S1x1x256.Idx)
      = (Rect.unit (s := S1x1x256) ![0, 0, 128] ![1, 1, 128] Facts₀.inb_S1x1x256_S1x1x128_0_0_128).emb (ix3 (0 : Fin 1) (0 : Fin 1) l) := by
    funext a; apply Fin.ext; rw [Rect.emb_apply]
    match a with
    | ⟨0, _⟩ => rfl
    | ⟨1, _⟩ => rfl
    | ⟨2, _⟩ => show 128 + l.val = 128 + 1 * l.val; omega
  rw [e, View.canon_cons_emb]

/-- Lane `l < 128` of the block lies in the lower half's rectangle, which is disjoint from the upper half's (they are
    separated on the lane axis: 0 + 128 ≤ 128), so it reads the earlier store at lane `l`. -/
theorem canon2_lo (w4 w3 : S1x1x128.Idx → Elt F .f32) (l : Fin 128) :
    View.canon [(⟨Rect.unit ![0, 0, 128] ![1, 1, 128] Facts₀.inb_S1x1x256_S1x1x128_0_0_128, w4⟩ : View.Piece (Elt F) S1x1x256 .f32),
        ⟨Rect.unit ![0, 0, 0] ![1, 1, 128] Facts₀.inb_S1x1x256_S1x1x128_0_0_0, w3⟩] (ix3 0 0 ⟨l.val, by omega⟩)
      = w3 (ix3 0 0 l) := by
  have e : (ix3 (0 : Fin 1) (0 : Fin 1) (⟨l.val, by omega⟩ : Fin 256) : S1x1x256.Idx)
      = (Rect.unit (s := S1x1x256) ![0, 0, 0] ![1, 1, 128] Facts₀.inb_S1x1x256_S1x1x128_0_0_0).emb (ix3 (0 : Fin 1) (0 : Fin 1) l) := by
    funext a; apply Fin.ext; rw [Rect.emb_apply]
    match a with
    | ⟨0, _⟩ => rfl
    | ⟨1, _⟩ => rfl
    | ⟨2, _⟩ => show l.val = 0 + 1 * l.val; omega
  have hd : Disjoint (Rect.unit (s := S1x1x256) ![0, 0, 0] ![1, 1, 128] Facts₀.inb_S1x1x256_S1x1x128_0_0_0).set
      (Rect.unit (s := S1x1x256) ![0, 0, 128] ![1, 1, 128] Facts₀.inb_S1x1x256_S1x1x128_0_0_128).set :=
    Rect.unit_disjoint (⟨2, by decide⟩ : Fin S1x1x256.rank) (Or.inl (by decide))
  rw [e]
  have hm : (Rect.unit (s := S1x1x256) ![0, 0, 0] ![1, 1, 128] Facts₀.inb_S1x1x256_S1x1x128_0_0_0).emb (ix3 (0 : Fin 1) (0 : Fin 1) l)
      ∈ (Rect.unit (s := S1x1x256) ![0, 0, 0] ![1, 1, 128] Facts₀.inb_S1x1x256_S1x1x128_0_0_0).set := by
    rw [← Rect.map_emb_univ]; exact Finset.mem_map_of_mem _ (Finset.mem_univ _)
  refine (View.canon_cons_of_not_mem (⟨Rect.unit ![0, 0, 128] ![1, 1, 128] Facts₀.inb_S1x1x256_S1x1x128_0_0_128, w4⟩ : View.Piece (Elt F) S1x1x256 .f32) _ (Finset.disjoint_left.mp hd hm)).trans ?_
  exact View.canon_cons_emb (Rect.unit (s := S1x1x256) ![0, 0, 0] ![1, 1, 128] Facts₀.inb_S1x1x256_S1x1x128_0_0_0) w3 [] (ix3 (0 : Fin 1) (0 : Fin 1) l)

/-- The first output block after a core's last tile, at a lane of its lower half: the counts' row at that lane. -/
theorem out2C_lo (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S5000x2 .i32) (xs0 xs1 xs2 : Vec F S1x128 .f32) (l : Fin 128) :
    out0_C_2 c i arg2 harg2 arg3 harg3 arg4 harg4 arg5 harg5 arg6 harg6 arg7 harg7 arg8 harg8 hc0 hc1 x0 x1 xs0 xs1 xs2 (ix3 0 0 ⟨l.val, by omega⟩) = k0_pay3 (k0_pay12 x1 xs0) (ix3 0 0 l) :=
  (congrFun (out2C c i arg2 harg2 arg3 harg3 arg4 harg4 arg5 harg5 arg6 harg6 arg7 harg7 arg8 harg8 hc0 hc1 x0 x1 xs0 xs1 xs2) _).trans (canon2_lo _ _ l)

/-- … and at a lane of its upper half: the exponentials' row at that lane. -/
theorem out2C_hi (c : Dev nD) (i : grid0.Coords) (arg2 : Memref sig .tc .vmem S5000x128 .f32) (harg2 : arg2.IsWhole) (arg3 : Memref sig .tc .vmem S5000x2 .i32) (harg3 : arg3.IsWhole) (arg4 : Memref sig .tc .vmem S1x1x256 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i) (x0 : Vec F S5000x128 .f32) (x1 : Vec F S5000x2 .i32) (xs0 xs1 xs2 : Vec F S1x128 .f32) (l : Fin 128) :
    out0_C_2 c i arg2 harg2 arg3 harg3 arg4 harg4 arg5 harg5 arg6 harg6 arg7 harg7 arg8 harg8 hc0 hc1 x0 x1 xs0 xs1 xs2 (ix3 0 0 ⟨128 + l.val, by omega⟩) = k0_pay4 (k0_pay1 (k0_pay13 x0 xs1)) (ix3 0 0 l) :=
  (congrFun (out2C c i arg2 harg2 arg3 harg3 arg4 harg4 arg5 harg5 arg6 harg6 arg7 harg7 arg8 harg8 hc0 hc1 x0 x1 xs0 xs1 xs2) _).trans (canon2_hi _ _ l)

end Cert.KernelIdeal.Pieces

end
-- ==== Proof.TilePayloads.lean ====
/-
  The kernel body's arithmetic, read at one lane, over the extended reals.

  A tile is a block x0 of 5000 packed rows of 128 lanes and the block x1 of their 5000 × 2 target words. A packed row
  holds two original rows of 64 classes side by side: lane l < 64 is class l of the first row, lane l ≥ 64 is class
  l − 64 of the second. The body forms a one-bit MASK over the tile: at (r, l) it compares the lane's class word
  (the word of l if l < 64, else the word of l minus 64) with the target word of that lane's original row (column 0 of
  x1 if l < 64, else column 1). So the mask is set at (r, l) exactly when row r HITS lane l.

  Each of the three accumulator rows [1, 128] then receives, lane by lane, a sum over the tile's 5000 rows:
    the mask read as 1 or 0          (how many rows hit the lane),
    the exponential of x0            (the lane's column sum of exponentials),
    x0 where the mask is set, else 0 (the lane's entries at the rows that hit it).
  The remaining values of the body are the zero row an accumulator starts from and the accumulator rows handed to the
  output blocks [1, 1, 128] unchanged.
-/
import proofs.«418228_j46265387712705_2_alg».proof.Proof.Gen.KernelIdeal.Skeleton
import proofs.«418228_j46265387712705_2_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.Tile

open Cert.KernelIdeal Cert.KernelIdeal.Gen Cert.Loss Idealize.ShloMosaic Idealize.ShloMosaic.ValueIdx

/-! ## The words of a lane number -/

/-- The word of a lane number (below 128) is below the word 64, read signed, exactly when the number is below 64. -/
theorem lane_slt (l : Fin 128) : IntOp.cmpi .slt (BitVec.ofNat 32 l.val) 64#32 = 1#1 ↔ l.val < 64 := by
  have hl := l.isLt
  have h1 : (BitVec.ofNat 32 l.val).toNat = l.val := by rw [BitVec.toNat_ofNat]; omega
  have h2 : (64#32 : BitVec 32).toNat = 64 := by decide
  rw [StableHlo.Predicate.slt_iff_toNat (by omega) (by omega), h1, h2]

/-- Subtracting the word 64 from the word of a lane number that is at least 64 gives the word of the difference. -/
theorem lane_sub (l : Fin 128) (h : 64 ≤ l.val) :
    IntOp.subi (BitVec.ofNat 32 l.val) 64#32 = BitVec.ofNat 32 (l.val - 64) := by
  have hl := l.isLt
  unfold IntOp.subi
  apply BitVec.eq_of_toNat_eq
  simp only [BitVec.toNat_sub, BitVec.toNat_ofNat]
  omega

/-! ## The mask -/

/-- The lane numbering of a tile: at (r, l), the word of l. -/
theorem laneWord_apply (h : S5000x128.Iotas .tc 32 [1]) (r : Fin 5000) (l : Fin 128) :
    iota .tc S5000x128 32 [1] h (ix2 r l) = BitVec.ofNat 32 l.val :=
  iota_single_apply .tc S5000x128 32 1 h (ix2 r l)

/-- Column 0 of the target words, laid along the lanes: at (r, l), the first target word of row r. -/
theorem target0_apply (x1 : IVec S5000x2 32) (h1 : S5000x2.ShapeCasts S5000x2) (h2 : S5000x2.Slices ![0, 0] S5000x1)
    (h3 : S5000x1.ShapeCasts S5000x1) (h4 : S5000x1.Broadcasts S5000x128) (r : Fin 5000) (l : Fin 128) :
    broadcastTo S5000x128 (shapeCast S5000x1 (extractStridedSlice S5000x1 ![0, 0] (shapeCast S5000x2 x1 h1) h2) h3) h4 (ix2 r l)
      = x1 (ix2 r 0) := by
  refine (broadcastTo_apply _ h4 (ix2 r l) (ix2 r (0 : Fin 1)) fun a => ?_).trans ?_
  · match a with
    | ⟨0, _⟩ =>
      show r.val = if (5000 : ℕ) = 1 then 0 else r.val
      rw [if_neg (by decide)]
    | ⟨1, _⟩ =>
      show (0 : ℕ) = if (1 : ℕ) = 1 then 0 else l.val
      rw [if_pos rfl]
  · rw [shapeCast_self, shapeCast_self]
    exact slice2_axis1_apply 0 x1 h2 r (0 : Fin 1) (0 : Fin 2) rfl

/-- Column 1 of the target words, laid along the lanes: at (r, l), the second target word of row r. -/
theorem target1_apply (x1 : IVec S5000x2 32) (h1 : S5000x2.ShapeCasts S5000x2) (h2 : S5000x2.Slices ![0, 1] S5000x1)
    (h3 : S5000x1.ShapeCasts S5000x1) (h4 : S5000x1.Broadcasts S5000x128) (r : Fin 5000) (l : Fin 128) :
    broadcastTo S5000x128 (shapeCast S5000x1 (extractStridedSlice S5000x1 ![0, 1] (shapeCast S5000x2 x1 h1) h2) h3) h4 (ix2 r l)
      = x1 (ix2 r 1) := by
  refine (broadcastTo_apply _ h4 (ix2 r l) (ix2 r (0 : Fin 1)) fun a => ?_).trans ?_
  · match a with
    | ⟨0, _⟩ =>
      show r.val = if (5000 : ℕ) = 1 then 0 else r.val
      rw [if_neg (by decide)]
    | ⟨1, _⟩ =>
      show (0 : ℕ) = if (1 : ℕ) = 1 then 0 else l.val
      rw [if_pos rfl]
  · rw [shapeCast_self, shapeCast_self]
    exact slice2_axis1_apply 1 x1 h2 r (0 : Fin 1) (1 : Fin 2) rfl

/-- The mask at (r, l) as a comparison of two selected words: the lane's class word against its row's target word. -/
theorem mask_val (x1 : Vec Ideal S5000x2 .i32) (r : Fin 5000) (l : Fin 128) :
    k0_pay10 (F := Ideal) x1 (ix2 r l)
      = IntOp.cmpi .eq
          (Scalar.select (IntOp.cmpi .slt (BitVec.ofNat 32 l.val) 64#32) (BitVec.ofNat 32 l.val)
            (IntOp.subi (BitVec.ofNat 32 l.val) 64#32))
          (Scalar.select (IntOp.cmpi .slt (BitVec.ofNat 32 l.val) 64#32) (x1 (ix2 r 0)) (x1 (ix2 r 1))) := by
  unfold k0_pay10
  show IntOp.cmpi .eq
      (Scalar.select (IntOp.cmpi .slt (iota .tc S5000x128 32 [1] iota_S5000x128_d1_w32 (ix2 r l)) 64#32)
        (iota .tc S5000x128 32 [1] iota_S5000x128_d1_w32 (ix2 r l))
        (IntOp.subi (iota .tc S5000x128 32 [1] iota_S5000x128_d1_w32 (ix2 r l)) 64#32))
      (Scalar.select (IntOp.cmpi .slt (iota .tc S5000x128 32 [1] iota_S5000x128_d1_w32 (ix2 r l)) 64#32)
        (broadcastTo S5000x128 (shapeCast S5000x1 (extractStridedSlice S5000x1 ![0, 0]
          (shapeCast S5000x2 x1 shapeCasts_S5000x2_S5000x2) slices_S5000x2_o0_0_S5000x1) shapeCasts_S5000x1_S5000x1)
          broadcasts_S5000x1_S5000x128 (ix2 r l))
        (broadcastTo S5000x128 (shapeCast S5000x1 (extractStridedSlice S5000x1 ![0, 1]
          (shapeCast S5000x2 x1 shapeCasts_S5000x2_S5000x2) slices_S5000x2_o0_1_S5000x1) shapeCasts_S5000x1_S5000x1)
          broadcasts_S5000x1_S5000x128 (ix2 r l))) = _
  rw [laneWord_apply, target0_apply, target1_apply]

/-- The mask is set at (r, l) exactly when row r hits lane l. -/
theorem mask_apply (x1 : Vec Ideal S5000x2 .i32) (r : Fin 5000) (l : Fin 128) :
    k0_pay10 (F := Ideal) x1 (ix2 r l) = 1#1 ↔ laneHit (x1 (ix2 r 0)) (x1 (ix2 r 1)) l := by
  rw [mask_val, StableHlo.Predicate.cmpi_eq_iff]
  unfold laneHit
  by_cases h : l.val < 64
  · rw [(lane_slt l).mpr h, select_one, select_one, if_pos h]
  · rw [eq_zero_of_ne_one (mt (lane_slt l).mp h), select_zero, select_zero, if_neg h, lane_sub l (by omega)]

/-! ## A lane's sum over the tile's rows, added to an accumulator row -/

/-- The index of a tile over lane l with row r inserted is (r, l). -/
theorem lift_lane (hr : S5000x128.Reduces [0] S128) (l : Fin 128) (r : Fin 5000) : hr.lift (ix1 l) r = ix2 r l := by
  funext c
  match c with
  | ⟨0, _⟩ => exact Fin.ext rfl
  | ⟨1, _⟩ => exact Fin.ext rfl

/-- An accumulator row plus the column sums of a tile, read at lane l: the accumulator's entry plus the sum over the
    tile's rows of the tile's entries in that lane. -/
theorem accumulate_apply (src : FVec Ideal S5000x128 .f32) (acc : FVec Ideal S1x128 .f32)
    (hr : S5000x128.Reduces [0] S128) (hφ : FKind.Formats .f32)
    (hacc : (0x00000000#32 : BitVec 32) = FKind.add.neutral .f32 hφ) (hc : S128.ShapeCasts S1x128) (l : Fin 128) :
    addf acc (shapeCast S1x128 (multiReduction .add [0] S128 src 0x00000000#32 hr hφ hacc) hc) (ix2 0 l)
      = acc (ix2 0 l) + ∑ r : Fin 5000, src (ix2 r l) := by
  refine (addf_apply _ _ _).trans (congrArg (acc (ix2 0 l) + ·) ?_)
  refine (shapeCast_a_1a_apply _ hc 0 l).trans ?_
  refine (Ideal.multiReduction_add_single src _ hr hφ hacc (ix1 l)).trans ?_
  exact Finset.sum_congr rfl fun r _ => congrArg src (lift_lane hr l r)

/-! ## The three accumulators -/

/-- The mask's bit read as a number: 1 where row r hits lane l, else 0. -/
theorem hit_term (x1 : Vec Ideal S5000x2 .i32) (r : Fin 5000) (l : Fin 128) :
    sitofp (F := Ideal) .f32 (extui 32 (k0_pay10 (F := Ideal) x1) natLt_1_32) (ix2 r l)
      = if laneHit (x1 (ix2 r 0)) (x1 (ix2 r 1)) l then (1 : EReal) else 0 := by
  show (((((k0_pay10 (F := Ideal) x1 (ix2 r l)).setWidth 32).toInt : ℤ) : ℝ) : EReal) = _
  by_cases h : laneHit (x1 (ix2 r 0)) (x1 (ix2 r 1)) l
  · rw [if_pos h, (mask_apply x1 r l).mpr h]
    have e : ((1#1 : BitVec 1).setWidth 32).toInt = 1 := by decide
    rw [e]; simp
  · rw [if_neg h, eq_zero_of_ne_one (mt (mask_apply x1 r l).mp h)]
    have e : ((0#1 : BitVec 1).setWidth 32).toInt = 0 := by decide
    rw [e]; simp

/-- The count accumulator: lane l gains the number of the tile's rows that hit it. -/
theorem pay12_apply (x1 : Vec Ideal S5000x2 .i32) (acc : Vec Ideal S1x128 .f32) (l : Fin 128) :
    k0_pay12 (F := Ideal) x1 acc (ix2 0 l) = acc (ix2 0 l) + tileCount x1 l := by
  unfold k0_pay12
  refine (congrFun (shapeCast_self _ _) (ix2 0 l)).trans ?_
  refine (accumulate_apply _ acc _ _ _ _ l).trans (congrArg (acc (ix2 0 l) + ·) ?_)
  exact Finset.sum_congr rfl fun r _ => hit_term x1 r l

/-- The exponential accumulator: lane l gains the sum over the tile's rows of the exponentials of its entries. -/
theorem pay13_apply (x0 : Vec Ideal S5000x128 .f32) (acc : Vec Ideal S1x128 .f32) (l : Fin 128) :
    k0_pay1 (F := Ideal) (k0_pay13 (F := Ideal) x0 acc) (ix2 0 l) = acc (ix2 0 l) + tileExp x0 l := by
  unfold k0_pay1 k0_pay13 k0_pay9
  refine (congrFun (shapeCast_self _ _) (ix2 0 l)).trans ?_
  refine (accumulate_apply _ acc _ _ _ _ l).trans (congrArg (acc (ix2 0 l) + ·) ?_)
  refine Finset.sum_congr rfl fun r _ => ?_
  show Ideal.exp (shapeCast S5000x128 x0 shapeCasts_S5000x128_S5000x128 (ix2 r l)) = Ideal.exp (x0 (ix2 r l))
  rw [shapeCast_self]

/-- A tile's entry kept where the mask is set: at (r, l), the entry if row r hits lane l, else 0. -/
theorem picked_term (x0 : Vec Ideal S5000x128 .f32) (x1 : Vec Ideal S5000x2 .i32) (r : Fin 5000) (l : Fin 128) :
    k0_pay11 (F := Ideal) x0 x1 (ix2 r l) = if laneHit (x1 (ix2 r 0)) (x1 (ix2 r 1)) l then x0 (ix2 r l) else 0 := by
  unfold k0_pay11 k0_pay9
  show Scalar.select (k0_pay10 (F := Ideal) x1 (ix2 r l))
      (shapeCast S5000x128 x0 shapeCasts_S5000x128_S5000x128 (ix2 r l)) (Ideal.ofBits .f32 0x00000000#32) = _
  rw [shapeCast_self, Ideal.ofBits_zero_f32]
  by_cases h : laneHit (x1 (ix2 r 0)) (x1 (ix2 r 1)) l
  · rw [if_pos h, (mask_apply x1 r l).mpr h, select_one]
  · rw [if_neg h, eq_zero_of_ne_one (mt (mask_apply x1 r l).mp h), select_zero]

/-- The picked accumulator: lane l gains the sum of its entries at the tile's rows that hit it. -/
theorem pay2_apply (x0 : Vec Ideal S5000x128 .f32) (x1 : Vec Ideal S5000x2 .i32) (acc : Vec Ideal S1x128 .f32)
    (l : Fin 128) :
    k0_pay2 (F := Ideal) (k0_pay11 (F := Ideal) x0 x1) acc (ix2 0 l) = acc (ix2 0 l) + tilePicked x0 x1 l := by
  unfold k0_pay2
  refine (congrFun (shapeCast_self _ _) (ix2 0 l)).trans ?_
  refine (accumulate_apply _ acc _ _ _ _ l).trans (congrArg (acc (ix2 0 l) + ·) ?_)
  exact Finset.sum_congr rfl fun r _ => picked_term x0 x1 r l

/-! ## The zero rows and the rows handed to the output blocks -/

/-- A row of the zero word reads 0 in every lane. -/
theorem zeroRow_apply (h : S1x128.ShapeCasts S1x128) (l : Fin 128) :
    shapeCast S1x128 (broadcast S1x128 (Scalar.ofBits (F := Ideal) .f32 0x00000000#32)) h (ix2 0 l) = 0 := by
  rw [shapeCast_self]
  exact Ideal.ofBits_zero_f32

theorem pay6_apply (l : Fin 128) : k0_pay6 (F := Ideal) (ix2 0 l) = 0 := zeroRow_apply _ l
theorem pay7_apply (l : Fin 128) : k0_pay7 (F := Ideal) (ix2 0 l) = 0 := zeroRow_apply _ l
theorem pay8_apply (l : Fin 128) : k0_pay8 (F := Ideal) (ix2 0 l) = 0 := zeroRow_apply _ l

/-- A row [1, 128] viewed as a block [1, 1, 128] keeps its lanes. -/
theorem pay3_apply (v : Vec Ideal S1x128 .f32) (l : Fin 128) : k0_pay3 (F := Ideal) v (ix3 0 0 l) = v (ix2 0 l) :=
  shapeCast_ab_1ab_apply v shapeCasts_S1x128_S1x1x128 0 0 l
theorem pay4_apply (v : Vec Ideal S1x128 .f32) (l : Fin 128) : k0_pay4 (F := Ideal) v (ix3 0 0 l) = v (ix2 0 l) :=
  shapeCast_ab_1ab_apply v shapeCasts_S1x128_S1x1x128 0 0 l
theorem pay5_apply (v : Vec Ideal S1x128 .f32) (l : Fin 128) : k0_pay5 (F := Ideal) v (ix3 0 0 l) = v (ix2 0 l) :=
  shapeCast_ab_1ab_apply v shapeCasts_S1x128_S1x1x128 0 0 l

end Cert.KernelIdeal.Tile

end
-- ==== Proof.Invariant.lean ====
/-
  The three accumulator rows after each grid point, lane by lane.

  The grid's 200 points are walked in order; point n is tile n mod 100 of core n / 100. Lane l of each accumulator row
  after point n is the sum, over the tiles k of the same core walked so far (k from 100·(n / 100) to n), of that tile's
  lane sum: the hit count, the sum of exponentials, the sum of picked entries. A core's first tile starts from the zero
  rows; every other tile adds to what the tile before left. This is an induction on the point.
-/
import proofs.«418228_j46265387712705_2_alg».proof.Proof.Gen.KernelIdeal.Frame
import proofs.«418228_j46265387712705_2_alg».proof.Proof.Spec
import proofs.«418228_j46265387712705_2_alg».proof.Proof.Pieces
import proofs.«418228_j46265387712705_2_alg».proof.Proof.TilePayloads
import Idealize.ShloMosaic.Lib.ValueIdx
import Mathlib.Algebra.BigOperators.Intervals
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.Loss Idealize.ShloMosaic.ValueIdx

variable (m : (ℓ : Loc nD τ sig) → Buf (Elt Ideal) ℓ)

/-- Tile `t`'s block of packed predictions and its block of target pairs, at their literal types. -/
abbrev xblk (c : Dev nD) (t : Fin cfg0.N) : Vec Ideal S5000x128 .f32 := iblk m c 0 t
abbrev tblk (c : Dev nD) (t : Fin cfg0.N) : Vec Ideal S5000x2 .i32 := iblk m c 1 t

/-- The same as total functions of the position (zero blocks past the grid, which no sum below reaches). -/
def xblkN (c : Dev nD) (n : ℕ) : Vec Ideal S5000x128 .f32 := if h : n < cfg0.N then xblk m c ⟨n, h⟩ else fun _ => (0 : EReal)
def tblkN (c : Dev nD) (n : ℕ) : Vec Ideal S5000x2 .i32 := if h : n < cfg0.N then tblk m c ⟨n, h⟩ else fun _ => (0 : BitVec 32)

theorem xblkN_of_lt (c : Dev nD) (n : ℕ) (h : n < cfg0.N) : xblkN m c n = xblk m c ⟨n, h⟩ := dif_pos h
theorem tblkN_of_lt (c : Dev nD) (n : ℕ) (h : n < cfg0.N) : tblkN m c n = tblk m c ⟨n, h⟩ := dif_pos h

/-- The three rows after point `n`: the scratch components of the frame's point-by-point contents. -/
abbrev countRow (c : Dev nD) (n : ℕ) (h : n < cfg0.N) : Vec Ideal S1x128 .f32 := (outsAt0 m c n h).2.2.1
abbrev expRow (c : Dev nD) (n : ℕ) (h : n < cfg0.N) : Vec Ideal S1x128 .f32 := (outsAt0 m c n h).2.2.2.1
abbrev pickRow (c : Dev nD) (n : ℕ) (h : n < cfg0.N) : Vec Ideal S1x128 .f32 := (outsAt0 m c n h).2.2.2.2

/-- The tiles of point `n`'s core walked up to `n`. -/
abbrev walked (n : ℕ) : Finset ℕ := Finset.Icc (n / 100 * 100) n

theorem walked_first (n : ℕ) (h : n % 100 = 0) : walked n = {n} := by
  have : n / 100 * 100 = n := by omega
  rw [walked, this, Finset.Icc_self]

theorem walked_succ (n : ℕ) (h : ¬(n + 1) % 100 = 0) : (n + 1) / 100 * 100 = n / 100 * 100 := by omega

/-- THE INVARIANT: lane `l` of the three rows after point `n`. -/
theorem rows_lane (c : Dev nD) (l : Fin 128) : ∀ (n : ℕ) (h : n < cfg0.N),
    countRow m c n h (ix2 0 l) = ∑ k ∈ walked n, tileCount (tblkN m c k) l
    ∧ expRow m c n h (ix2 0 l) = ∑ k ∈ walked n, tileExp (xblkN m c k) l
    ∧ pickRow m c n h (ix2 0 l) = ∑ k ∈ walked n, tilePicked (xblkN m c k) (tblkN m c k) l := by
  intro n
  induction n with
  | zero =>
    intro h
    have h0 : (⟨0, h⟩ : Fin cfg0.N).val % 100 = 0 := rfl
    have h1 : ¬(⟨0, h⟩ : Fin cfg0.N).val % 100 = 99 := (by decide : ¬(0 : ℕ) % 100 = 99)
    rw [walked_first 0 rfl, Finset.sum_singleton, Finset.sum_singleton, Finset.sum_singleton, xblkN_of_lt m c 0 h, tblkN_of_lt m c 0 h]
    unfold countRow expRow pickRow
    rw [outsAt0_A m c ⟨0, h⟩ h0 h1]
    dsimp only
    refine ⟨?_, ?_, ?_⟩
    · refine (congrFun (Pieces.countA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) ((hcond0_0 ⟨0, h⟩).mpr h0) (fun hh => h1 ((hcond0_1 ⟨0, h⟩).mp hh)) (xblk m c ⟨0, h⟩) (tblk m c ⟨0, h⟩)) (ix2 0 l)).trans ?_
      rw [Tile.pay12_apply, Tile.pay6_apply, zero_add]
    · refine (congrFun (Pieces.expA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) ((hcond0_0 ⟨0, h⟩).mpr h0) (fun hh => h1 ((hcond0_1 ⟨0, h⟩).mp hh)) (xblk m c ⟨0, h⟩) (tblk m c ⟨0, h⟩)) (ix2 0 l)).trans ?_
      rw [Tile.pay13_apply, Tile.pay7_apply, zero_add]
    · refine (congrFun (Pieces.pickA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) ((hcond0_0 ⟨0, h⟩).mpr h0) (fun hh => h1 ((hcond0_1 ⟨0, h⟩).mp hh)) (xblk m c ⟨0, h⟩) (tblk m c ⟨0, h⟩)) (ix2 0 l)).trans ?_
      rw [Tile.pay2_apply, Tile.pay8_apply, zero_add]
  | succ n ih =>
    intro h
    have hN : cfg0.N = 200 := N_0
    have hn : n < cfg0.N := Nat.lt_of_succ_lt h
    obtain ⟨ihc, ihe, ihp⟩ := ih hn
    by_cases h0 : (n + 1) % 100 = 0
    · -- a core's first tile
      have h1 : ¬(n + 1) % 100 = 99 := by omega
      rw [walked_first (n + 1) h0, Finset.sum_singleton, Finset.sum_singleton, Finset.sum_singleton, xblkN_of_lt m c (n + 1) h, tblkN_of_lt m c (n + 1) h]
      unfold countRow expRow pickRow
      rw [outsAt0_A m c ⟨n + 1, h⟩ h0 h1]
      dsimp only
      refine ⟨?_, ?_, ?_⟩
      · refine (congrFun (Pieces.countA (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) ((hcond0_0 ⟨n + 1, h⟩).mpr h0) (fun hh => h1 ((hcond0_1 ⟨n + 1, h⟩).mp hh)) (xblk m c ⟨n + 1, h⟩) (tblk m c ⟨n + 1, h⟩)) (ix2 0 l)).trans ?_
        rw [Tile.pay12_apply, Tile.pay6_apply, zero_add]
      · refine (congrFun (Pieces.expA (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) ((hcond0_0 ⟨n + 1, h⟩).mpr h0) (fun hh => h1 ((hcond0_1 ⟨n + 1, h⟩).mp hh)) (xblk m c ⟨n + 1, h⟩) (tblk m c ⟨n + 1, h⟩)) (ix2 0 l)).trans ?_
        rw [Tile.pay13_apply, Tile.pay7_apply, zero_add]
      · refine (congrFun (Pieces.pickA (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) ((hcond0_0 ⟨n + 1, h⟩).mpr h0) (fun hh => h1 ((hcond0_1 ⟨n + 1, h⟩).mp hh)) (xblk m c ⟨n + 1, h⟩) (tblk m c ⟨n + 1, h⟩)) (ix2 0 l)).trans ?_
        rw [Tile.pay2_apply, Tile.pay8_apply, zero_add]
    · -- a later tile: the rows of point n, plus tile n + 1
      have hw : walked (n + 1) = Finset.Icc (n / 100 * 100) (n + 1) := by rw [walked, walked_succ n h0]
      have hle : n / 100 * 100 ≤ n + 1 := by omega
      rw [hw, Finset.sum_Icc_succ_top hle, Finset.sum_Icc_succ_top hle, Finset.sum_Icc_succ_top hle, xblkN_of_lt m c (n + 1) h, tblkN_of_lt m c (n + 1) h]
      unfold countRow at ihc
      unfold expRow at ihe
      unfold pickRow at ihp
      unfold countRow expRow pickRow
      by_cases h1 : (n + 1) % 100 = 99
      · rw [outsAt0_C m c ⟨n + 1, h⟩ h0 h1]
        dsimp only
        refine ⟨?_, ?_, ?_⟩
        · refine (congrFun (Pieces.countC (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (xblk m c ⟨n + 1, h⟩) (tblk m c ⟨n + 1, h⟩) (outsAt0 m c n hn).2.2.1 (outsAt0 m c n hn).2.2.2.1 (outsAt0 m c n hn).2.2.2.2) (ix2 0 l)).trans ?_
          rw [Tile.pay12_apply, ihc]
        · refine (congrFun (Pieces.expC (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (xblk m c ⟨n + 1, h⟩) (tblk m c ⟨n + 1, h⟩) (outsAt0 m c n hn).2.2.1 (outsAt0 m c n hn).2.2.2.1 (outsAt0 m c n hn).2.2.2.2) (ix2 0 l)).trans ?_
          rw [Tile.pay13_apply, ihe]
        · refine (congrFun (Pieces.pickC (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (xblk m c ⟨n + 1, h⟩) (tblk m c ⟨n + 1, h⟩) (outsAt0 m c n hn).2.2.1 (outsAt0 m c n hn).2.2.2.1 (outsAt0 m c n hn).2.2.2.2) (ix2 0 l)).trans ?_
          rw [Tile.pay2_apply, ihp]
      · rw [outsAt0_B m c ⟨n + 1, h⟩ h0 h1]
        dsimp only
        refine ⟨?_, ?_, ?_⟩
        · refine (congrFun (Pieces.countB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (xblk m c ⟨n + 1, h⟩) (tblk m c ⟨n + 1, h⟩) (outsAt0 m c n hn).2.2.1 (outsAt0 m c n hn).2.2.2.1 (outsAt0 m c n hn).2.2.2.2) (ix2 0 l)).trans ?_
          rw [Tile.pay12_apply, ihc]
        · refine (congrFun (Pieces.expB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (xblk m c ⟨n + 1, h⟩) (tblk m c ⟨n + 1, h⟩) (outsAt0 m c n hn).2.2.1 (outsAt0 m c n hn).2.2.2.1 (outsAt0 m c n hn).2.2.2.2) (ix2 0 l)).trans ?_
          rw [Tile.pay13_apply, ihe]
        · refine (congrFun (Pieces.pickB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (xblk m c ⟨n + 1, h⟩) (tblk m c ⟨n + 1, h⟩) (outsAt0 m c n hn).2.2.1 (outsAt0 m c n hn).2.2.2.1 (outsAt0 m c n hn).2.2.2.2) (ix2 0 l)).trans ?_
          rw [Tile.pay2_apply, ihp]

end Cert.KernelIdeal.Acc

end
-- ==== Proof.Flush.lean ====
/-
  From a core's last tile to the two output arrays.

  Each output array has one block per core, written back once, after the core's last tile (point 100·c + 99). The two
  cores' blocks are different blocks of the array, so after the run block c holds exactly what core c's last tile left:
  the counts' row in lanes 0–127 and the exponentials' row in lanes 128–255 of the first array, the picked row in the
  second. With the invariant of the accumulator rows this gives every entry of the two arrays as a sum over the core's
  100 tiles of that tile's lane sum.
-/
import proofs.«418228_j46265387712705_2_alg».proof.Proof.Gen.KernelIdeal.Frame
import proofs.«418228_j46265387712705_2_alg».proof.Proof.Spec
import proofs.«418228_j46265387712705_2_alg».proof.Proof.Pieces
import proofs.«418228_j46265387712705_2_alg».proof.Proof.TilePayloads
import proofs.«418228_j46265387712705_2_alg».proof.Proof.Invariant
import Idealize.ShloMosaic.Lib.Pipeline.Cells
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Flush

open Cert.KernelIdeal Cert.KernelIdeal.Gen Cert.Loss Idealize.ShloMosaic.ValueIdx

variable (m : (ℓ : Loc nD τ sig) → Buf (Elt Ideal) ℓ)

/-- Output window 2's block index at point `t` is (t / 100, 0, 0): the core. Decided over the grid. -/
theorem idx2 : ∀ t : Fin cfg0.N, win0_2.index t (0 : Fin 3) = t.val / 100 ∧ win0_2.index t (1 : Fin 3) = 0 ∧ win0_2.index t (2 : Fin 3) = 0 :=
  (by decide +kernel : ∀ t : Fin grid0.N, win0_2.index t (0 : Fin 3) = t.val / 100 ∧ win0_2.index t (1 : Fin 3) = 0 ∧ win0_2.index t (2 : Fin 3) = 0)
/-- Output window 3's likewise. -/
theorem idx3 : ∀ t : Fin cfg0.N, win0_3.index t (0 : Fin 3) = t.val / 100 ∧ win0_3.index t (1 : Fin 3) = 0 ∧ win0_3.index t (2 : Fin 3) = 0 :=
  (by decide +kernel : ∀ t : Fin grid0.N, win0_3.index t (0 : Fin 3) = t.val / 100 ∧ win0_3.index t (1 : Fin 3) = 0 ∧ win0_3.index t (2 : Fin 3) = 0)

/-- The last point of core `cc`. -/
def lastPt (cc : Fin 2) : Fin cfg0.N := ⟨100 * cc.val + 99, by have := cc.isLt; rw [show cfg0.N = 200 from N_0]; omega⟩

theorem lastPt_val (cc : Fin 2) : (lastPt cc).val = 100 * cc.val + 99 := rfl

/-- Two different points that write window 2 back are the two cores' last points: their blocks are different blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (by
    have h1 := (flush0_2 t).mp hf
    have h2 := (flush0_2 t').mp hf'
    have h0 : win0_2.index t (0 : Fin 3) = win0_2.index t' (0 : Fin 3) := congrFun h 0
    rw [(idx2 t).1, (idx2 t').1] at h0
    exact Fin.ext (by omega))
theorem disjoint3 : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (by
    have h1 := (flush0_3 t).mp hf
    have h2 := (flush0_3 t').mp hf'
    have h0 : win0_3.index t (0 : Fin 3) = win0_3.index t' (0 : Fin 3) := congrFun h 0
    rw [(idx3 t).1, (idx3 t').1] at h0
    exact Fin.ext (by omega))

/-- The two arrays after the run, at their literal types. -/
abbrev arr1 (c : Dev nD) : S2x1x256.Idx → EReal := (dats m 0 c).arrAt 2 cfg0.N
abbrev arr2 (c : Dev nD) : S2x1x128.Idx → EReal := (dats m 0 c).arrAt 3 cfg0.N

/-- The second array at (core, 0, lane) is the picked row after the core's last tile at that lane. -/
theorem arr2_row (c : Dev nD) (cc : Fin 2) (l : Fin 128) :
    arr2 m c (ix3 cc 0 l) = Acc.pickRow m c (lastPt cc).val (lastPt cc).isLt (ix2 0 l) := by
  have h0 : ¬(lastPt cc).val % 100 = 0 := by rw [lastPt_val]; omega
  have h1 : (lastPt cc).val % 100 = 99 := by rw [lastPt_val]; omega
  have hp : (lastPt cc).val - 1 < cfg0.N := Nat.lt_of_le_of_lt (Nat.sub_le _ _) (lastPt cc).isLt
  have hf : (cfg0.win 3).flush (lastPt cc) = true := (flush0_3 (lastPt cc)).mpr h1
  have h := (dats m 0 c).arrAt_emb_eq_flushed 3 disjoint3 (lastPt cc) hf (ix3 (0 : Fin 1) (0 : Fin 1) l)
  have e : ((cfg0.win 3).blk (lastPt cc)).view.emb (ix3 (0 : Fin 1) (0 : Fin 1) l) = (ix3 cc (0 : Fin 1) l : S2x1x128.Idx) := by
    obtain ⟨e0, e1, e2⟩ := idx3 (lastPt cc)
    funext a; apply Fin.ext
    match a with
    | ⟨0, _⟩ => show win0_3.index (lastPt cc) (0 : Fin 3) * 1 + 1 * 0 = cc.val; rw [e0, lastPt_val]; have := cc.isLt; omega
    | ⟨1, _⟩ => show win0_3.index (lastPt cc) (1 : Fin 3) * 1 + 1 * 0 = 0; omega
    | ⟨2, _⟩ => show win0_3.index (lastPt cc) (2 : Fin 3) * 128 + 1 * l.val = l.val; omega
  rw [e] at h
  refine h.trans ?_
  show (cfg0.win 3).cut (grid0.coords (lastPt cc)) ((dats m 0 c).after 3 (lastPt cc)) (ix3 (0 : Fin 1) (0 : Fin 1) l) = _
  rw [after0_3]
  unfold Acc.pickRow
  rw [outsAt0_C m c (lastPt cc) h0 h1]
  dsimp only
  refine (congrFun (Pieces.out3C (F := Ideal) c (grid0.coords (lastPt cc)) (ms0_0 (lastPt cc)) (hs0_0 (lastPt cc)) (ms0_1 (lastPt cc)) (hs0_1 (lastPt cc)) (ms0_2 (lastPt cc)) (hs0_2 (lastPt cc)) (ms0_3 (lastPt cc)) (hs0_3 (lastPt cc)) scM0_0 (Memref.isWhole_whole _) scM0_1 (Memref.isWhole_whole _) scM0_2 (Memref.isWhole_whole _) (fun hh => h0 ((hcond0_0 (lastPt cc)).mp hh)) ((hcond0_1 (lastPt cc)).mpr h1) (Acc.xblk m c (lastPt cc)) (Acc.tblk m c (lastPt cc)) (outsAt0 m c ((lastPt cc).val - 1) hp).2.2.1 (outsAt0 m c ((lastPt cc).val - 1) hp).2.2.2.1 (outsAt0 m c ((lastPt cc).val - 1) hp).2.2.2.2) (ix3 (0 : Fin 1) (0 : Fin 1) l)).trans ?_
  rw [Tile.pay5_apply]
  exact (congrFun (Pieces.pickC (F := Ideal) c (grid0.coords (lastPt cc)) (ms0_0 (lastPt cc)) (hs0_0 (lastPt cc)) (ms0_1 (lastPt cc)) (hs0_1 (lastPt cc)) (ms0_2 (lastPt cc)) (hs0_2 (lastPt cc)) (ms0_3 (lastPt cc)) (hs0_3 (lastPt cc)) scM0_0 (Memref.isWhole_whole _) scM0_1 (Memref.isWhole_whole _) scM0_2 (Memref.isWhole_whole _) (fun hh => h0 ((hcond0_0 (lastPt cc)).mp hh)) ((hcond0_1 (lastPt cc)).mpr h1) (Acc.xblk m c (lastPt cc)) (Acc.tblk m c (lastPt cc)) (outsAt0 m c ((lastPt cc).val - 1) hp).2.2.1 (outsAt0 m c ((lastPt cc).val - 1) hp).2.2.2.1 (outsAt0 m c ((lastPt cc).val - 1) hp).2.2.2.2) (ix2 0 l)).symm

/-- The first array at (core, 0, lane < 128) is the counts' row after the core's last tile at that lane. -/
theorem arr1_lo (c : Dev nD) (cc : Fin 2) (l : Fin 128) :
    arr1 m c (ix3 cc 0 ⟨l.val, by omega⟩) = Acc.countRow m c (lastPt cc).val (lastPt cc).isLt (ix2 0 l) := by
  have h0 : ¬(lastPt cc).val % 100 = 0 := by rw [lastPt_val]; omega
  have h1 : (lastPt cc).val % 100 = 99 := by rw [lastPt_val]; omega
  have hp : (lastPt cc).val - 1 < cfg0.N := Nat.lt_of_le_of_lt (Nat.sub_le _ _) (lastPt cc).isLt
  have hf : (cfg0.win 2).flush (lastPt cc) = true := (flush0_2 (lastPt cc)).mpr h1
  have h := (dats m 0 c).arrAt_emb_eq_flushed 2 disjoint2 (lastPt cc) hf (ix3 (0 : Fin 1) (0 : Fin 1) (⟨l.val, by omega⟩ : Fin 256))
  have e : ((cfg0.win 2).blk (lastPt cc)).view.emb (ix3 (0 : Fin 1) (0 : Fin 1) (⟨l.val, by omega⟩ : Fin 256))
      = (ix3 cc (0 : Fin 1) (⟨l.val, by omega⟩ : Fin 256) : S2x1x256.Idx) := by
    obtain ⟨e0, e1, e2⟩ := idx2 (lastPt cc)
    funext a; apply Fin.ext
    match a with
    | ⟨0, _⟩ => show win0_2.index (lastPt cc) (0 : Fin 3) * 1 + 1 * 0 = cc.val; rw [e0, lastPt_val]; have := cc.isLt; omega
    | ⟨1, _⟩ => show win0_2.index (lastPt cc) (1 : Fin 3) * 1 + 1 * 0 = 0; omega
    | ⟨2, _⟩ => show win0_2.index (lastPt cc) (2 : Fin 3) * 256 + 1 * l.val = l.val; omega
  rw [e] at h
  refine h.trans ?_
  show (cfg0.win 2).cut (grid0.coords (lastPt cc)) ((dats m 0 c).after 2 (lastPt cc)) (ix3 (0 : Fin 1) (0 : Fin 1) (⟨l.val, by omega⟩ : Fin 256)) = _
  rw [after0_2]
  unfold Acc.countRow
  rw [outsAt0_C m c (lastPt cc) h0 h1]
  dsimp only
  refine (Pieces.out2C_lo (F := Ideal) c (grid0.coords (lastPt cc)) (ms0_0 (lastPt cc)) (hs0_0 (lastPt cc)) (ms0_1 (lastPt cc)) (hs0_1 (lastPt cc)) (ms0_2 (lastPt cc)) (hs0_2 (lastPt cc)) (ms0_3 (lastPt cc)) (hs0_3 (lastPt cc)) scM0_0 (Memref.isWhole_whole _) scM0_1 (Memref.isWhole_whole _) scM0_2 (Memref.isWhole_whole _) (fun hh => h0 ((hcond0_0 (lastPt cc)).mp hh)) ((hcond0_1 (lastPt cc)).mpr h1) (Acc.xblk m c (lastPt cc)) (Acc.tblk m c (lastPt cc)) (outsAt0 m c ((lastPt cc).val - 1) hp).2.2.1 (outsAt0 m c ((lastPt cc).val - 1) hp).2.2.2.1 (outsAt0 m c ((lastPt cc).val - 1) hp).2.2.2.2 l).trans ?_
  rw [Tile.pay3_apply]
  exact (congrFun (Pieces.countC (F := Ideal) c (grid0.coords (lastPt cc)) (ms0_0 (lastPt cc)) (hs0_0 (lastPt cc)) (ms0_1 (lastPt cc)) (hs0_1 (lastPt cc)) (ms0_2 (lastPt cc)) (hs0_2 (lastPt cc)) (ms0_3 (lastPt cc)) (hs0_3 (lastPt cc)) scM0_0 (Memref.isWhole_whole _) scM0_1 (Memref.isWhole_whole _) scM0_2 (Memref.isWhole_whole _) (fun hh => h0 ((hcond0_0 (lastPt cc)).mp hh)) ((hcond0_1 (lastPt cc)).mpr h1) (Acc.xblk m c (lastPt cc)) (Acc.tblk m c (lastPt cc)) (outsAt0 m c ((lastPt cc).val - 1) hp).2.2.1 (outsAt0 m c ((lastPt cc).val - 1) hp).2.2.2.1 (outsAt0 m c ((lastPt cc).val - 1) hp).2.2.2.2) (ix2 0 l)).symm

/-- The first array at (core, 0, 128 + lane) is the exponentials' row after the core's last tile at that lane. -/
theorem arr1_hi (c : Dev nD) (cc : Fin 2) (l : Fin 128) :
    arr1 m c (ix3 cc 0 ⟨128 + l.val, by omega⟩) = Acc.expRow m c (lastPt cc).val (lastPt cc).isLt (ix2 0 l) := by
  have h0 : ¬(lastPt cc).val % 100 = 0 := by rw [lastPt_val]; omega
  have h1 : (lastPt cc).val % 100 = 99 := by rw [lastPt_val]; omega
  have hp : (lastPt cc).val - 1 < cfg0.N := Nat.lt_of_le_of_lt (Nat.sub_le _ _) (lastPt cc).isLt
  have hf : (cfg0.win 2).flush (lastPt cc) = true := (flush0_2 (lastPt cc)).mpr h1
  have h := (dats m 0 c).arrAt_emb_eq_flushed 2 disjoint2 (lastPt cc) hf (ix3 (0 : Fin 1) (0 : Fin 1) (⟨128 + l.val, by omega⟩ : Fin 256))
  have e : ((cfg0.win 2).blk (lastPt cc)).view.emb (ix3 (0 : Fin 1) (0 : Fin 1) (⟨128 + l.val, by omega⟩ : Fin 256))
      = (ix3 cc (0 : Fin 1) (⟨128 + l.val, by omega⟩ : Fin 256) : S2x1x256.Idx) := by
    obtain ⟨e0, e1, e2⟩ := idx2 (lastPt cc)
    funext a; apply Fin.ext
    match a with
    | ⟨0, _⟩ => show win0_2.index (lastPt cc) (0 : Fin 3) * 1 + 1 * 0 = cc.val; rw [e0, lastPt_val]; have := cc.isLt; omega
    | ⟨1, _⟩ => show win0_2.index (lastPt cc) (1 : Fin 3) * 1 + 1 * 0 = 0; omega
    | ⟨2, _⟩ => show win0_2.index (lastPt cc) (2 : Fin 3) * 256 + 1 * (128 + l.val) = 128 + l.val; omega
  rw [e] at h
  refine h.trans ?_
  show (cfg0.win 2).cut (grid0.coords (lastPt cc)) ((dats m 0 c).after 2 (lastPt cc)) (ix3 (0 : Fin 1) (0 : Fin 1) (⟨128 + l.val, by omega⟩ : Fin 256)) = _
  rw [after0_2]
  unfold Acc.expRow
  rw [outsAt0_C m c (lastPt cc) h0 h1]
  dsimp only
  refine (Pieces.out2C_hi (F := Ideal) c (grid0.coords (lastPt cc)) (ms0_0 (lastPt cc)) (hs0_0 (lastPt cc)) (ms0_1 (lastPt cc)) (hs0_1 (lastPt cc)) (ms0_2 (lastPt cc)) (hs0_2 (lastPt cc)) (ms0_3 (lastPt cc)) (hs0_3 (lastPt cc)) scM0_0 (Memref.isWhole_whole _) scM0_1 (Memref.isWhole_whole _) scM0_2 (Memref.isWhole_whole _) (fun hh => h0 ((hcond0_0 (lastPt cc)).mp hh)) ((hcond0_1 (lastPt cc)).mpr h1) (Acc.xblk m c (lastPt cc)) (Acc.tblk m c (lastPt cc)) (outsAt0 m c ((lastPt cc).val - 1) hp).2.2.1 (outsAt0 m c ((lastPt cc).val - 1) hp).2.2.2.1 (outsAt0 m c ((lastPt cc).val - 1) hp).2.2.2.2 l).trans ?_
  rw [Tile.pay4_apply]
  exact (congrFun (Pieces.expC (F := Ideal) c (grid0.coords (lastPt cc)) (ms0_0 (lastPt cc)) (hs0_0 (lastPt cc)) (ms0_1 (lastPt cc)) (hs0_1 (lastPt cc)) (ms0_2 (lastPt cc)) (hs0_2 (lastPt cc)) (ms0_3 (lastPt cc)) (hs0_3 (lastPt cc)) scM0_0 (Memref.isWhole_whole _) scM0_1 (Memref.isWhole_whole _) scM0_2 (Memref.isWhole_whole _) (fun hh => h0 ((hcond0_0 (lastPt cc)).mp hh)) ((hcond0_1 (lastPt cc)).mpr h1) (Acc.xblk m c (lastPt cc)) (Acc.tblk m c (lastPt cc)) (outsAt0 m c ((lastPt cc).val - 1) hp).2.2.1 (outsAt0 m c ((lastPt cc).val - 1) hp).2.2.2.1 (outsAt0 m c ((lastPt cc).val - 1) hp).2.2.2.2) (ix2 0 l)).symm

/-- The tiles walked at a core's last point are the core's 100 tiles. -/
theorem walked_last (cc : Fin 2) : Acc.walked (lastPt cc).val = Finset.Icc (100 * cc.val) (100 * cc.val + 99) := by
  have : (100 * cc.val + 99) / 100 * 100 = 100 * cc.val := by omega
  rw [Acc.walked, lastPt_val, this]

/-- THE TWO ARRAYS, entry by entry, as sums over a core's tiles. -/
theorem arr1_count (c : Dev nD) (cc : Fin 2) (l : Fin 128) :
    arr1 m c (ix3 cc 0 ⟨l.val, by omega⟩) = ∑ k ∈ Finset.Icc (100 * cc.val) (100 * cc.val + 99), tileCount (Acc.tblkN m c k) l := by
  rw [arr1_lo, (Acc.rows_lane m c l _ _).1, walked_last]
theorem arr1_exp (c : Dev nD) (cc : Fin 2) (l : Fin 128) :
    arr1 m c (ix3 cc 0 ⟨128 + l.val, by omega⟩) = ∑ k ∈ Finset.Icc (100 * cc.val) (100 * cc.val + 99), tileExp (Acc.xblkN m c k) l := by
  rw [arr1_hi, (Acc.rows_lane m c l _ _).2.1, walked_last]
theorem arr2_picked (c : Dev nD) (cc : Fin 2) (l : Fin 128) :
    arr2 m c (ix3 cc 0 l) = ∑ k ∈ Finset.Icc (100 * cc.val) (100 * cc.val + 99), tilePicked (Acc.xblkN m c k) (Acc.tblkN m c k) l := by
  rw [arr2_row, (Acc.rows_lane m c l _ _).2.2, walked_last]

end Cert.KernelIdeal.Flush

end
-- ==== Proof.KernelTail.lean ====
/-
  The host operations after the kernel, as one function of its two output arrays.

  With `o1[c, 0, l]` and `o2[c, 0, l]` the two arrays (`c` a core, `l` a lane), the operations form
    s[l]      = o[0, 0, l] + o[1, 0, l]                       (the two cores added, from the zero word)
    count[j]  = s1[j] + s1[j + 64]                            (a packed row's two halves added; lanes [0, 128) of o1)
    expo[j]   = s1[128 + j] + s1[128 + j + 64]                (likewise; lanes [128, 256) of o1)
    picked    = Σ_l s2[l]
    result    = (−picked) / N + (Σ_j (count[j] − expo[j])²) / N
  which is `Cert.Loss.tailVal o1 o2`. First the operations are composed into ONE term of the two arrays, over any
  float family; then, over the extended reals, that term is read index by index: a slice reads its operand shifted by
  the offset, a reshape the operand at the same row-major position, a sum from the zero word the finite sum.
-/
import proofs.«418228_j46265387712705_2_alg».proof.Proof.Gen.KernelIdeal.Frame
import proofs.«418228_j46265387712705_2_alg».proof.Proof.Spec
import Idealize.ShloMosaic.PureOps.Ideal.Laws
import Idealize.ShloMosaic.Lib.ValueLayout
import Idealize.ShloMosaic.Lib.Pipeline.Value
import Idealize.ShloMosaic.Lib.IdealHost
import Idealize.ShloMosaic.Lib.ValueIdxRank1

noncomputable section

namespace Cert.KernelIdeal.Host

open Cert.KernelIdeal Cert.KernelIdeal.Gen Idealize.ShloMosaic Idealize.ShloMosaic.ValueIdx

/-! ## The operations composed into one term, over any float family -/

section Term
variable {F : FTy → Type} [FloatOps F]

/-- The two cores' rows added, lane by lane: `x[0, 0, l] + x[1, 0, l]` over the zero word. -/
def coreSum (x : Vec F S2x1x128 .f32) : Vec F S128 .f32 :=
  Host.reduceAdd (F := F) (shapeCast S2x128 x shapeCasts_S2x1x128_S2x128) (constant (F := F) S_ .f32 0x00000000#32)
    reducesTo_S2x128_S128_d0 h_S_

/-- Lanes `j` and `j + 64` added: the two original rows of a packed row. -/
def foldHalves (x : Vec F S128 .f32) : Vec F S64 .f32 :=
  addf (extractStridedSlice S64 ![0] x slices_S128_S64_0) (extractStridedSlice S64 ![64] x slices_S128_S64_64)

/-- Per class, the count less the sum of exponentials, both read off the first output array. -/
def classGap (o1 : Vec F S2x1x256 .f32) : Vec F S64 .f32 :=
  subf (foldHalves (coreSum (extractStridedSlice S2x1x128 ![0, 0, 0] o1 slices_S2x1x256_S2x1x128_0_0_0)))
    (foldHalves (coreSum (extractStridedSlice S2x1x128 ![0, 0, 128] o1 slices_S2x1x256_S2x1x128_0_0_128)))

/-- What the host operations after the kernel compute from its two output arrays, as one term. -/
def hostTail (o1 : Vec F S2x1x256 .f32) (o2 : Vec F S2x1x128 .f32) : Vec F S_ .f32 :=
  addf
    (Host.divf (F := F)
      (Host.negf (F := F) (Host.reduceAdd (F := F) (coreSum o2) (constant (F := F) S_ .f32 0x00000000#32) reducesTo_S128_S_d0 h_S_))
      (constant (F := F) S_ .f32 0x49F42400#32))
    (Host.divf (F := F)
      (Host.reduceAdd (F := F) (mulf (classGap o1) (classGap o1)) (constant (F := F) S_ .f32 0x00000000#32) reducesTo_S64_S_d0 h_S_)
      (constant (F := F) S_ .f32 0x49F42400#32))

/-- The host operations after the region, run from any buffer contents, leave that term of the two output arrays'
    contents in the result buffer. -/
theorem after_hostOps1 (W : Valuation τ sig (Elt F)) :
    StableHlo.after (hostOps1 (F := F)) W (Proc.devRef .tc main_v24)
      = hostTail (W (Proc.devRef .tc main_v2_0)) (W (Proc.devRef .tc main_v2_1)) := by
  after_results_simp
  rfl

end Term

/-! ## The term read at the extended reals -/

section AtIdeal

/-- The two cores' rows added, read at lane `l`. -/
theorem coreSum_apply (x : Vec Ideal S2x1x128 .f32) (l : Fin 128) :
    coreSum (F := Ideal) x (ix1 l) = ∑ c : Fin 2, x (ix3 c 0 l) := by
  unfold coreSum
  refine (hostReduceAdd_apply _ _ _ _ _).trans ?_
  refine (Ideal.hostReduceAdd_single reducesTo_S2x128_S128_d0 (by decide : S2x128.Reduces [0] S128) _ _ _).trans ?_
  rw [constant_apply, Ideal.ofBits_zero_f32, zero_add]
  refine Finset.sum_congr rfl fun c _ => ?_
  exact shapeCast_apply x shapeCasts_S2x1x128_S2x128 _ (ix3 c 0 l) (by
    rw [Shape.rowMajor_val_three, Shape.rowMajor_val_two]
    show (c.val * 1 + 0) * 128 + l.val = c.val * 128 + l.val
    omega)

/-- Lanes `[0, 128)` of the first output array: lane `l` of the slice is lane `k = l` of the array. -/
theorem sliceLo_apply (o1 : Vec Ideal S2x1x256 .f32) (c : Fin 2) (l : Fin 128) (k : Fin 256) (hk : k.val = l.val) :
    extractStridedSlice S2x1x128 ![0, 0, 0] o1 slices_S2x1x256_S2x1x128_0_0_0 (ix3 c 0 l) = o1 (ix3 c 0 k) :=
  extractStridedSlice_apply ![0, 0, 0] o1 slices_S2x1x256_S2x1x128_0_0_0 (ix3 c 0 l) (ix3 c 0 k) fun a =>
    match a with
    | ⟨0, _⟩ => by show c.val = 0 + c.val; omega
    | ⟨1, _⟩ => by show (0 : ℕ) = 0 + 0; omega
    | ⟨2, _⟩ => by show k.val = 0 + l.val; omega

/-- Lanes `[128, 256)` of the first output array: lane `l` of the slice is lane `k = 128 + l` of the array. -/
theorem sliceHi_apply (o1 : Vec Ideal S2x1x256 .f32) (c : Fin 2) (l : Fin 128) (k : Fin 256) (hk : k.val = 128 + l.val) :
    extractStridedSlice S2x1x128 ![0, 0, 128] o1 slices_S2x1x256_S2x1x128_0_0_128 (ix3 c 0 l) = o1 (ix3 c 0 k) :=
  extractStridedSlice_apply ![0, 0, 128] o1 slices_S2x1x256_S2x1x128_0_0_128 (ix3 c 0 l) (ix3 c 0 k) fun a =>
    match a with
    | ⟨0, _⟩ => by show c.val = 0 + c.val; omega
    | ⟨1, _⟩ => by show (0 : ℕ) = 0 + 0; omega
    | ⟨2, _⟩ => by show k.val = 128 + l.val; omega

/-- Lanes `j` and `j + 64` added, read at class `j`. -/
theorem foldHalves_apply (x : Vec Ideal S128 .f32) (j : Fin 64) (k0 k1 : Fin 128) (h0 : k0.val = j.val) (h1 : k1.val = j.val + 64) :
    foldHalves (F := Ideal) x (ix1 j) = x (ix1 k0) + x (ix1 k1) := by
  unfold foldHalves
  refine (addf_apply _ _ _).trans ?_
  rw [extractStridedSlice_apply ![0] x slices_S128_S64_0 (ix1 j) (ix1 k0) fun a =>
      match a with | ⟨0, _⟩ => by show k0.val = 0 + j.val; omega,
    extractStridedSlice_apply ![64] x slices_S128_S64_64 (ix1 j) (ix1 k1) fun a =>
      match a with | ⟨0, _⟩ => by show k1.val = 64 + j.val; omega]

/-- Class `j`'s count less its sum of exponentials, as the folded sums of the first output array. -/
theorem classGap_apply (o1 : Vec Ideal S2x1x256 .f32) (j : Fin 64) :
    classGap (F := Ideal) o1 (ix1 j) = Cert.Loss.foldedCount o1 j - Cert.Loss.foldedExp o1 j := by
  unfold classGap Cert.Loss.foldedCount Cert.Loss.foldedExp
  refine (subf_apply _ _ _).trans ?_
  rw [foldHalves_apply _ j ⟨j.val, by omega⟩ ⟨j.val + 64, by omega⟩ rfl rfl,
    foldHalves_apply _ j ⟨j.val, by omega⟩ ⟨j.val + 64, by omega⟩ rfl rfl,
    coreSum_apply, coreSum_apply, coreSum_apply, coreSum_apply]
  refine congrArg₂ (· - ·) (congrArg₂ (· + ·) ?_ ?_) (congrArg₂ (· + ·) ?_ ?_)
  · exact Finset.sum_congr rfl fun c _ => sliceLo_apply o1 c _ _ rfl
  · exact Finset.sum_congr rfl fun c _ => sliceLo_apply o1 c _ _ rfl
  · exact Finset.sum_congr rfl fun c _ => sliceHi_apply o1 c _ _ rfl
  · exact Finset.sum_congr rfl fun c _ => sliceHi_apply o1 c _ _ (by show 128 + j.val + 64 = 128 + (j.val + 64); omega)

/-- A host sum of a 128-lane vector to a scalar from the zero word: the sum over the lanes. -/
theorem sumLanes128 (x : Vec Ideal S128 .f32) (i : S_.Idx) :
    Host.reduceAdd (F := Ideal) x (constant (F := Ideal) S_ .f32 0x00000000#32) reducesTo_S128_S_d0 h_S_ i = ∑ l : Fin 128, x (ix1 l) := by
  refine (hostReduceAdd_apply _ _ _ _ _).trans ?_
  refine (Ideal.hostReduceAdd_total reducesTo_S128_S_d0 (fun b => b.elim0) _ _ _).trans ?_
  rw [constant_apply, Ideal.ofBits_zero_f32, zero_add]
  exact (Equiv.sum_comp (idxEquiv1 (n := 128)).symm x).symm

/-- A host sum of a 64-entry vector to a scalar from the zero word: the sum over the entries. -/
theorem sumLanes64 (x : Vec Ideal S64 .f32) (i : S_.Idx) :
    Host.reduceAdd (F := Ideal) x (constant (F := Ideal) S_ .f32 0x00000000#32) reducesTo_S64_S_d0 h_S_ i = ∑ j : Fin 64, x (ix1 j) := by
  refine (hostReduceAdd_apply _ _ _ _ _).trans ?_
  refine (Ideal.hostReduceAdd_total reducesTo_S64_S_d0 (fun b => b.elim0) _ _ _).trans ?_
  rw [constant_apply, Ideal.ofBits_zero_f32, zero_add]
  exact (Equiv.sum_comp (idxEquiv1 (n := 64)).symm x).symm

/-- At the extended reals the host operations after the kernel compute the folded loss of its two output arrays. -/
theorem hostTail_eq (o1 : Vec Ideal S2x1x256 .f32) (o2 : Vec Ideal S2x1x128 .f32) :
    hostTail (F := Ideal) o1 o2 = fun _ => Cert.Loss.tailVal o1 o2 := by
  funext i
  unfold hostTail Cert.Loss.tailVal Cert.Loss.foldedPicked
  refine (addf_apply _ _ _).trans ?_
  refine congrArg₂ (· + ·) ?_ ?_
  · refine (hostDivf_apply _ _ _).trans ?_
    refine congrArg₂ Ideal.div ?_ rfl
    show -(Host.reduceAdd (F := Ideal) (coreSum o2) (constant (F := Ideal) S_ .f32 0x00000000#32) reducesTo_S128_S_d0 h_S_ i) = _
    rw [sumLanes128]
    exact congrArg Neg.neg (Finset.sum_congr rfl fun l _ => coreSum_apply o2 l)
  · refine (hostDivf_apply _ _ _).trans ?_
    refine congrArg₂ Ideal.div ?_ rfl
    rw [sumLanes64]
    refine Finset.sum_congr rfl fun j _ => ?_
    rw [mulf_apply, classGap_apply]

end AtIdeal

/-! ## The host operations after the region, over the kernel's two output arrays -/

variable (m : (ℓ : Loc nD τ sig) → Buf (Elt Ideal) ℓ)

/-- The first output array (window 2's) after the run: per core, lane counts then lane sums of exponentials. -/
abbrev out1 (c : Dev nD) : S2x1x256.Idx → EReal := (dats m 0 c).arrAt 2 cfg0.N
/-- The second output array (window 3's) after the run: per core, the lanes' picked sums. -/
abbrev out2 (c : Dev nD) : S2x1x128.Idx → EReal := (dats m 0 c).arrAt 3 cfg0.N

/-- The result buffer after the host operations that follow the region holds the folded loss of the kernel's two
    output arrays. -/
theorem tail_eq (c : Dev nD) :
    Pipeline.afterTail₀ cfgs (dats m) 0 (V0 m) [hostOps1] c main_v24
      = fun _ => Cert.Loss.tailVal (out1 m c) (out2 m c) := by
  unfold Pipeline.afterTail₀
  simp only [List.flatten_cons, List.flatten_nil, List.append_nil]
  refine (after_hostOps1 _).trans ?_
  refine (congrArg₂ hostTail
    (Pipeline.withArrays_arr spec0 launch0.win.arr_inj c (V0 m c) (fun w => (dats m 0 c).arrAt w cfg0.N) 2)
    (Pipeline.withArrays_arr spec0 launch0.win.arr_inj c (V0 m c) (fun w => (dats m 0 c).arrAt w cfg0.N) 3)).trans ?_
  exact hostTail_eq _ _

end Cert.KernelIdeal.Host

end
-- ==== Proof.KernelHead.lean ====
/-
  The two reshapes before the kernel, read at an index: the arrays as the kernel finds them.

  The predictions `p : [2 000 000, 64]` are reshaped to `[1 000 000, 128]` and the targets `t : [2 000 000]` to
  `[1 000 000, 2]`. A reshape keeps the row-major position, so element `(k, l)` of the packed predictions sits at
  position `128 k + l`, which in `[2 000 000, 64]` is row `2 k + l / 64`, column `l % 64`; element `(k, h)` of the
  packed targets sits at position `2 k + h`. A packed row is two consecutive original rows side by side.
-/
import proofs.«418228_j46265387712705_2_alg».proof.Proof.Gen.KernelIdeal.Frame
import proofs.«418228_j46265387712705_2_alg».proof.Proof.Spec
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.ShloMosaic.ValueIdx

/-! ## The operations before the region, from any buffer contents, over any float family -/

section Term
variable {F : FTy → Type} [FloatOps F]

/-- After the two reshapes the packed predictions' buffer holds the reshape of the predictions' contents. -/
theorem after_hostOps0_v0 (W : Valuation τ sig (Elt F)) :
    StableHlo.after (hostOps0 (F := F)) W (Proc.devRef .tc main_v0)
      = shapeCast S1000000x128 (W (Proc.devRef .tc main_arg0)) shapeCasts_S2000000x64_S1000000x128 := by
  after_results
  rfl

/-- After the two reshapes the packed targets' buffer holds the reshape of the targets' contents. -/
theorem after_hostOps0_v1 (W : Valuation τ sig (Elt F)) :
    StableHlo.after (hostOps0 (F := F)) W (Proc.devRef .tc main_v1)
      = shapeCast S1000000x2 (W (Proc.devRef .tc main_arg1)) shapeCasts_S2000000_S1000000x2 := by
  after_results
  rfl

end Term

/-! ## A reshape keeps the row-major position -/

/-- `[2 000 000, 64]` read as `[1 000 000, 128]`: element `(k, l)` is element `(2 k + l / 64, l % 64)`. -/
theorem packRows_apply {α : Type} (x : S2000000x64.Idx → α) (k : Fin 1000000) (l : Fin 128) :
    shapeCast S1000000x128 x shapeCasts_S2000000x64_S1000000x128 (ix2 k l)
      = x (ix2 ⟨2 * k.val + l.val / 64, by omega⟩ ⟨l.val % 64, Nat.mod_lt _ (by omega)⟩) :=
  shapeCast_apply x shapeCasts_S2000000x64_S1000000x128 (ix2 k l) _ (by
    rw [Shape.rowMajor_val_two, Shape.rowMajor_val_two]
    show (2 * k.val + l.val / 64) * 64 + l.val % 64 = k.val * 128 + l.val
    omega)

/-- `[2 000 000]` read as `[1 000 000, 2]`: element `(k, h)` is element `2 k + h`. -/
theorem packPairs_apply {α : Type} (x : S2000000.Idx → α) (k : Fin 1000000) (h : Fin 2) :
    shapeCast S1000000x2 x shapeCasts_S2000000_S1000000x2 (ix2 k h) = x (ix1 ⟨2 * k.val + h.val, by omega⟩) :=
  shapeCast_apply x shapeCasts_S2000000_S1000000x2 (ix2 k h) _ (by
    rw [Shape.rowMajor_val_one, Shape.rowMajor_val_two]
    show 2 * k.val + h.val = k.val * 2 + h.val
    omega)

/-! ## The arrays the region finds, at an index -/

variable (m : (ℓ : Loc nD τ sig) → Buf (Elt Ideal) ℓ)

/-- Packed predictions: row `k`, lane `l` is original row `2 k + l / 64`, class `l % 64`. -/
theorem V_v0_apply (c : Dev nD) (k : Fin 1000000) (l : Fin 128) :
    (V m c main_v0 : S1000000x128.Idx → EReal) (ix2 k l)
      = (m ((c : Thread nD τ).loc main_arg0) : S2000000x64.Idx → EReal)
          (ix2 ⟨2 * k.val + l.val / 64, by omega⟩ ⟨l.val % 64, Nat.mod_lt _ (by omega)⟩) := by
  have e : (V m c main_v0 : S1000000x128.Idx → EReal)
      = shapeCast S1000000x128 (m ((c : Thread nD τ).loc main_arg0) : S2000000x64.Idx → EReal)
          shapeCasts_S2000000x64_S1000000x128 :=
    after_hostOps0_v0 (F := Ideal) (fun b => m (c, b))
  exact (congrFun e _).trans (packRows_apply _ k l)

/-- Packed targets: row `k`, half `h` is original row `2 k + h`. -/
theorem V_v1_apply (c : Dev nD) (k : Fin 1000000) (h : Fin 2) :
    (V m c main_v1 : S1000000x2.Idx → BitVec 32) (ix2 k h)
      = (m ((c : Thread nD τ).loc main_arg1) : S2000000.Idx → BitVec 32) (ix1 ⟨2 * k.val + h.val, by omega⟩) := by
  have e : (V m c main_v1 : S1000000x2.Idx → BitVec 32)
      = shapeCast S1000000x2 (m ((c : Thread nD τ).loc main_arg1) : S2000000.Idx → BitVec 32)
          shapeCasts_S2000000_S1000000x2 :=
    after_hostOps0_v1 (F := Ideal) (fun b => m (c, b))
  exact (congrFun e _).trans (packPairs_apply _ k h)

end Cert.KernelIdeal.Host

end
-- ==== Proof.KernelBlocks.lean ====
/-
  The two input windows' blocks at a grid point, read at an index: the argument arrays at the original rows.

  Point `t` of the grid (200 points, core-major) stages block `(t, 0)` of the packed predictions `[1 000 000, 128]`,
  5000 packed rows, and block `(t, 0)` of the packed targets `[1 000 000, 2]`. A block's element sits in its array at
  block index × block size + the coordinate inside the block, so row `r` of tile `t` is packed row `5000 t + r`,
  which holds the original rows `2 (5000 t + r)` and `2 (5000 t + r) + 1` side by side.
-/
import proofs.«418228_j46265387712705_2_alg».proof.Proof.KernelHead
import proofs.«418228_j46265387712705_2_alg».proof.Proof.Gen.KernelIdeal.Frame

noncomputable section

namespace Cert.KernelIdeal.Host

open Cert.KernelIdeal Cert.KernelIdeal.Gen Idealize.ShloMosaic Idealize.ShloMosaic.TcCoe Idealize.ShloMosaic.ValueIdx

/-! ## The input windows' blocks, point by point -/

/-- The two input windows' index maps over the grid: at point `t` both read block `(t, 0)`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (m : (ℓ : Loc nD τ sig) → Buf (Elt Ideal) ℓ)

/-- Tile `t`'s block of packed predictions: its row `r`, lane `l` is the predictions' row
    `2 (5000 t + r) + l / 64`, class `l % 64`. -/
theorem xblk_apply (c : Dev nD) (t : Fin cfg0.N) (r : Fin 5000) (l : Fin 128) :
    (iblk m c 0 t : S5000x128.Idx → EReal) (ix2 r l)
      = (m ((c : Thread nD τ).loc main_arg0) : S2000000x64.Idx → EReal)
          (ix2 ⟨2 * (t.val * 5000 + r.val) + l.val / 64, by have := t.isLt; have hN : cfg0.N = 200 := N_0; omega⟩
            ⟨l.val % 64, Nat.mod_lt _ (by omega)⟩) := by
  obtain ⟨e0, e1, -, -⟩ := idx_in t
  have hN : cfg0.N = 200 := N_0
  have ht : t.val < cfg0.N := t.isLt
  show V m c main_v0 (((cfg0.win 0).blk t).view.emb (ix2 r l)) = _
  have h : ((cfg0.win 0).blk t).view.emb (ix2 r l) = ix2 (⟨t.val * 5000 + r.val, by omega⟩ : Fin 1000000) l := by
    funext a; apply Fin.ext
    match a with
    | ⟨0, _⟩ => show win0_0.index t (0 : Fin 2) * 5000 + 1 * r.val = t.val * 5000 + r.val; omega
    | ⟨1, _⟩ => show win0_0.index t (1 : Fin 2) * 128 + 1 * l.val = l.val; omega
  refine (congrArg (V m c main_v0) h).trans ?_
  exact V_v0_apply m c ⟨t.val * 5000 + r.val, by omega⟩ l

/-- Tile `t`'s block of packed targets: its row `r`, half `h` is the target of row `2 (5000 t + r) + h`. -/
theorem tblk_apply (c : Dev nD) (t : Fin cfg0.N) (r : Fin 5000) (h : Fin 2) :
    (iblk m c 1 t : S5000x2.Idx → BitVec 32) (ix2 r h)
      = (m ((c : Thread nD τ).loc main_arg1) : S2000000.Idx → BitVec 32)
          (ix1 ⟨2 * (t.val * 5000 + r.val) + h.val, by have := t.isLt; have hN : cfg0.N = 200 := N_0; omega⟩) := by
  obtain ⟨-, -, e0, e1⟩ := idx_in t
  have hN : cfg0.N = 200 := N_0
  have ht : t.val < cfg0.N := t.isLt
  show V m c main_v1 (((cfg0.win 1).blk t).view.emb (ix2 r h)) = _
  have hh : ((cfg0.win 1).blk t).view.emb (ix2 r h) = ix2 (⟨t.val * 5000 + r.val, by omega⟩ : Fin 1000000) h := by
    funext a; apply Fin.ext
    match a with
    | ⟨0, _⟩ => show win0_1.index t (0 : Fin 2) * 5000 + 1 * r.val = t.val * 5000 + r.val; omega
    | ⟨1, _⟩ => show win0_1.index t (1 : Fin 2) * 2 + 1 * h.val = h.val; omega
  refine (congrArg (V m c main_v1) hh).trans ?_
  exact V_v1_apply m c ⟨t.val * 5000 + r.val, by omega⟩ h

end Cert.KernelIdeal.Host

end
-- ==== Proof.LibPackedSums.lean ====
/-
  Regrouping of finite sums over consecutive naturals, in any commutative monoid, and one fact on 32-bit words.

  A block of m·n consecutive naturals x is read as x = n·a + b with a < m and b < n; a block of m + n consecutive
  naturals as the first m followed by the next n. Because addition is commutative and associative, a sum over the
  block equals the iterated sum over the coordinates, and iterated sums over different coordinates may be exchanged.
  The instances stated here: 2 000 000 rows n = 2·k + h, with k = (100·c + i)·5000 + r a packed row (c < 2, i < 100,
  r < 5000) and h < 2 the half; and 128 lanes l = j + 64·h with j < 64.

  The word fact: a natural j < 64 written as a 32-bit word is the only word whose signed value is j.
-/
import Mathlib.Algebra.BigOperators.Fin
import Mathlib.Algebra.BigOperators.Group.Finset.Basic
import Mathlib.Logic.Equiv.Fin.Basic
import Mathlib.Data.Fintype.BigOperators

namespace Cert.PackedSums

open Finset

section General

variable {M : Type*} [AddCommMonoid M]

/-- A sum over `N = m·n` consecutive naturals is the double sum over `a < m`, `b < n` of the term at `n·a + b`:
    every `x < m·n` is `n·a + b` for exactly one such pair. -/
theorem sum_fin_of_eq_mul {N m n : ℕ} (hN : N = m * n) (g : ℕ → M) :
    (∑ x : Fin N, g x.val) = ∑ a : Fin m, ∑ b : Fin n, g (n * a.val + b.val) := by
  subst hN
  have h1 : (∑ x : Fin (m * n), g x.val) = ∑ p : Fin m × Fin n, g (finProdFinEquiv p).val :=
    (Equiv.sum_comp finProdFinEquiv (fun x : Fin (m * n) => g x.val)).symm
  rw [h1, Fintype.sum_prod_type]
  refine Finset.sum_congr rfl fun a _ => Finset.sum_congr rfl fun b _ => ?_
  rw [finProdFinEquiv_apply_val, Nat.add_comm]

/-- A sum over `N = m + n` consecutive naturals is the sum over the first `m` plus the sum over the next `n`. -/
theorem sum_fin_of_eq_add {N m n : ℕ} (hN : N = m + n) (f : ℕ → M) :
    (∑ x : Fin N, f x.val) = (∑ a : Fin m, f a.val) + ∑ b : Fin n, f (b.val + m) := by
  subst hN
  rw [Fin.sum_univ_add]
  refine congrArg₂ (· + ·) rfl (Finset.sum_congr rfl fun b _ => ?_)
  rw [Fin.val_natAdd, Nat.add_comm]

/-- A sum over `N = K·2` consecutive naturals is the sum of the even terms plus the sum of the odd terms. -/
theorem sum_fin_even_odd {N K : ℕ} (hN : N = K * 2) (g : ℕ → M) :
    (∑ x : Fin N, g x.val) = (∑ k : Fin K, g (2 * k.val)) + ∑ k : Fin K, g (2 * k.val + 1) := by
  rw [sum_fin_of_eq_mul hN g, ← Finset.sum_add_distrib]
  refine Finset.sum_congr rfl fun k _ => ?_
  rw [Fin.sum_univ_two]
  rfl

/-- A sum over `K = (A·B)·R` consecutive naturals is the triple sum over `c < A`, `i < B`, `r < R` of the term at
    `(B·c + i)·R + r`. -/
theorem sum_fin_three {K A B R : ℕ} (hK : K = (A * B) * R) (f : ℕ → M) :
    (∑ k : Fin K, f k.val) = ∑ c : Fin A, ∑ i : Fin B, ∑ r : Fin R, f ((B * c.val + i.val) * R + r.val) := by
  rw [sum_fin_of_eq_mul hK f]
  rw [sum_fin_of_eq_mul (rfl : A * B = A * B) (fun a => ∑ r : Fin R, f (R * a + r.val))]
  refine Finset.sum_congr rfl fun c _ => Finset.sum_congr rfl fun i _ => Finset.sum_congr rfl fun r _ => ?_
  rw [Nat.mul_comm R]

/-- In a fourfold iterated sum the outermost coordinate may be moved innermost. -/
theorem sum_rotate4 {α β γ δ : Type*} [Fintype α] [Fintype β] [Fintype γ] [Fintype δ]
    (F : α → β → γ → δ → M) :
    (∑ j : δ, ∑ c : α, ∑ i : β, ∑ r : γ, F c i r j) = ∑ c : α, ∑ i : β, ∑ r : γ, ∑ j : δ, F c i r j := by
  refine Finset.sum_comm.trans (Finset.sum_congr rfl fun c _ => ?_)
  refine Finset.sum_comm.trans (Finset.sum_congr rfl fun i _ => ?_)
  exact Finset.sum_comm

end General

/-- The 2 000 000 rows, grouped: row `n = 2·k` or `n = 2·k + 1` with `k = (100·c + i)·5000 + r`, so the sum over
    all rows is the sum over the first halves of all packed rows plus the sum over the second halves. -/
theorem sum_rows_eq_packed {M : Type*} [AddCommMonoid M] (g : ℕ → M) :
    (∑ n : Fin 2000000, g n.val)
      = (∑ c : Fin 2, ∑ i : Fin 100, ∑ r : Fin 5000, g (2 * ((100 * c.val + i.val) * 5000 + r.val)))
      + (∑ c : Fin 2, ∑ i : Fin 100, ∑ r : Fin 5000, g (2 * ((100 * c.val + i.val) * 5000 + r.val) + 1)) := by
  have hN : (2000000 : ℕ) = 1000000 * 2 := rfl
  have hK : (1000000 : ℕ) = (2 * 100) * 5000 := rfl
  rw [sum_fin_even_odd hN g, sum_fin_three hK (fun k => g (2 * k)), sum_fin_three hK (fun k => g (2 * k + 1))]

/-- The 128 lanes are the 64 lanes `j` followed by the 64 lanes `j + 64`. -/
theorem sum_lanes_split {M : Type*} [AddCommMonoid M] (f : ℕ → M) :
    (∑ l : Fin 128, f l.val) = (∑ j : Fin 64, f j.val) + (∑ j : Fin 64, f (j.val + 64)) :=
  sum_fin_of_eq_add (rfl : (128 : ℕ) = 64 + 64) f

/-- Rows times classes equal lanes times packed rows: the entry of row `n = 2·k + h` and class `j` is the entry of
    packed row `k` in lane `l = j + 64·h`, where `h = l / 64` and `j = l % 64`. -/
theorem sum_rows_classes_eq_lanes {M : Type*} [AddCommMonoid M] (h : ℕ → ℕ → M) :
    (∑ n : Fin 2000000, ∑ j : Fin 64, h n.val j.val)
      = ∑ l : Fin 128, ∑ c : Fin 2, ∑ i : Fin 100, ∑ r : Fin 5000,
          h (2 * ((100 * c.val + i.val) * 5000 + r.val) + l.val / 64) (l.val % 64) := by
  rw [sum_rows_eq_packed (fun n => ∑ j : Fin 64, h n j.val)]
  rw [sum_lanes_split (fun l => ∑ c : Fin 2, ∑ i : Fin 100, ∑ r : Fin 5000,
          h (2 * ((100 * c.val + i.val) * 5000 + r.val) + l / 64) (l % 64))]
  refine congrArg₂ (· + ·) ?_ ?_
  · rw [← sum_rotate4 (fun (c : Fin 2) (i : Fin 100) (r : Fin 5000) (j : Fin 64) =>
        h (2 * ((100 * c.val + i.val) * 5000 + r.val)) j.val)]
    refine Finset.sum_congr rfl fun j _ => Finset.sum_congr rfl fun c _ => Finset.sum_congr rfl fun i _ =>
      Finset.sum_congr rfl fun r _ => ?_
    rw [Nat.div_eq_of_lt j.isLt, Nat.mod_eq_of_lt j.isLt, Nat.add_zero]
  · rw [← sum_rotate4 (fun (c : Fin 2) (i : Fin 100) (r : Fin 5000) (j : Fin 64) =>
        h (2 * ((100 * c.val + i.val) * 5000 + r.val) + 1) j.val)]
    refine Finset.sum_congr rfl fun j _ => Finset.sum_congr rfl fun c _ => Finset.sum_congr rfl fun i _ =>
      Finset.sum_congr rfl fun r _ => ?_
    have h1 : (j.val + 64) / 64 = 1 := by have := j.isLt; omega
    have h2 : (j.val + 64) % 64 = j.val := by have := j.isLt; omega
    rw [h1, h2]

/-- The signed value of the 32-bit word of a natural `j < 64` is `j`. -/
theorem toInt_ofNat_small (j : ℕ) (hj : j < 64) : (BitVec.ofNat 32 j).toInt = (j : ℤ) := by
  rw [BitVec.toInt_eq_toNat_cond, BitVec.toNat_ofNat]
  have hm : j % 2 ^ 32 = j := Nat.mod_eq_of_lt (by omega)
  rw [hm, if_pos (by omega)]

/-- A 32-bit word is the word of `j < 64` exactly when its signed value is `j`: the signed value determines the
    word, and the word of `j` has signed value `j`. -/
theorem ofNat_eq_iff_toInt (j : ℕ) (hj : j < 64) (t : BitVec 32) : BitVec.ofNat 32 j = t ↔ t.toInt = (j : ℤ) := by
  rw [eq_comm, ← BitVec.toInt_inj, toInt_ofNat_small j hj]

end Cert.PackedSums
-- ==== Proof.LossAlgebra.lean ====
/-
  The host's folding of the kernel's two output arrays is the loss.

  A packed row k holds the original rows 2k and 2k+1 side by side: lane l of packed row k is class l mod 64 of
  original row 2k + l div 64. So a lane is hit exactly when the target of that original row, read as a signed word,
  is that class. With this, the per-lane sums over (core, tile, row in tile) that the output arrays hold regroup
  into the per-class sums over the 2 000 000 original rows:
    count[j]  = (lane j, both cores) + (lane j + 64, both cores),
    colexp[j] = the same two lanes of the exponentials,
    picked    = all 128 lanes, both cores.
  All sums are finite sums in a commutative monoid, so only the bijection between (row, class) and
  (core, tile, row in tile, lane) is used; both sides divide by the same row count.
-/
import proofs.«418228_j46265387712705_2_alg».proof.Proof.Spec
import proofs.«418228_j46265387712705_2_alg».proof.Proof.LibPackedSums

noncomputable section

namespace Cert.Loss

open Idealize.ShloMosaic Idealize.ShloMosaic.ValueIdx
open Cert.PackedSums

/-- A lane below 64 is hit exactly when the first row's target is that class. -/
theorem laneHit_lo (t0 t1 : BitVec 32) (j : ℕ) (hj : j < 64) :
    laneHit t0 t1 ⟨j, by omega⟩ ↔ t0.toInt = (j : ℤ) := by
  unfold laneHit
  rw [if_pos (show (⟨j, _⟩ : Fin 128).val < 64 from hj)]
  exact ofNat_eq_iff_toInt j hj t0

/-- A lane 64 + j is hit exactly when the second row's target is class j. -/
theorem laneHit_hi (t0 t1 : BitVec 32) (j : ℕ) (hj : j < 64) :
    laneHit t0 t1 ⟨j + 64, by omega⟩ ↔ t1.toInt = (j : ℤ) := by
  unfold laneHit
  rw [if_neg (show ¬ (⟨j + 64, _⟩ : Fin 128).val < 64 from by simp)]
  simpa using ofNat_eq_iff_toInt j hj t1

/-- Lane l of packed row k is hit exactly when the target of original row 2k + l div 64 is class l mod 64. -/
theorem laneHit_iff (T : ℕ → BitVec 32) (k : ℕ) (l : Fin 128) :
    laneHit (T (2 * k)) (T (2 * k + 1)) l ↔ (T (2 * k + l.val / 64)).toInt = ((l.val % 64 : ℕ) : ℤ) := by
  by_cases h : l.val < 64
  · have h1 : l.val / 64 = 0 := Nat.div_eq_of_lt h
    have h2 : l.val % 64 = l.val := Nat.mod_eq_of_lt h
    rw [h1, h2, Nat.add_zero]
    exact laneHit_lo _ _ l.val h
  · have h1 : l.val / 64 = 1 := by omega
    have h2 : l.val % 64 = l.val - 64 := by omega
    have hl : l = ⟨(l.val - 64) + 64, by omega⟩ := Fin.ext (by simp; omega)
    rw [h1, h2]
    conv_lhs => rw [hl]
    exact laneHit_hi _ _ (l.val - 64) (by omega)

/-- Class j's count: the two lanes j and j + 64, over both cores, collect the even and the odd original rows. -/
theorem foldedCount_eq (tgt : STgt.Idx → BitVec 32) (o1 : (⟨3, ![2, 1, 256]⟩ : Shape).Idx → EReal)
    (T : ℕ → BitVec 32)
    (hT : ∀ n : Fin 2000000, T n.val = tgt (ix1 n))
    (hcount : ∀ (c : Fin 2) (l : Fin 128), o1 (ix3 c 0 ⟨l.val, by omega⟩)
        = ∑ i : Fin 100, ∑ r : Fin 5000,
            if laneHit (T (2 * packedRow c i r)) (T (2 * packedRow c i r + 1)) l then (1 : EReal) else 0)
    (j : Fin 64) : foldedCount o1 j = classCount tgt j := by
  unfold foldedCount classCount
  have e : (∑ n : Fin 2000000, (fun m : ℕ => if (T m).toInt = (j.val : ℤ) then (1 : EReal) else 0) n.val)
      = ∑ n : Fin 2000000, if (tgt (ix1 n)).toInt = (j.val : ℤ) then (1 : EReal) else 0 :=
    Finset.sum_congr rfl fun n _ => by rw [← hT n]
  refine Eq.trans ?_ ((sum_rows_eq_packed
    (fun m : ℕ => if (T m).toInt = (j.val : ℤ) then (1 : EReal) else 0)).symm.trans e)
  refine congrArg₂ (· + ·) ?_ ?_
  · refine Finset.sum_congr rfl fun c _ => ?_
    refine (hcount c ⟨j.val, by omega⟩).trans ?_
    refine Finset.sum_congr rfl fun i _ => Finset.sum_congr rfl fun r _ => ?_
    exact if_congr (laneHit_lo _ _ j.val j.isLt) rfl rfl
  · refine Finset.sum_congr rfl fun c _ => ?_
    refine (hcount c ⟨j.val + 64, by omega⟩).trans ?_
    refine Finset.sum_congr rfl fun i _ => Finset.sum_congr rfl fun r _ => ?_
    exact if_congr (laneHit_hi _ _ j.val j.isLt) rfl rfl

/-- Class j's sum of exponentials: the same two lanes of the exponentials' half of the first array. -/
theorem foldedExp_eq (pred : SPred.Idx → EReal) (o1 : (⟨3, ![2, 1, 256]⟩ : Shape).Idx → EReal)
    (P : ℕ → ℕ → EReal)
    (hP : ∀ (n : Fin 2000000) (j : Fin 64), P n.val j.val = pred (ix2 n j))
    (hexp : ∀ (c : Fin 2) (l : Fin 128), o1 (ix3 c 0 ⟨128 + l.val, by omega⟩)
        = ∑ i : Fin 100, ∑ r : Fin 5000, Ideal.exp (P (2 * packedRow c i r + l.val / 64) (l.val % 64)))
    (j : Fin 64) : foldedExp o1 j = expColSum pred j := by
  unfold foldedExp expColSum
  have e : (∑ n : Fin 2000000, (fun m : ℕ => Ideal.exp (P m j.val)) n.val)
      = ∑ n : Fin 2000000, Ideal.exp (pred (ix2 n j)) :=
    Finset.sum_congr rfl fun n _ => by rw [← hP n j]
  have h1 : j.val / 64 = 0 := Nat.div_eq_of_lt j.isLt
  have h2 : j.val % 64 = j.val := Nat.mod_eq_of_lt j.isLt
  have h3 : (j.val + 64) / 64 = 1 := by omega
  have h4 : (j.val + 64) % 64 = j.val := by omega
  refine Eq.trans ?_ ((sum_rows_eq_packed (fun m : ℕ => Ideal.exp (P m j.val))).symm.trans e)
  refine congrArg₂ (· + ·) ?_ ?_
  · refine Finset.sum_congr rfl fun c _ => ?_
    refine (hexp c ⟨j.val, by omega⟩).trans ?_
    refine Finset.sum_congr rfl fun i _ => Finset.sum_congr rfl fun r _ => ?_
    show Ideal.exp (P (2 * packedRow c i r + j.val / 64) (j.val % 64)) = _
    rw [h1, h2, Nat.add_zero]
  · refine Finset.sum_congr rfl fun c _ => ?_
    have e2 : (⟨128 + j.val + 64, by omega⟩ : Fin 256) = ⟨128 + (j.val + 64), by omega⟩ :=
      Fin.ext (Nat.add_assoc _ _ _)
    rw [e2]
    refine (hexp c ⟨j.val + 64, by omega⟩).trans ?_
    refine Finset.sum_congr rfl fun i _ => Finset.sum_congr rfl fun r _ => ?_
    show Ideal.exp (P (2 * packedRow c i r + (j.val + 64) / 64) ((j.val + 64) % 64)) = _
    rw [h3, h4]

/-- The picked total: every (original row, class) pair is exactly one (core, tile, row in tile, lane). -/
theorem foldedPicked_eq (pred : SPred.Idx → EReal) (tgt : STgt.Idx → BitVec 32)
    (o2 : (⟨3, ![2, 1, 128]⟩ : Shape).Idx → EReal)
    (T : ℕ → BitVec 32) (P : ℕ → ℕ → EReal)
    (hT : ∀ n : Fin 2000000, T n.val = tgt (ix1 n))
    (hP : ∀ (n : Fin 2000000) (j : Fin 64), P n.val j.val = pred (ix2 n j))
    (hpick : ∀ (c : Fin 2) (l : Fin 128), o2 (ix3 c 0 l)
        = ∑ i : Fin 100, ∑ r : Fin 5000,
            if laneHit (T (2 * packedRow c i r)) (T (2 * packedRow c i r + 1)) l
              then P (2 * packedRow c i r + l.val / 64) (l.val % 64) else 0) :
    foldedPicked o2 = pickedSum pred tgt := by
  unfold foldedPicked pickedSum
  have e : (∑ n : Fin 2000000, ∑ j : Fin 64,
          (fun (m q : ℕ) => if (T m).toInt = (q : ℤ) then P m q else 0) n.val j.val)
      = ∑ n : Fin 2000000, ∑ j : Fin 64, if (tgt (ix1 n)).toInt = (j.val : ℤ) then pred (ix2 n j) else 0 :=
    Finset.sum_congr rfl fun n _ => Finset.sum_congr rfl fun j _ => by rw [← hT n, ← hP n j]
  refine Eq.trans ?_ ((sum_rows_classes_eq_lanes
    (fun (m q : ℕ) => if (T m).toInt = (q : ℤ) then P m q else 0)).symm.trans e)
  refine Finset.sum_congr rfl fun l _ => Finset.sum_congr rfl fun c _ => ?_
  refine (hpick c l).trans ?_
  refine Finset.sum_congr rfl fun i _ => Finset.sum_congr rfl fun r _ => ?_
  exact if_congr (laneHit_iff T (packedRow c i r) l) rfl rfl

/-- The host's folding of the two output arrays, when they hold the per-core, per-lane sums, is the loss. -/
theorem tailVal_eq_loss (pred : SPred.Idx → EReal) (tgt : STgt.Idx → BitVec 32)
    (o1 : (⟨3, ![2, 1, 256]⟩ : Shape).Idx → EReal) (o2 : (⟨3, ![2, 1, 128]⟩ : Shape).Idx → EReal)
    (T : ℕ → BitVec 32) (P : ℕ → ℕ → EReal)
    (hT : ∀ n : Fin 2000000, T n.val = tgt (ix1 n))
    (hP : ∀ (n : Fin 2000000) (j : Fin 64), P n.val j.val = pred (ix2 n j))
    (hcount : ∀ (c : Fin 2) (l : Fin 128), o1 (ix3 c 0 ⟨l.val, by omega⟩)
        = ∑ i : Fin 100, ∑ r : Fin 5000,
            if laneHit (T (2 * packedRow c i r)) (T (2 * packedRow c i r + 1)) l then (1 : EReal) else 0)
    (hexp : ∀ (c : Fin 2) (l : Fin 128), o1 (ix3 c 0 ⟨128 + l.val, by omega⟩)
        = ∑ i : Fin 100, ∑ r : Fin 5000, Ideal.exp (P (2 * packedRow c i r + l.val / 64) (l.val % 64)))
    (hpick : ∀ (c : Fin 2) (l : Fin 128), o2 (ix3 c 0 l)
        = ∑ i : Fin 100, ∑ r : Fin 5000,
            if laneHit (T (2 * packedRow c i r)) (T (2 * packedRow c i r + 1)) l
              then P (2 * packedRow c i r + l.val / 64) (l.val % 64) else 0) :
    tailVal o1 o2 = loss pred tgt := by
  unfold tailVal loss penaltySum
  rw [foldedPicked_eq pred tgt o2 T P hT hP hpick]
  have hc : ∀ j : Fin 64, foldedCount o1 j = classCount tgt j :=
    foldedCount_eq tgt o1 T hT hcount
  have he : ∀ j : Fin 64, foldedExp o1 j = expColSum pred j :=
    foldedExp_eq pred o1 P hP hexp
  simp only [hc, he]

end Cert.Loss

end
-- ==== Proof.LossTiles.lean ====
/-
  The loss from the kernel's outputs given tile by tile.

  Each core adds, lane by lane, the sums of its 100 tiles: core c works on the tiles k = 100·c, …, 100·c + 99, and
  tile k is the block of the 5000 packed rows k·5000 + r. A tile's block of predictions reads, at row r and lane l,
  the prediction of original row 2·(k·5000 + r) + l div 64 at class l mod 64; its block of target pairs reads, at
  row r and half h, the target of original row 2·(k·5000 + r) + h. With the tiles of a core numbered
  k = 100·c + i (i < 100) the packed row is (100·c + i)·5000 + r, so the outputs hold exactly the per-core, per-lane
  sums over (tile, row in tile) from which the loss was already derived.
-/
import proofs.«418228_j46265387712705_2_alg».proof.Proof.Spec
import proofs.«418228_j46265387712705_2_alg».proof.Proof.LossAlgebra
import Mathlib.Algebra.BigOperators.Intervals
import Mathlib.Algebra.BigOperators.Fin

noncomputable section

namespace Cert.Loss

open Idealize.ShloMosaic Idealize.ShloMosaic.ValueIdx

/-- A sum over the hundred naturals a, …, a + 99 is the sum over i < 100 at a + i. -/
theorem sum_Icc_eq_sum_fin {M : Type*} [AddCommMonoid M] (a : ℕ) (f : ℕ → M) :
    ∑ k ∈ Finset.Icc a (a + 99), f k = ∑ i : Fin 100, f (a + i.val) := by
  rw [← Finset.Ico_add_one_right_eq_Icc, Finset.sum_Ico_eq_sum_range]
  have h : a + 99 + 1 - a = 100 := by omega
  rw [h]
  exact Finset.sum_range (fun k => f (a + k))

/-- The target of original row n, as a function of the natural n (zero past the last row). -/
def rowTarget (tgt : STgt.Idx → BitVec 32) (n : ℕ) : BitVec 32 :=
  if h : n < 2000000 then tgt (ix1 ⟨n, h⟩) else 0

/-- The prediction of original row n at class j, as a function of the naturals n and j (zero outside the array). -/
def rowEntry (pred : SPred.Idx → EReal) (n j : ℕ) : EReal :=
  if h : n < 2000000 ∧ j < 64 then pred (ix2 ⟨n, h.1⟩ ⟨j, h.2⟩) else 0

theorem rowTarget_val (tgt : STgt.Idx → BitVec 32) (n : Fin 2000000) : rowTarget tgt n.val = tgt (ix1 n) := by
  unfold rowTarget
  rw [dif_pos n.isLt]

theorem rowEntry_val (pred : SPred.Idx → EReal) (n : Fin 2000000) (j : Fin 64) :
    rowEntry pred n.val j.val = pred (ix2 n j) := by
  unfold rowEntry
  rw [dif_pos ⟨n.isLt, j.isLt⟩]

section Tiles

variable (pred : SPred.Idx → EReal) (tgt : STgt.Idx → BitVec 32)
  (XB : ℕ → (⟨2, ![5000, 128]⟩ : Shape).Idx → EReal) (TB : ℕ → (⟨2, ![5000, 2]⟩ : Shape).Idx → BitVec 32)
  (hXB : ∀ (k : ℕ) (hk : k < 200) (r : Fin 5000) (l : Fin 128),
      XB k (ix2 r l) = pred (ix2 ⟨2 * (k * 5000 + r.val) + l.val / 64, by omega⟩ ⟨l.val % 64, Nat.mod_lt _ (by omega)⟩))
  (hTB : ∀ (k : ℕ) (hk : k < 200) (r : Fin 5000) (h : Fin 2),
      TB k (ix2 r h) = tgt (ix1 ⟨2 * (k * 5000 + r.val) + h.val, by omega⟩))

include hTB in
/-- The first target of the pair at row r of tile 100·c + i is the target of original row 2·(packed row). -/
theorem block_target_zero (c : Fin 2) (i : Fin 100) (r : Fin 5000) :
    TB (100 * c.val + i.val) (ix2 r 0) = rowTarget tgt (2 * packedRow c i r) := by
  have hk : 100 * c.val + i.val < 200 := by omega
  have hb : 2 * packedRow c i r < 2000000 := by unfold packedRow; omega
  refine (hTB _ hk r 0).trans ?_
  unfold rowTarget
  rw [dif_pos hb]
  exact congrArg (fun x => tgt (ix1 x)) (Fin.ext (by simp [packedRow]))

include hTB in
/-- The second target of the pair is the target of original row 2·(packed row) + 1. -/
theorem block_target_one (c : Fin 2) (i : Fin 100) (r : Fin 5000) :
    TB (100 * c.val + i.val) (ix2 r 1) = rowTarget tgt (2 * packedRow c i r + 1) := by
  have hk : 100 * c.val + i.val < 200 := by omega
  have hb : 2 * packedRow c i r + 1 < 2000000 := by unfold packedRow; omega
  refine (hTB _ hk r 1).trans ?_
  unfold rowTarget
  rw [dif_pos hb]
  exact congrArg (fun x => tgt (ix1 x)) (Fin.ext (by simp [packedRow]))

include hXB in
/-- Lane l at row r of tile 100·c + i is the prediction of original row 2·(packed row) + l div 64 at class l mod 64. -/
theorem block_entry (c : Fin 2) (i : Fin 100) (r : Fin 5000) (l : Fin 128) :
    XB (100 * c.val + i.val) (ix2 r l) = rowEntry pred (2 * packedRow c i r + l.val / 64) (l.val % 64) := by
  have hk : 100 * c.val + i.val < 200 := by omega
  have hb : 2 * packedRow c i r + l.val / 64 < 2000000 := by unfold packedRow; omega
  have hm : l.val % 64 < 64 := Nat.mod_lt _ (by omega)
  refine (hXB _ hk r l).trans ?_
  unfold rowEntry
  rw [dif_pos ⟨hb, hm⟩]

end Tiles

/-- The host's folding of the two output arrays, when they hold per core and lane the sums of the core's hundred
    tiles, is the loss. -/
theorem tailVal_eq_loss_of_tiles (pred : SPred.Idx → EReal) (tgt : STgt.Idx → BitVec 32)
    (o1 : (⟨3, ![2, 1, 256]⟩ : Shape).Idx → EReal) (o2 : (⟨3, ![2, 1, 128]⟩ : Shape).Idx → EReal)
    (XB : ℕ → (⟨2, ![5000, 128]⟩ : Shape).Idx → EReal) (TB : ℕ → (⟨2, ![5000, 2]⟩ : Shape).Idx → BitVec 32)
    (hXB : ∀ (k : ℕ) (hk : k < 200) (r : Fin 5000) (l : Fin 128),
        XB k (ix2 r l) = pred (ix2 ⟨2 * (k * 5000 + r.val) + l.val / 64, by omega⟩ ⟨l.val % 64, Nat.mod_lt _ (by omega)⟩))
    (hTB : ∀ (k : ℕ) (hk : k < 200) (r : Fin 5000) (h : Fin 2),
        TB k (ix2 r h) = tgt (ix1 ⟨2 * (k * 5000 + r.val) + h.val, by omega⟩))
    (hcount : ∀ (cc : Fin 2) (l : Fin 128), o1 (ix3 cc 0 ⟨l.val, by omega⟩)
        = ∑ k ∈ Finset.Icc (100 * cc.val) (100 * cc.val + 99), tileCount (TB k) l)
    (hexp : ∀ (cc : Fin 2) (l : Fin 128), o1 (ix3 cc 0 ⟨128 + l.val, by omega⟩)
        = ∑ k ∈ Finset.Icc (100 * cc.val) (100 * cc.val + 99), tileExp (XB k) l)
    (hpick : ∀ (cc : Fin 2) (l : Fin 128), o2 (ix3 cc 0 l)
        = ∑ k ∈ Finset.Icc (100 * cc.val) (100 * cc.val + 99), tilePicked (XB k) (TB k) l) :
    tailVal o1 o2 = loss pred tgt := by
  refine tailVal_eq_loss pred tgt o1 o2 (rowTarget tgt) (rowEntry pred)
    (rowTarget_val tgt) (rowEntry_val pred) ?_ ?_ ?_
  · intro c l
    refine (hcount c l).trans ((sum_Icc_eq_sum_fin _ _).trans (Finset.sum_congr rfl fun i _ => ?_))
    unfold tileCount
    refine Finset.sum_congr rfl fun r _ => ?_
    rw [block_target_zero tgt TB hTB c i r, block_target_one tgt TB hTB c i r]
  · intro c l
    refine (hexp c l).trans ((sum_Icc_eq_sum_fin _ _).trans (Finset.sum_congr rfl fun i _ => ?_))
    unfold tileExp
    refine Finset.sum_congr rfl fun r _ => ?_
    rw [block_entry pred XB hXB c i r l]
  · intro c l
    refine (hpick c l).trans ((sum_Icc_eq_sum_fin _ _).trans (Finset.sum_congr rfl fun i _ => ?_))
    unfold tilePicked
    refine Finset.sum_congr rfl fun r _ => ?_
    rw [block_target_zero tgt TB hTB c i r, block_target_one tgt TB hTB c i r,
      block_entry pred XB hXB c i r l]

end Cert.Loss

end
-- ==== Proof.KernelValue.lean ====
/-
  The idealized kernel's result.

  After the kernel, the host folds its two output arrays to one number (`Host.tail_eq`); the arrays'
  entries are sums over each core's tiles of the tiles' lane sums (`Flush.arr1_count`, `arr1_exp`, `arr2_picked`); a
  tile's blocks are the argument arrays at the original rows (`Host.xblk_apply`, `tblk_apply`); and regrouping those
  sums over cores, tiles, packed rows and lanes into sums over original rows and classes gives the loss
  (`Loss.tailVal_eq_loss_of_tiles`). So every execution of the idealized kernel ends with the loss of its two argument
  arrays in its result, and the arguments unchanged.
-/
import proofs.«418228_j46265387712705_2_alg».proof.Proof.Gen.KernelIdeal.Frame
import proofs.«418228_j46265387712705_2_alg».proof.Proof.Spec
import proofs.«418228_j46265387712705_2_alg».proof.Proof.Flush
import proofs.«418228_j46265387712705_2_alg».proof.Proof.KernelTail
import proofs.«418228_j46265387712705_2_alg».proof.Proof.KernelBlocks
import proofs.«418228_j46265387712705_2_alg».proof.Proof.LossTiles
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.Loss Idealize.ShloMosaic.ValueIdx

variable (m : (ℓ : Loc nD τ sig) → Buf (Elt Ideal) ℓ) (ρ : Dev nD → PrngReg)

/-- What the host operations after the kernel leave in the result buffer: the loss of the two argument arrays. -/
theorem value_eq (c : Dev nD) :
    Pipeline.afterTail₀ cfgs (dats m) 0 (V0 m) [hostOps1] c main_v24
      = fun _ => loss (m ((c : Thread nD τ).loc main_arg0)) (m ((c : Thread nD τ).loc main_arg1)) := by
  have hN : cfg0.N = 200 := N_0
  rw [Host.tail_eq m c]
  funext _
  exact tailVal_eq_loss_of_tiles (m ((c : Thread nD τ).loc main_arg0)) (m ((c : Thread nD τ).loc main_arg1))
    (Host.out1 m c) (Host.out2 m c) (Acc.xblkN m c) (Acc.tblkN m c)
    (fun k hk r l => by
      have hk' : k < cfg0.N := by rw [hN]; exact hk
      rw [Acc.xblkN_of_lt m c k hk']
      exact Host.xblk_apply m c ⟨k, hk'⟩ r l)
    (fun k hk r h => by
      have hk' : k < cfg0.N := by rw [hN]; exact hk
      rw [Acc.tblkN_of_lt m c k hk']
      exact Host.tblk_apply m c ⟨k, hk'⟩ r h)
    (Flush.arr1_count m c) (Flush.arr1_exp m c) (Flush.arr2_picked m c)

/-- Every weakly fair execution of the idealized kernel terminates with the loss in its result and its arguments unchanged. -/
theorem run : θ_run defs (onTc (τ := τ) (main (F := Ideal))) ⟨m, fun _ => 0, ρ⟩ (fun r => ∀ c : Dev nD,
      r.2.mem ((c.tc : Thread nD τ).loc main_v24) = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v24 (Pipeline.mem_restRefs_of main_v24 (by decide) (by decide))).trans (value_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefRunHand.lean ====
/- The run of the reference program, read at its stages.
   The reference is a straight line of 45 array operations on two arguments, the predictions (2000000 × 64) and the
   targets (2000000): the class counts (ones added at the targets onto a zero row), the column sums of the exponentials,
   the squared differences of the two summed and divided by the row count; then the prediction picked at each row's
   target (a negative target wrapped by the class count, a target outside 0 … 63 reading NaN), summed, divided by the
   row count, negated, and added to the first term. Each operation rewrites its own result buffer as a function of the
   buffers it reads and leaves every other buffer as it was.
   The line is cut into six stretches. For each stretch: if the buffers it reads hold their stage functions of the two
   arguments' contents, then so do the buffers later stretches read. Chained from any initial contents, the result
   buffer ends at the last stage and the two arguments are unchanged; with the adequacy of a straight-line run this is
   the statement about every weakly fair execution. -/
import proofs.«418228_j46265387712705_2_alg».proof.Proof.RefRead

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The reference's 45 operations in program order as the program spells them: the callee's operations (the gather along the class axis) stand at its call, over references that carry the type of the value they hold. -/
abbrev opsT : List (HloOp τ sig (Elt F)) :=
  [ nullary main_cst (constant S_ .f32 0x3F800000#32),
    unary main_cst main_v0 (broadcastInDim S2000000 ![] bcast_S_S2000000 : (⟨S_, .f32⟩ : BufTy).Contents (Elt F) → (⟨S2000000, .f32⟩ : BufTy).Contents (Elt F)),
    nullary main_cst_0 (constant S_ .f32 0x00000000#32),
    unary main_cst_0 main_v1 (broadcastInDim S64 ![] bcast_S_S64 : (⟨S_, .f32⟩ : BufTy).Contents (Elt F) → (⟨S64, .f32⟩ : BufTy).Contents (Elt F)),
    unary main_arg1 main_v2 (broadcastInDim S2000000x1 ![0] bcast_S2000000_S2000000x1_0 : (⟨S2000000, .i32⟩ : BufTy).Contents (Elt F) → (⟨S2000000x1, .i32⟩ : BufTy).Contents (Elt F)),
    ternary main_v1 main_v2 main_v0 main_v3 ((fun x i u => Host.scatterAdd scatter_S64_S2000000x1_S2000000_n_0_0_1 x i u) : (⟨S64, .f32⟩ : BufTy).Contents (Elt F) → (⟨S2000000x1, .i32⟩ : BufTy).Contents (Elt F) → (⟨S2000000, .f32⟩ : BufTy).Contents (Elt F) → (⟨S64, .f32⟩ : BufTy).Contents (Elt F)),
    unary main_arg0 main_v4 (Host.exp : (⟨S2000000x64, .f32⟩ : BufTy).Contents (Elt F) → (⟨S2000000x64, .f32⟩ : BufTy).Contents (Elt F)),
    nullary main_cst_1 (constant S_ .f32 0x00000000#32),
    binary main_v4 main_cst_1 main_v5 ((fun x v => Host.reduceAdd x v reducesTo_S2000000x64_S64_d0 h_S_) : (⟨S2000000x64, .f32⟩ : BufTy).Contents (Elt F) → (⟨S_, .f32⟩ : BufTy).Contents (Elt F) → (⟨S64, .f32⟩ : BufTy).Contents (Elt F)),
    binary main_v3 main_v5 main_v6 (subf : (⟨S64, .f32⟩ : BufTy).Contents (Elt F) → (⟨S64, .f32⟩ : BufTy).Contents (Elt F) → (⟨S64, .f32⟩ : BufTy).Contents (Elt F)),
    binary main_v6 main_v6 main_v7 (mulf : (⟨S64, .f32⟩ : BufTy).Contents (Elt F) → (⟨S64, .f32⟩ : BufTy).Contents (Elt F) → (⟨S64, .f32⟩ : BufTy).Contents (Elt F)),
    nullary main_cst_2 (constant S_ .f32 0x00000000#32),
    binary main_v7 main_cst_2 main_v8 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_3 (constant S_ .f32 0x49F42400#32),
    binary main_v8 main_cst_3 main_v9 (Host.divf : (⟨S_, .f32⟩ : BufTy).Contents (Elt F) → (⟨S_, .f32⟩ : BufTy).Contents (Elt F) → (⟨S_, .f32⟩ : BufTy).Contents (Elt F)),
    unary main_arg1 main_v10 (broadcastInDim S2000000x1 ![0] bcast_S2000000_S2000000x1_0 : (⟨S2000000, .i32⟩ : BufTy).Contents (Elt F) → (⟨S2000000x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S2000000x1, .i32⟩) main_call0_v0) (broadcastInDim S2000000x1 ![] bcast_S_S2000000x1),
    TRef.binary (TRef.of (T := ⟨S2000000x1, .i32⟩) main_v10) (TRef.of (T := ⟨S2000000x1, .i32⟩) main_call0_v0) (TRef.of (T := ⟨S2000000x1, .i1⟩) main_call0_v1) (cmpi .slt),
    TRef.nullary (TRef.of (T := ⟨S_, .i32⟩) main_call0_c_0) (constantI S_ 32 64#32),
    TRef.unary (TRef.of (T := ⟨S_, .i32⟩) main_call0_c_0) (TRef.of (T := ⟨S2000000x1, .i32⟩) main_call0_v2) (broadcastInDim S2000000x1 ![] bcast_S_S2000000x1),
    TRef.binary (TRef.of (T := ⟨S2000000x1, .i32⟩) main_v10) (TRef.of (T := ⟨S2000000x1, .i32⟩) main_call0_v2) (TRef.of (T := ⟨S2000000x1, .i32⟩) main_call0_v3) addi,
    TRef.ternary (TRef.of (T := ⟨S2000000x1, .i1⟩) main_call0_v1) (TRef.of (T := ⟨S2000000x1, .i32⟩) main_call0_v3) (TRef.of (T := ⟨S2000000x1, .i32⟩) main_v10) (TRef.of (T := ⟨S2000000x1, .i32⟩) main_call0_v4) select,
    TRef.reshape (TRef.of (T := ⟨S2000000x1, .i32⟩) main_call0_v4) (TRef.of (T := ⟨S2000000x1x1, .i32⟩) main_call0_v5) rfl shapeCasts_S2000000x1_S2000000x1x1,
    TRef.nullary (TRef.of (T := ⟨S1, .i32⟩) main_call0_c_1) (constantI S1 32 63#32),
    TRef.nullary (TRef.of (T := ⟨S_, .i32⟩) main_call0_c_2) (constantI S_ 32 0#32),
    TRef.unary (TRef.of (T := ⟨S_, .i32⟩) main_call0_c_2) (TRef.of (T := ⟨S2000000x1x1, .i32⟩) main_call0_v6) (broadcastInDim S2000000x1x1 ![] bcast_S_S2000000x1x1),
    TRef.binary (TRef.of (T := ⟨S2000000x1x1, .i32⟩) main_call0_v5) (TRef.of (T := ⟨S2000000x1x1, .i32⟩) main_call0_v6) (TRef.of (T := ⟨S2000000x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S2000000x1x1, .i32⟩) main_call0_v9) (broadcastInDim S2000000x1x1 ![0, 1, 2] bcast_S1x1x1_S2000000x1x1_0_1_2),
    TRef.binary (TRef.of (T := ⟨S2000000x1x1, .i32⟩) main_call0_v5) (TRef.of (T := ⟨S2000000x1x1, .i32⟩) main_call0_v9) (TRef.of (T := ⟨S2000000x1x1, .i1⟩) main_call0_v10) (cmpi .sle),
    TRef.binary (TRef.of (T := ⟨S2000000x1x1, .i1⟩) main_call0_v7) (TRef.of (T := ⟨S2000000x1x1, .i1⟩) main_call0_v10) (TRef.of (T := ⟨S2000000x1x1, .i1⟩) main_call0_v11) andi,
    TRef.nullary (TRef.of (T := ⟨S_, .i1⟩) main_call0_c_3) (constantI S_ 1 1#1),
    TRef.binary (TRef.of (T := ⟨S2000000x1x1, .i1⟩) main_call0_v11) (TRef.of (T := ⟨S_, .i1⟩) main_call0_c_3) (TRef.of (T := ⟨S2000000x1, .i1⟩) main_call0_v12) (fun x v => Host.reduce IntOp.andi x v reducesTo_S2000000x1x1_S2000000x1_d2 h_S_),
    TRef.binary (TRef.of (T := ⟨S2000000x64, .f32⟩) main_arg0) (TRef.of (T := ⟨S2000000x1x1, .i32⟩) main_call0_v5) (TRef.of (T := ⟨S2000000x1, .f32⟩) main_call0_v13) (fun x i => Host.gather gather_S2000000x64_S2000000x1x1_S2000000x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S2000000x1, .f32⟩) main_call0_v14) (broadcastInDim S2000000x1 ![] bcast_S_S2000000x1),
    TRef.ternary (TRef.of (T := ⟨S2000000x1, .i1⟩) main_call0_v12) (TRef.of (T := ⟨S2000000x1, .f32⟩) main_call0_v13) (TRef.of (T := ⟨S2000000x1, .f32⟩) main_call0_v14) (TRef.of (T := ⟨S2000000x1, .f32⟩) main_v11) select,
    reshape main_v11 main_v12 rfl shapeCasts_S2000000x1_S2000000,
    nullary main_cst_4 (constant S_ .f32 0x00000000#32),
    binary main_v12 main_cst_4 main_v13 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_5 (constant S_ .f32 0x49F42400#32),
    binary main_v13 main_cst_5 main_v14 (Host.divf : (⟨S_, .f32⟩ : BufTy).Contents (Elt F) → (⟨S_, .f32⟩ : BufTy).Contents (Elt F) → (⟨S_, .f32⟩ : BufTy).Contents (Elt F)),
    unary main_v14 main_v15 (Host.negf : (⟨S_, .f32⟩ : BufTy).Contents (Elt F) → (⟨S_, .f32⟩ : BufTy).Contents (Elt F)),
    binary main_v15 main_v9 main_v16 (addf : (⟨S_, .f32⟩ : BufTy).Contents (Elt F) → (⟨S_, .f32⟩ : BufTy).Contents (Elt F) → (⟨S_, .f32⟩ : BufTy).Contents (Elt F)) ]

/-- Operations 1 to 9: the class counts (the ones scattered at the targets onto the zero row) and the column sums of the exponentials. -/
abbrev ops1 : List (HloOp τ sig (Elt F)) :=
  [ nullary main_cst (constant S_ .f32 0x3F800000#32),
    unary main_cst main_v0 (broadcastInDim S2000000 ![] bcast_S_S2000000 : (⟨S_, .f32⟩ : BufTy).Contents (Elt F) → (⟨S2000000, .f32⟩ : BufTy).Contents (Elt F)),
    nullary main_cst_0 (constant S_ .f32 0x00000000#32),
    unary main_cst_0 main_v1 (broadcastInDim S64 ![] bcast_S_S64 : (⟨S_, .f32⟩ : BufTy).Contents (Elt F) → (⟨S64, .f32⟩ : BufTy).Contents (Elt F)),
    unary main_arg1 main_v2 (broadcastInDim S2000000x1 ![0] bcast_S2000000_S2000000x1_0 : (⟨S2000000, .i32⟩ : BufTy).Contents (Elt F) → (⟨S2000000x1, .i32⟩ : BufTy).Contents (Elt F)),
    ternary main_v1 main_v2 main_v0 main_v3 ((fun x i u => Host.scatterAdd scatter_S64_S2000000x1_S2000000_n_0_0_1 x i u) : (⟨S64, .f32⟩ : BufTy).Contents (Elt F) → (⟨S2000000x1, .i32⟩ : BufTy).Contents (Elt F) → (⟨S2000000, .f32⟩ : BufTy).Contents (Elt F) → (⟨S64, .f32⟩ : BufTy).Contents (Elt F)),
    unary main_arg0 main_v4 (Host.exp : (⟨S2000000x64, .f32⟩ : BufTy).Contents (Elt F) → (⟨S2000000x64, .f32⟩ : BufTy).Contents (Elt F)),
    nullary main_cst_1 (constant S_ .f32 0x00000000#32),
    binary main_v4 main_cst_1 main_v5 ((fun x v => Host.reduceAdd x v reducesTo_S2000000x64_S64_d0 h_S_) : (⟨S2000000x64, .f32⟩ : BufTy).Contents (Elt F) → (⟨S_, .f32⟩ : BufTy).Contents (Elt F) → (⟨S64, .f32⟩ : BufTy).Contents (Elt F)) ]

/-- Operations 10 to 16: the squared differences summed and divided by the row count, and the targets as a column. -/
abbrev ops2 : List (HloOp τ sig (Elt F)) :=
  [ binary main_v3 main_v5 main_v6 (subf : (⟨S64, .f32⟩ : BufTy).Contents (Elt F) → (⟨S64, .f32⟩ : BufTy).Contents (Elt F) → (⟨S64, .f32⟩ : BufTy).Contents (Elt F)),
    binary main_v6 main_v6 main_v7 (mulf : (⟨S64, .f32⟩ : BufTy).Contents (Elt F) → (⟨S64, .f32⟩ : BufTy).Contents (Elt F) → (⟨S64, .f32⟩ : BufTy).Contents (Elt F)),
    nullary main_cst_2 (constant S_ .f32 0x00000000#32),
    binary main_v7 main_cst_2 main_v8 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_3 (constant S_ .f32 0x49F42400#32),
    binary main_v8 main_cst_3 main_v9 (Host.divf : (⟨S_, .f32⟩ : BufTy).Contents (Elt F) → (⟨S_, .f32⟩ : BufTy).Contents (Elt F) → (⟨S_, .f32⟩ : BufTy).Contents (Elt F)),
    unary main_arg1 main_v10 (broadcastInDim S2000000x1 ![0] bcast_S2000000_S2000000x1_0 : (⟨S2000000, .i32⟩ : BufTy).Contents (Elt F) → (⟨S2000000x1, .i32⟩ : BufTy).Contents (Elt F)) ]

/-- Operations 17 to 24 (the callee's first eight): a negative target wrapped by adding the class count, then reshaped. -/
abbrev ops3 : List (HloOp τ sig (Elt F)) :=
  [ nullary main_call0_c (constantI S_ 32 0#32),
    unary main_call0_c main_call0_v0 (broadcastInDim S2000000x1 ![] bcast_S_S2000000x1 : (⟨S_, .i32⟩ : BufTy).Contents (Elt F) → (⟨S2000000x1, .i32⟩ : BufTy).Contents (Elt F)),
    binary main_v10 main_call0_v0 main_call0_v1 (cmpi .slt : (⟨S2000000x1, .i32⟩ : BufTy).Contents (Elt F) → (⟨S2000000x1, .i32⟩ : BufTy).Contents (Elt F) → (⟨S2000000x1, .i1⟩ : BufTy).Contents (Elt F)),
    nullary main_call0_c_0 (constantI S_ 32 64#32),
    unary main_call0_c_0 main_call0_v2 (broadcastInDim S2000000x1 ![] bcast_S_S2000000x1 : (⟨S_, .i32⟩ : BufTy).Contents (Elt F) → (⟨S2000000x1, .i32⟩ : BufTy).Contents (Elt F)),
    binary main_v10 main_call0_v2 main_call0_v3 (addi : (⟨S2000000x1, .i32⟩ : BufTy).Contents (Elt F) → (⟨S2000000x1, .i32⟩ : BufTy).Contents (Elt F) → (⟨S2000000x1, .i32⟩ : BufTy).Contents (Elt F)),
    ternary main_call0_v1 main_call0_v3 main_v10 main_call0_v4 (select : (⟨S2000000x1, .i1⟩ : BufTy).Contents (Elt F) → (⟨S2000000x1, .i32⟩ : BufTy).Contents (Elt F) → (⟨S2000000x1, .i32⟩ : BufTy).Contents (Elt F) → (⟨S2000000x1, .i32⟩ : BufTy).Contents (Elt F)),
    reshape main_call0_v4 main_call0_v5 rfl shapeCasts_S2000000x1_S2000000x1x1 ]

/-- Operations 25 to 32: the mask `0 ≤ index ≤ 63`, elementwise. -/
abbrev ops4 : List (HloOp τ sig (Elt F)) :=
  [ nullary main_call0_c_1 (constantI S1 32 63#32),
    nullary main_call0_c_2 (constantI S_ 32 0#32),
    unary main_call0_c_2 main_call0_v6 (broadcastInDim S2000000x1x1 ![] bcast_S_S2000000x1x1 : (⟨S_, .i32⟩ : BufTy).Contents (Elt F) → (⟨S2000000x1x1, .i32⟩ : BufTy).Contents (Elt F)),
    binary main_call0_v5 main_call0_v6 main_call0_v7 (cmpi .sge : (⟨S2000000x1x1, .i32⟩ : BufTy).Contents (Elt F) → (⟨S2000000x1x1, .i32⟩ : BufTy).Contents (Elt F) → (⟨S2000000x1x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S2000000x1x1 ![0, 1, 2] bcast_S1x1x1_S2000000x1x1_0_1_2 : (⟨S1x1x1, .i32⟩ : BufTy).Contents (Elt F) → (⟨S2000000x1x1, .i32⟩ : BufTy).Contents (Elt F)),
    binary main_call0_v5 main_call0_v9 main_call0_v10 (cmpi .sle : (⟨S2000000x1x1, .i32⟩ : BufTy).Contents (Elt F) → (⟨S2000000x1x1, .i32⟩ : BufTy).Contents (Elt F) → (⟨S2000000x1x1, .i1⟩ : BufTy).Contents (Elt F)),
    binary main_call0_v7 main_call0_v10 main_call0_v11 (andi : (⟨S2000000x1x1, .i1⟩ : BufTy).Contents (Elt F) → (⟨S2000000x1x1, .i1⟩ : BufTy).Contents (Elt F) → (⟨S2000000x1x1, .i1⟩ : BufTy).Contents (Elt F)) ]

/-- Operations 33 to 38: the mask reduced over its unit axis, the gathered prediction, and the choice between it and the NaN constant. -/
abbrev ops5 : List (HloOp τ sig (Elt F)) :=
  [ nullary main_call0_c_3 (constantI S_ 1 1#1),
    binary main_call0_v11 main_call0_c_3 main_call0_v12 ((fun x v => Host.reduce IntOp.andi x v reducesTo_S2000000x1x1_S2000000x1_d2 h_S_) : (⟨S2000000x1x1, .i1⟩ : BufTy).Contents (Elt F) → (⟨S_, .i1⟩ : BufTy).Contents (Elt F) → (⟨S2000000x1, .i1⟩ : BufTy).Contents (Elt F)),
    binary main_arg0 main_call0_v5 main_call0_v13 ((fun x i => Host.gather gather_S2000000x64_S2000000x1x1_S2000000x1_n_1_0_0_1_2_11 x i) : (⟨S2000000x64, .f32⟩ : BufTy).Contents (Elt F) → (⟨S2000000x1x1, .i32⟩ : BufTy).Contents (Elt F) → (⟨S2000000x1, .f32⟩ : BufTy).Contents (Elt F)),
    nullary main_call0_cst (constant S_ .f32 0x7FC00000#32),
    unary main_call0_cst main_call0_v14 (broadcastInDim S2000000x1 ![] bcast_S_S2000000x1 : (⟨S_, .f32⟩ : BufTy).Contents (Elt F) → (⟨S2000000x1, .f32⟩ : BufTy).Contents (Elt F)),
    ternary main_call0_v12 main_call0_v13 main_call0_v14 main_v11 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)) ]

/-- Operations 39 to 45: the picked predictions summed, divided by the row count, negated, and added to the penalty. -/
abbrev ops6 : List (HloOp τ sig (Elt F)) :=
  [ reshape main_v11 main_v12 rfl shapeCasts_S2000000x1_S2000000,
    nullary main_cst_4 (constant S_ .f32 0x00000000#32),
    binary main_v12 main_cst_4 main_v13 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_5 (constant S_ .f32 0x49F42400#32),
    binary main_v13 main_cst_5 main_v14 (Host.divf : (⟨S_, .f32⟩ : BufTy).Contents (Elt F) → (⟨S_, .f32⟩ : BufTy).Contents (Elt F) → (⟨S_, .f32⟩ : BufTy).Contents (Elt F)),
    unary main_v14 main_v15 (Host.negf : (⟨S_, .f32⟩ : BufTy).Contents (Elt F) → (⟨S_, .f32⟩ : BufTy).Contents (Elt F)),
    binary main_v15 main_v9 main_v16 (addf : (⟨S_, .f32⟩ : BufTy).Contents (Elt F) → (⟨S_, .f32⟩ : BufTy).Contents (Elt F) → (⟨S_, .f32⟩ : BufTy).Contents (Elt F)) ]

/-- The 45 operations over plain references, as the six stretches in order. -/
abbrev ops : List (HloOp τ sig (Elt F)) := ops1 ++ (ops2 ++ (ops3 ++ (ops4 ++ (ops5 ++ ops6))))

/-- A two-operand operation over typed references whose carried types are the buffers' own is the operation over the
    plain references: the transports are along reflexivity. -/
theorem binary_typed {Val : EltTy → Type} (a b y : Ref sig .tc) (ha : a.space ≠ .host) (ha' : a.isScoped = false) (hb : b.space ≠ .host)
    (hb' : b.isScoped = false) (hy : y.space ≠ .host) (hy' : y.isScoped = false)
    (f : a.ty.Contents Val → b.ty.Contents Val → y.ty.Contents Val) :
    (TRef.binary (TRef.of (T := a.ty) a rfl ha ha') (TRef.of (T := b.ty) b rfl hb hb') (TRef.of (T := y.ty) y rfl hy hy') f : HloOp τ sig Val)
      = binary a b y f ⟨ha, ha'⟩ ⟨hb, hb'⟩ ⟨hy, hy'⟩ := rfl

/-- The program's spelling of the operations is the plain one. The fold of the mask over its unit axis is carried over by
    the lemma above (its function is never opened); every other operation by computation. -/
theorem opsT_eq : (opsT : List (HloOp τ sig (Elt F))) = ops := by
  have e : (TRef.binary (TRef.of (T := ⟨S2000000x1x1, .i1⟩) main_call0_v11) (TRef.of (T := ⟨S_, .i1⟩) main_call0_c_3) (TRef.of (T := ⟨S2000000x1, .i1⟩) main_call0_v12) (fun x v => Host.reduce IntOp.andi x v reducesTo_S2000000x1x1_S2000000x1_d2 h_S_) : HloOp τ sig (Elt F))
      = binary main_call0_v11 main_call0_c_3 main_call0_v12 ((fun x v => Host.reduce IntOp.andi x v reducesTo_S2000000x1x1_S2000000x1_d2 h_S_) : (⟨S2000000x1x1, .i1⟩ : BufTy).Contents (Elt F) → (⟨S_, .i1⟩ : BufTy).Contents (Elt F) → (⟨S2000000x1, .i1⟩ : BufTy).Contents (Elt F)) :=
    binary_typed main_call0_v11 main_call0_c_3 main_call0_v12 (by decide) rfl (by decide) rfl (by decide) rfl
      ((fun x v => Host.reduce IntOp.andi x v reducesTo_S2000000x1x1_S2000000x1_d2 h_S_) : (⟨S2000000x1x1, .i1⟩ : BufTy).Contents (Elt F) → (⟨S_, .i1⟩ : BufTy).Contents (Elt F) → (⟨S2000000x1, .i1⟩ : BufTy).Contents (Elt F))
  unfold opsT
  rw [e]
  rfl

set_option maxRecDepth 8192 in
/-- The reference is the straight line of its 45 operations. -/
theorem main_eq (c : Dev nD) : main (F := F) c = seq ops := by
  have h : main (F := F) c = seq opsT := rfl
  rw [h, opsT_eq]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the core only. -/
theorem ops_sub : (ops : List (HloOp τ sig (Elt F))).Forall fun op => op.bufs ⊆ tcRefs τ sig :=
by
  rw [← opsT_eq]
  exact ⟨nullary_bufs_sub .., unary_bufs_sub .., nullary_bufs_sub .., unary_bufs_sub .., unary_bufs_sub .., ternary_bufs_sub .., unary_bufs_sub .., nullary_bufs_sub .., binary_bufs_sub .., binary_bufs_sub .., binary_bufs_sub .., nullary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., binary_bufs_sub .., nullary_bufs_sub .., binary_bufs_sub .., unary_bufs_sub .., binary_bufs_sub ..⟩

set_option maxRecDepth 8192 in
/-- Every operation determines what it writes. -/
theorem ops_fresh : ∀ op ∈ (ops : List (HloOp τ sig (Elt F))), op.fresh = ∅ :=
by
  rw [← opsT_eq]
  intro _ h; (repeat (cases h with | head => rfl | tail _ h => ?_)); exact nomatch h

/-- The run of a line split in two is the run of the second part from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- After the first stretch: the class counts and the column sums are their stages, the arguments are unchanged. -/
theorem stretch1 (V : Valuation τ sig (Elt F)) :
    after ops1 V (main_v3 : DevRef τ sig) = ReadP.val_main_v3 (F := F) (V (main_arg1 : DevRef τ sig))
    ∧ after ops1 V (main_v5 : DevRef τ sig) = ReadP.val_main_v5 (F := F) (V (main_arg0 : DevRef τ sig))
    ∧ after ops1 V (main_arg0 : DevRef τ sig) = V (main_arg0 : DevRef τ sig)
    ∧ after ops1 V (main_arg1 : DevRef τ sig) = V (main_arg1 : DevRef τ sig) := by
  refine ⟨?_, ?_, ?_, ?_⟩ <;> after_results_simp <;> rfl

/-- After the second stretch, from counts and column sums at their stages: the penalty term and the column of targets
    are their stages. -/
theorem stretch2 (V : Valuation τ sig (Elt F)) (x0 : (⟨S2000000x64, .f32⟩ : BufTy).Contents (Elt F))
    (x1 : (⟨S2000000, .i32⟩ : BufTy).Contents (Elt F))
    (h0 : V (main_arg0 : DevRef τ sig) = x0) (h1 : V (main_arg1 : DevRef τ sig) = x1)
    (h3 : V (main_v3 : DevRef τ sig) = ReadP.val_main_v3 (F := F) x1) (h5 : V (main_v5 : DevRef τ sig) = ReadP.val_main_v5 (F := F) x0) :
    after ops2 V (main_v9 : DevRef τ sig) = ReadP.val_main_v9 (F := F) x0 x1
    ∧ after ops2 V (main_v10 : DevRef τ sig) = ReadP.val_main_v10 (F := F) x1
    ∧ after ops2 V (main_arg0 : DevRef τ sig) = x0 := by
  refine ⟨?_, ?_, ?_⟩
  · after_results_simp; rw [h3, h5]; rfl
  · after_results_simp; rw [h1]; rfl
  · after_results_simp; exact h0

/-- After the third stretch, from the column of targets at its stage: the wrapped, reshaped indices are their stage. -/
theorem stretch3 (V : Valuation τ sig (Elt F)) (x0 : (⟨S2000000x64, .f32⟩ : BufTy).Contents (Elt F))
    (x1 : (⟨S2000000, .i32⟩ : BufTy).Contents (Elt F))
    (h0 : V (main_arg0 : DevRef τ sig) = x0) (h9 : V (main_v9 : DevRef τ sig) = ReadP.val_main_v9 (F := F) x0 x1)
    (h10 : V (main_v10 : DevRef τ sig) = ReadP.val_main_v10 (F := F) x1) :
    after ops3 V (main_call0_v5 : DevRef τ sig) = ReadP.val_main_call0_v5 (F := F) x1
    ∧ after ops3 V (main_arg0 : DevRef τ sig) = x0
    ∧ after ops3 V (main_v9 : DevRef τ sig) = ReadP.val_main_v9 (F := F) x0 x1 := by
  refine ⟨?_, ?_, ?_⟩
  · after_results_simp; rw [h10]; rfl
  · after_results_simp; exact h0
  · after_results_simp; exact h9

/-- After the fourth stretch, from the indices at their stage: the elementwise range mask is its stage. -/
theorem stretch4 (V : Valuation τ sig (Elt F)) (x0 : (⟨S2000000x64, .f32⟩ : BufTy).Contents (Elt F))
    (x1 : (⟨S2000000, .i32⟩ : BufTy).Contents (Elt F))
    (h0 : V (main_arg0 : DevRef τ sig) = x0) (h9 : V (main_v9 : DevRef τ sig) = ReadP.val_main_v9 (F := F) x0 x1)
    (h5 : V (main_call0_v5 : DevRef τ sig) = ReadP.val_main_call0_v5 (F := F) x1) :
    after ops4 V (main_call0_v11 : DevRef τ sig) = ReadP.val_main_call0_v11 (F := F) x1
    ∧ after ops4 V (main_call0_v5 : DevRef τ sig) = ReadP.val_main_call0_v5 (F := F) x1
    ∧ after ops4 V (main_arg0 : DevRef τ sig) = x0
    ∧ after ops4 V (main_v9 : DevRef τ sig) = ReadP.val_main_v9 (F := F) x0 x1 := by
  refine ⟨?_, ?_, ?_, ?_⟩
  · after_results_simp; rw [h5]; rfl
  · after_results_simp; exact h5
  · after_results_simp; exact h0
  · after_results_simp; exact h9

/-- After the fifth stretch, from the mask and the indices at their stages: the picked predictions (NaN outside the
    range) are their stage. -/
theorem stretch5 (V : Valuation τ sig (Elt F)) (x0 : (⟨S2000000x64, .f32⟩ : BufTy).Contents (Elt F))
    (x1 : (⟨S2000000, .i32⟩ : BufTy).Contents (Elt F))
    (h0 : V (main_arg0 : DevRef τ sig) = x0) (h9 : V (main_v9 : DevRef τ sig) = ReadP.val_main_v9 (F := F) x0 x1)
    (h5 : V (main_call0_v5 : DevRef τ sig) = ReadP.val_main_call0_v5 (F := F) x1)
    (h11 : V (main_call0_v11 : DevRef τ sig) = ReadP.val_main_call0_v11 (F := F) x1) :
    after ops5 V (main_v11 : DevRef τ sig) = ReadP.val_main_v11 (F := F) x0 x1
    ∧ after ops5 V (main_v9 : DevRef τ sig) = ReadP.val_main_v9 (F := F) x0 x1 := by
  refine ⟨?_, ?_⟩
  · after_results_simp; rw [h11, h0, h5]; rfl
  · after_results_simp; exact h9

/-- After the last stretch, from the picked predictions and the penalty term at their stages: the loss is its stage. -/
theorem stretch6 (V : Valuation τ sig (Elt F)) (x0 : (⟨S2000000x64, .f32⟩ : BufTy).Contents (Elt F))
    (x1 : (⟨S2000000, .i32⟩ : BufTy).Contents (Elt F))
    (h9 : V (main_v9 : DevRef τ sig) = ReadP.val_main_v9 (F := F) x0 x1)
    (h11 : V (main_v11 : DevRef τ sig) = ReadP.val_main_v11 (F := F) x0 x1) :
    after ops6 V (main_v16 : DevRef τ sig) = ReadP.val_main_v16 (F := F) x0 x1 := by
  after_results_simp; rw [h11, h9]; rfl

/-- From any contents, after the 45 operations the result buffer holds the last stage at the two arguments' contents. -/
theorem result_eq (V : Valuation τ sig (Elt F)) :
    after ops V (main_v16 : DevRef τ sig) = ReadP.val_main_v16 (F := F) (V (main_arg0 : DevRef τ sig)) (V (main_arg1 : DevRef τ sig)) := by
  obtain ⟨a3, a5, a0, a1⟩ := stretch1 V
  obtain ⟨b9, b10, b0⟩ := stretch2 (after ops1 V) (V (main_arg0 : DevRef τ sig)) (V (main_arg1 : DevRef τ sig)) a0 a1 a3 a5
  obtain ⟨c5, c0, c9⟩ := stretch3 (after ops2 (after ops1 V)) (V (main_arg0 : DevRef τ sig)) (V (main_arg1 : DevRef τ sig)) b0 b9 b10
  obtain ⟨d11, d5, d0, d9⟩ := stretch4 (after ops3 (after ops2 (after ops1 V))) (V (main_arg0 : DevRef τ sig)) (V (main_arg1 : DevRef τ sig)) c0 c9 c5
  obtain ⟨e11, e9⟩ := stretch5 (after ops4 (after ops3 (after ops2 (after ops1 V)))) (V (main_arg0 : DevRef τ sig)) (V (main_arg1 : DevRef τ sig)) d0 d9 d5 d11
  have g := stretch6 (after ops5 (after ops4 (after ops3 (after ops2 (after ops1 V))))) (V (main_arg0 : DevRef τ sig)) (V (main_arg1 : DevRef τ sig)) e9 e11
  unfold ops
  rw [after_app, after_app, after_app, after_app, after_app]
  exact g

/-- The operations leave the first argument as it was. -/
theorem arg0_eq (V : Valuation τ sig (Elt F)) : after ops V (main_arg0 : DevRef τ sig) = V (main_arg0 : DevRef τ sig) := by
  rw [← opsT_eq]; after_results_simp

/-- The operations leave the second argument as it was. -/
theorem arg1_eq (V : Valuation τ sig (Elt F)) : after ops V (main_arg1 : DevRef τ sig) = V (main_arg1 : DevRef τ sig) := by
  rw [← opsT_eq]; after_results_simp

/-- On every device, for any float values, from any memory with zero counters: every weakly fair execution of the
    reference terminates with the result buffer at the last stage (the loss as a function of the two arguments' launch
    contents) and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v16) = Cert.ReferenceIdeal.ReadP.val_main_v16 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (result_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ (fun _ => ops_fresh))

end Cert.RefSide

end
-- ==== Proof.RefCounts.lean ====
/-
  The reference's class counts, column sums of exponentials and penalty, read off its operations.

  The scatter-add of two million ones at the targets lands row n's one at class t[n] (the target word read signed,
  not clamped) when 0 ≤ t[n] < 64 and nowhere otherwise; so its value at class j is 0 + #{ n | t[n] = j }, with no
  condition on the targets. The column sum at j is 0 + Σ_n exp p[n, j]. The penalty is 0 + Σ_j (count[j] − colexp[j])².
-/
import proofs.«418228_j46265387712705_2_alg».proof.Proof.RefRead
import proofs.«418228_j46265387712705_2_alg».proof.Proof.Spec
import Idealize.ShloMosaic.Lib.ValueIdxRank1

noncomputable section

namespace Cert.RefSide

open Cert.ReferenceIdeal Cert.ReferenceIdeal.Gen Idealize.ShloMosaic Idealize.ShloMosaic.ValueIdx

/-- The word 0x3F800000 denotes one: sign +, exponent 127 − 127 = 0, significand 2²³ / 2²³. -/
theorem one_word : Ideal.ofBits .f32 0x3F800000#32 = (1 : EReal) := by
  simp [Ideal.ofBits, Ideal.ieee, -EReal.coe_mul]; norm_num

/-- The scatter's dimension numbers: 64 classes, one index word per row, one update per row. -/
abbrev dS := scatter_S64_S2000000x1_S2000000_n_0_0_1

/-- Row `n`'s window starts, on the one class axis, at its index word read as a signed integer. -/
theorem start_eq (idx : IVec S2000000x1 32) (n : Fin 2000000) (a : Fin S64.rank) :
    dS.start (ix1 n) idx a = (idx (ix2 n 0)).toInt := by
  obtain rfl : a = 0 := Subsingleton.elim _ _
  unfold ScatterDims.start
  rw [dif_pos (show (0 : Fin 1) ∈ dS.scatterDimsToOperandDims from List.mem_singleton.mpr rfl)]
  refine congrArg (fun i => (idx i).toInt) ?_
  funext b; refine Fin.ext ?_
  match b with
  | ⟨0, _⟩ => rfl
  | ⟨1, _⟩ => rfl

/-- The class axis is an inserted window axis: the window coordinate on it is zero. -/
theorem window_eq (n : Fin 2000000) (a : Fin S64.rank) :
    dS.window (ix1 n) a = 0 := by
  obtain rfl : a = 0 := Subsingleton.elim _ _
  unfold ScatterDims.window
  rw [dif_neg]
  show ¬ ((0 : Fin 1) ∈ S64.kept [0])
  decide

/-- Row `n`'s update lands at class `j` exactly when its index word, read signed, is `j`: the landing index is
    start + 0, it exists when 0 ≤ start < 64, and then it is the class numbered start. -/
theorem resultIdx_iff (idx : IVec S2000000x1 32) (n : Fin 2000000) (j : Fin 64) :
    dS.resultIdx? (ix1 n) idx = some (ix1 j) ↔ (idx (ix2 n 0)).toInt = (j.val : ℤ) := by
  unfold ScatterDims.resultIdx?
  constructor
  · intro h
    split at h
    · rename_i hb
      have h0 := congrArg (fun i : S64.Idx => (i 0).val) (Option.some.inj h)
      have hb0 := (hb 0).1
      rw [start_eq, window_eq] at hb0
      have h1 : (dS.start (ix1 n) idx 0 + (dS.window (ix1 n) 0 : ℤ)).toNat = j.val := h0
      rw [start_eq, window_eq] at h1
      omega
    · cases h
  · intro h
    have hj : j.val < 64 := j.isLt
    rw [dif_pos (fun a => by
      rw [start_eq, window_eq]
      obtain rfl : a = 0 := Subsingleton.elim _ _
      show 0 ≤ _ + ((0 : ℕ) : ℤ) ∧ _ + ((0 : ℕ) : ℤ) < ((64 : ℕ) : ℤ)
      omega)]
    refine congrArg some ?_
    funext a
    obtain rfl : a = 0 := Subsingleton.elim _ _
    refine Fin.ext ?_
    show (dS.start (ix1 n) idx 0 + (dS.window (ix1 n) 0 : ℤ)).toNat = j.val
    rw [start_eq, window_eq]
    omega

/-- The scatter-add read at class `j`: the operand there plus the updates of the rows whose index word, read signed,
    is `j`. The sum over the updates that land at `j` is the sum over all rows of the update or zero. -/
theorem scatter_apply (x : S64.Idx → EReal) (idx : IVec S2000000x1 32) (upd : S2000000.Idx → EReal) (j : Fin 64) :
    Ideal.hostScatterAdd dS x idx upd (ix1 j)
      = x (ix1 j) + ∑ n : Fin 2000000, if (idx (ix2 n 0)).toInt = (j.val : ℤ) then upd (ix1 n) else 0 := by
  unfold Ideal.hostScatterAdd
  rw [Finset.sum_filter]
  refine congrArg (x (ix1 j) + ·) ?_
  refine (Fintype.sum_equiv (idxEquiv1 (n := 2000000)).symm
    (fun n : Fin 2000000 => if (idx (ix2 n 0)).toInt = (j.val : ℤ) then upd (ix1 n) else 0) _ (fun n => ?_)).symm
  have e : (idxEquiv1 (n := 2000000)).symm n = ix1 n := rfl
  beta_reduce
  rw [e]
  exact (if_congr (resultIdx_iff idx n j) rfl rfl).symm

/-- Over the extended reals the host's accumulating scatter is the exact sum. -/
theorem scatterAdd_ideal (x : FVec Ideal S64 .f32) (idx : IVec S2000000x1 32) (upd : FVec Ideal S2000000 .f32) :
    Host.scatterAdd (F := Ideal) dS x idx upd = Ideal.hostScatterAdd dS x idx upd := rfl

/-- The index column `[n, 0]` reads target `n`. -/
theorem idx_v2 (n : Fin 2000000) : ReadP.idx_main_v2 (ix2 n (0 : Fin 1)) = ix1 n := by
  funext a
  match a with
  | ⟨0, _⟩ => rfl

/-- The scatter-add of two million ones at the targets, read at class `j`: zero plus the number of rows whose target
    word, read signed, is `j`. A target outside the classes is dropped by the scatter and matches no class. -/
theorem v3_apply (x1 : S2000000.Idx → BitVec 32) (j : Fin 64) :
    ReadP.val_main_v3 (F := Ideal) x1 (ix1 j) = Cert.Loss.classCount x1 j := by
  unfold ReadP.val_main_v3 Cert.Loss.classCount
  rw [scatterAdd_ideal, scatter_apply]
  rw [ReadP.val_main_v1_apply, ReadP.val_main_cst_0_apply, Ideal.ofBits_def, Ideal.ofBits_zero_f32, zero_add]
  refine Finset.sum_congr rfl fun n _ => ?_
  rw [ReadP.val_main_v0_apply, ReadP.val_main_cst_apply, Ideal.ofBits_def, one_word, ReadP.val_main_v2_apply, idx_v2]

/-- Term `k` of the column sum at class `j` is the entry `[k, j]`. -/
theorem idx_v5 (j : Fin 64) (k : Fin 2000000) : ReadP.idx_main_v5 (ix1 j) k = ix2 k j := by
  funext a
  match a with
  | ⟨0, _⟩ => rfl
  | ⟨1, _⟩ => rfl

/-- The column sum of the exponentials at class `j`: zero plus Σ_n exp p[n, j]. -/
theorem v5_apply' (x0 : S2000000x64.Idx → EReal) (j : Fin 64) :
    ReadP.val_main_v5 (F := Ideal) x0 (ix1 j) = Cert.Loss.expColSum x0 j := by
  unfold Cert.Loss.expColSum
  rw [ReadP.val_main_v5_apply, ReadP.val_main_cst_1_apply, Ideal.ofBits_def, Ideal.ofBits_zero_f32, zero_add]
  refine Finset.sum_congr rfl fun k _ => ?_
  rw [ReadP.val_main_v4_apply, Ideal.hostUnary_exp_def, idx_v5]

/-- The penalty: zero plus Σ_j (count[j] − colexp[j]) · (count[j] − colexp[j]), the sum over the classes' indices taken
    over their coordinates. -/
theorem v8_eq (x0 : S2000000x64.Idx → EReal) (x1 : S2000000.Idx → BitVec 32) :
    ReadP.val_main_v8 (F := Ideal) x0 x1 = fun _ => Cert.Loss.penaltySum x0 x1 := by
  funext i
  unfold Cert.Loss.penaltySum
  rw [ReadP.val_main_v8_apply, ReadP.val_main_cst_2_apply, Ideal.ofBits_def, Ideal.ofBits_zero_f32, zero_add]
  refine (Fintype.sum_equiv (idxEquiv1 (n := 64)).symm
    (fun j : Fin 64 => (Cert.Loss.classCount x1 j - Cert.Loss.expColSum x0 j)
      * (Cert.Loss.classCount x1 j - Cert.Loss.expColSum x0 j)) _ (fun j => ?_)).symm
  have e : (idxEquiv1 (n := 64)).symm j = ix1 j := rfl
  rw [e, ReadP.val_main_v7_apply, Ideal.mulf_def, ReadP.val_main_v6_apply, Ideal.subf_def, v3_apply, v5_apply']

end Cert.RefSide

end
-- ==== Proof.RowCount.lean ====
/-
  The row count's word 0x49F42400 denotes 2 000 000 (sign +, exponent 147 − 127 = 20, significand 16 000 000 / 2²³),
  and division by it commutes with negation: x / N = x · (1/N) for the nonzero real N, and (−x) · c = −(x · c).
-/
import proofs.«418228_j46265387712705_2_alg».proof.Proof.Spec
import Idealize.ShloMosaic.PureOps.Ideal

noncomputable section

namespace Cert.Loss

open Idealize.ShloMosaic

/-- The row count is the real number 2 000 000. -/
theorem rowCount_eq : rowCount = ((2000000 : ℝ) : EReal) := by
  unfold rowCount
  simp [Ideal.ofBits, Ideal.ieee, -EReal.coe_mul]
  norm_num

/-- Dividing a negated value by the row count negates the quotient. -/
theorem div_neg_rowCount (x : EReal) : Ideal.div (-x) rowCount = -(Ideal.div x rowCount) := by
  rw [rowCount_eq, Ideal.div_coe (by norm_num), Ideal.div_coe (by norm_num), EReal.neg_mul]

end Cert.Loss

end
-- ==== Proof.RefValue.lean ====
/-
  The reference's result from its two halves. Its last operations form (−(picked / N)) + penalty / N, with picked the
  sum of the predictions at the targets and N the row count's word; the loss spells (−picked) / N + penalty / N, and
  division by N commutes with negation.
-/
import proofs.«418228_j46265387712705_2_alg».proof.Proof.RefRead
import proofs.«418228_j46265387712705_2_alg».proof.Proof.Spec
import proofs.«418228_j46265387712705_2_alg».proof.Proof.RefCounts
import proofs.«418228_j46265387712705_2_alg».proof.Proof.RowCount

noncomputable section

namespace Cert.RefSide

open Cert.ReferenceIdeal Cert.ReferenceIdeal.Gen Idealize.ShloMosaic Idealize.ShloMosaic.ValueIdx

/-- Given that the summed gather is the picked sum, the reference's result is the loss:
    −(picked / N) + penalty / N = (−picked) / N + penalty / N. -/
theorem val_eq_loss_of (x0 : S2000000x64.Idx → EReal) (x1 : S2000000.Idx → BitVec 32)
    (h13 : ReadP.val_main_v13 (F := Ideal) x0 x1 = fun _ => Cert.Loss.pickedSum x0 x1) :
    ReadP.val_main_v16 (F := Ideal) x0 x1 = fun _ => Cert.Loss.loss x0 x1 := by
  funext i
  rw [ReadP.val_main_v16_apply, Ideal.addf_def, ReadP.val_main_v15_apply, Ideal.hostNegf_def, Ideal.negf_def,
    ReadP.val_main_v14_apply, Ideal.hostDivf_def, h13, ReadP.val_main_cst_5_apply, Ideal.ofBits_def,
    ReadP.val_main_v9_apply, Ideal.hostDivf_def, v8_eq, ReadP.val_main_cst_3_apply, Ideal.ofBits_def]
  unfold Cert.Loss.loss
  rw [Cert.Loss.div_neg_rowCount]
  rfl

end Cert.RefSide

end
-- ==== Proof.RefPicked.lean ====
/-
  The reference's picked half, under the targets' range.

  With t = x1[n] read as a signed word and 0 ≤ t < 64: the comparison t < 0 is false, so the index keeps t (no wrap
  by + 64); the mask 0 ≤ t ∧ t ≤ 63 is true at every row, so its conjunction over the axis of size one is the bit 1 and
  the final choice takes the gathered element, never the constant; the gather reads x0 at row n (the batching axis) and
  at column t (the start index, read signed and clamped into [0, 63], where it already is). So element n of the
  gathered column is x0[n, t] = Σ_j [t = j] · x0[n, j], and the sum of that column over its 2 000 000 rows is the picked
  sum of the specification.
-/
import proofs.«418228_j46265387712705_2_alg».proof.Proof.RefRead
import proofs.«418228_j46265387712705_2_alg».proof.Proof.Spec
import Idealize.ShloMosaic.Lib.ValueIdxRank1
import Idealize.ShloMosaic.Lib.ReduceAll

noncomputable section

namespace Cert.RefSide

open Cert.ReferenceIdeal Cert.ReferenceIdeal.Gen Idealize.ShloMosaic Idealize.ShloMosaic.ValueIdx
  Idealize.ShloMosaic.StableHlo

/-! ## Words -/

theorem toInt_zero32 : (0#32 : BitVec 32).toInt = 0 := by decide
theorem toInt_sixtythree32 : (63#32 : BitVec 32).toInt = 63 := by decide

/-- A left fold by "and" from the bit 1 over bits that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self]
    have h11 : IntOp.andi 1#1 1#1 = 1#1 := by decide
    rw [h11]
    exact ih fun n hn => hf n (List.mem_cons_of_mem _ hn)

/-! ## The index column: the targets, unwrapped -/

/-- Row n of the targets laid out as a [2 000 000, 1] column is target n. -/
theorem v10_apply (x1 : S2000000.Idx → BitVec 32) (n : Fin 2000000) :
    ReadP.val_main_v10 (F := Ideal) x1 (ix2 n (0 : Fin 1)) = x1 (ix1 n) := by
  rw [ReadP.val_main_v10_apply]
  exact congrArg x1 (funext fun a => match a with | ⟨0, _⟩ => rfl)

/-- A nonnegative target is not below 0, so the wrapped choice keeps it. -/
theorem call0_v4_apply (x1 : S2000000.Idx → BitVec 32) (n : Fin 2000000) (h0 : 0 ≤ (x1 (ix1 n)).toInt) :
    ReadP.val_main_call0_v4 (F := Ideal) x1 (ix2 n (0 : Fin 1)) = x1 (ix1 n) := by
  rw [ReadP.val_main_call0_v4_apply, ReadP.val_main_call0_v1_apply, ReadP.val_main_call0_v0_apply,
    ReadP.val_main_call0_c_apply, v10_apply]
  have hc : IntOp.cmpi .slt (x1 (ix1 n)) 0#32 = 0#1 := by
    refine eq_zero_of_ne_one fun h => ?_
    have hlt := IntOp.cmpi_slt.1 h
    rw [toInt_zero32] at hlt
    omega
  rw [hc, select_zero]

/-- The same column with a trailing axis of size one. -/
theorem idx_apply (x1 : S2000000.Idx → BitVec 32) (n : Fin 2000000) (h0 : 0 ≤ (x1 (ix1 n)).toInt) :
    ReadP.val_main_call0_v5 (F := Ideal) x1 (ix3 n (0 : Fin 1) (0 : Fin 1)) = x1 (ix1 n) := by
  rw [ReadP.val_main_call0_v5_apply]
  have hi : ReadP.idx_main_call0_v5 (ix3 n (0 : Fin 1) (0 : Fin 1)) = ix2 n (0 : Fin 1) := by
    funext a
    match a with
    | ⟨0, _⟩ => exact Fin.ext (by show ((n.val * 1 + 0) * 1 + 0) / 1 = n.val; omega)
    | ⟨1, _⟩ => rfl
  rw [hi]
  exact call0_v4_apply x1 n h0

/-! ## The mask: in range at every row -/

/-- Under the range the mask's bit is 1 at every index. -/
theorem call0_v11_apply (x1 : S2000000.Idx → BitVec 32)
    (hrange : ∀ n : Fin 2000000, 0 ≤ (x1 (ix1 n)).toInt ∧ (x1 (ix1 n)).toInt < 64) (i : S2000000x1x1.Idx) :
    ReadP.val_main_call0_v11 (F := Ideal) x1 i = 1#1 := by
  obtain ⟨a, b, c, rfl⟩ : ∃ (a : Fin 2000000) (b c : Fin 1), i = ix3 a b c := ⟨i 0, i 1, i 2, eq_ix3 i⟩
  obtain rfl : b = 0 := Subsingleton.elim _ _
  obtain rfl : c = 0 := Subsingleton.elim _ _
  obtain ⟨h0, h1⟩ := hrange a
  rw [ReadP.val_main_call0_v11_apply, ReadP.val_main_call0_v7_apply, ReadP.val_main_call0_v10_apply,
    ReadP.val_main_call0_v6_apply, ReadP.val_main_call0_c_2_apply, ReadP.val_main_call0_v9_apply,
    ReadP.val_main_call0_v8_apply, ReadP.val_main_call0_c_1_apply, idx_apply x1 a h0]
  refine IntOp.andi_eq_one.2 ⟨IntOp.cmpi_sge.2 ?_, IntOp.cmpi_sle.2 ?_⟩
  · rw [toInt_zero32]; exact h0
  · rw [toInt_sixtythree32]; omega

/-- So its conjunction over the last axis is the bit 1 at every row. -/
theorem mask_apply (x1 : S2000000.Idx → BitVec 32)
    (hrange : ∀ n : Fin 2000000, 0 ≤ (x1 (ix1 n)).toInt ∧ (x1 (ix1 n)).toInt < 64) (j : S2000000x1.Idx) :
    ReadP.val_main_call0_v12 (F := Ideal) x1 j = 1#1 := by
  unfold ReadP.val_main_call0_v12
  rw [Host.reduce_eq_foldl, ReadP.val_main_call0_c_3_apply]
  exact foldl_andi_ones _ _ fun i _ => call0_v11_apply x1 hrange i

/-! ## The gather: row n, column the start index -/

/-- The batched gather at row n reads the operand at row n and at the column its start index names, when that index,
    read signed, is a column k. -/
theorem gather_apply {α : Type} (x : S2000000x64.Idx → α) (idx : IVec S2000000x1x1 32) (n : Fin 2000000) (k : Fin 64)
    (hk : (idx (ix3 n (0 : Fin 1) (0 : Fin 1))).toInt = (k.val : ℤ)) :
    Host.gather gather_S2000000x64_S2000000x1x1_S2000000x1_n_1_0_0_1_2_11 x idx (ix2 n (0 : Fin 1)) = x (ix2 n k) := by
  unfold Host.gather
  refine congrArg x (funext fun a => ?_)
  match a with
  | ⟨0, _⟩ =>
    refine Fin.ext ?_
    show GatherDims.start gather_S2000000x64_S2000000x1x1_S2000000x1_n_1_0_0_1_2_11 (ix2 n (0 : Fin 1)) idx 0
      + GatherDims.batchCoord gather_S2000000x64_S2000000x1x1_S2000000x1_n_1_0_0_1_2_11 (ix2 n (0 : Fin 1)) 0
      + GatherDims.offCoord gather_S2000000x64_S2000000x1x1_S2000000x1_n_1_0_0_1_2_11 (ix2 n (0 : Fin 1)) 0 = n.val
    have hb : (0 : Fin 2) ∈ (gather_S2000000x64_S2000000x1x1_S2000000x1_n_1_0_0_1_2_11).operandBatchingDims :=
      List.mem_singleton.mpr rfl
    rw [GatherDims.start_batching _ _ _ _ hb,
      GatherDims.offCoord_eq_zero _ _ _ (fun h => ((GatherDims.mem_sKept _ _).1 h).2 hb), Nat.zero_add, Nat.add_zero]
    rfl
  | ⟨1, _⟩ =>
    refine Fin.ext ?_
    show GatherDims.start gather_S2000000x64_S2000000x1x1_S2000000x1_n_1_0_0_1_2_11 (ix2 n (0 : Fin 1)) idx 1
      + GatherDims.batchCoord gather_S2000000x64_S2000000x1x1_S2000000x1_n_1_0_0_1_2_11 (ix2 n (0 : Fin 1)) 1
      + GatherDims.offCoord gather_S2000000x64_S2000000x1x1_S2000000x1_n_1_0_0_1_2_11 (ix2 n (0 : Fin 1)) 1 = k.val
    have hc : (1 : Fin 2) ∈ (gather_S2000000x64_S2000000x1x1_S2000000x1_n_1_0_0_1_2_11).collapsedSliceDims :=
      List.mem_singleton.mpr rfl
    have hm : (1 : Fin 2) ∈ (gather_S2000000x64_S2000000x1x1_S2000000x1_n_1_0_0_1_2_11).startIndexMap :=
      List.mem_singleton.mpr rfl
    have hnb : (1 : Fin 2) ∉ (gather_S2000000x64_S2000000x1x1_S2000000x1_n_1_0_0_1_2_11).operandBatchingDims := by
      decide
    rw [GatherDims.batchCoord_eq_zero _ _ _ hnb,
      GatherDims.offCoord_eq_zero _ _ _ (fun h => ((GatherDims.mem_sKept _ _).1 h).1 hc), Nat.add_zero]
    unfold GatherDims.start
    rw [dif_pos hm]
    have hsi : GatherDims.siIdx gather_S2000000x64_S2000000x1x1_S2000000x1_n_1_0_0_1_2_11 (ix2 n (0 : Fin 1))
        ⟨List.idxOf (1 : Fin 2) (gather_S2000000x64_S2000000x1x1_S2000000x1_n_1_0_0_1_2_11).startIndexMap,
          List.idxOf_lt_length_iff.2 hm⟩ = ix3 n (0 : Fin 1) (0 : Fin 1) := by
      funext b
      refine Fin.ext ?_
      match b with
      | ⟨0, _⟩ => rfl
      | ⟨1, _⟩ => rfl
      | ⟨2, _⟩ => rfl
    rw [hsi, hk]
    show min ((k.val : ℤ)).toNat (64 - 1) = k.val
    have := k.isLt
    omega

/-! ## The gathered column and its sum -/

/-- An extended real at column t of a row is the sum over the columns j of that row's entries at t = j. -/
theorem pick_eq_sum (x0 : S2000000x64.Idx → EReal) (n : Fin 2000000) (t : ℤ) (k : Fin 64) (hk : t = (k.val : ℤ)) :
    x0 (ix2 n k) = ∑ j : Fin 64, if t = (j.val : ℤ) then x0 (ix2 n j) else 0 := by
  rw [Finset.sum_eq_single k, if_pos hk]
  · intro j _ hj
    refine if_neg fun h => hj (Fin.ext ?_)
    omega
  · intro h
    exact absurd (Finset.mem_univ k) h

/-- Row n of the callee's result: the mask's bit is 1, so it is the gathered element, the prediction at row n and at
    the column the target names. -/
theorem v11_apply (x0 : S2000000x64.Idx → EReal) (x1 : S2000000.Idx → BitVec 32)
    (hrange : ∀ n : Fin 2000000, 0 ≤ (x1 (ix1 n)).toInt ∧ (x1 (ix1 n)).toInt < 64) (n : Fin 2000000) :
    ReadP.val_main_v11 (F := Ideal) x0 x1 (ix2 n (0 : Fin 1))
      = ∑ j : Fin 64, if (x1 (ix1 n)).toInt = (j.val : ℤ) then x0 (ix2 n j) else 0 := by
  obtain ⟨h0, h1⟩ := hrange n
  have hk : (x1 (ix1 n)).toInt = ((⟨(x1 (ix1 n)).toInt.toNat, by omega⟩ : Fin 64).val : ℤ) := by
    show (x1 (ix1 n)).toInt = (((x1 (ix1 n)).toInt.toNat : ℕ) : ℤ)
    omega
  rw [ReadP.val_main_v11_apply, mask_apply x1 hrange, select_one]
  unfold ReadP.val_main_call0_v13
  rw [gather_apply x0 (ReadP.val_main_call0_v5 (F := Ideal) x1) n ⟨(x1 (ix1 n)).toInt.toNat, by omega⟩
    (by rw [idx_apply x1 n h0]; exact hk)]
  exact pick_eq_sum x0 n _ _ hk

/-- THE GATHERED COLUMN AT ROW n, as a flat array. -/
theorem v12_apply (x0 : S2000000x64.Idx → EReal) (x1 : S2000000.Idx → BitVec 32)
    (hrange : ∀ n : Fin 2000000, 0 ≤ (x1 (ix1 n)).toInt ∧ (x1 (ix1 n)).toInt < 64) (n : Fin 2000000) :
    ReadP.val_main_v12 (F := Ideal) x0 x1 (ix1 n)
      = ∑ j : Fin 64, if (x1 (ix1 n)).toInt = (j.val : ℤ) then x0 (ix2 n j) else 0 := by
  rw [ReadP.val_main_v12_apply]
  have hi : ReadP.idx_main_v12 (ix1 n) = ix2 n (0 : Fin 1) := by
    funext a
    match a with
    | ⟨0, _⟩ => exact Fin.ext (Nat.div_one _)
    | ⟨1, _⟩ => rfl
  rw [hi]
  exact v11_apply x0 x1 hrange n

/-- THE SUM OF THE GATHERED COLUMN is the picked sum. -/
theorem v13_eq (x0 : S2000000x64.Idx → EReal) (x1 : S2000000.Idx → BitVec 32)
    (hrange : ∀ n : Fin 2000000, 0 ≤ (x1 (ix1 n)).toInt ∧ (x1 (ix1 n)).toInt < 64) :
    ReadP.val_main_v13 (F := Ideal) x0 x1 = fun _ => Cert.Loss.pickedSum x0 x1 := by
  funext i
  rw [ReadP.val_main_v13_apply, ReadP.val_main_cst_4_apply]
  refine (congrArg (· + _) Ideal.ofBits_zero_f32).trans ?_
  rw [zero_add, ← Equiv.sum_comp (idxEquiv1 (n := 2000000)).symm]
  unfold Cert.Loss.pickedSum
  exact Finset.sum_congr rfl fun n _ => v12_apply x0 x1 hrange n

end Cert.RefSide

end
-- ==== Proof.PreDecode.lean ====
/-
  The printed precondition, read back on the targets. The precondition is the conjunction of three "for all" statements:
  every logit is finite, every target is at least 0, every target is below 64 (the comparisons signed, on 32-bit words).
  Each "for all" is an and-reduction of a mask of one-bit words from 1 into a single word; the conjunction is the and of
  the three words. If the result is 1 then each of the three words is 1, hence every element of each mask is 1, and an
  element of a comparison mask being 1 says the signed comparison of the word with the constant holds. So every target t
  satisfies 0 ≤ t < 64 as a signed integer.
-/
import proofs.«418228_j46265387712705_2_alg».proof.Pre_finite_inputs
import Idealize.ShloMosaic.Lib.ReduceAll
import Idealize.ShloMosaic.Lib.StableHlo.Predicate
import Idealize.ShloMosaic.Lib.ValueIdx

namespace Cert.PreDecode

open Idealize.ShloMosaic Idealize.ShloMosaic.ValueIdx

/-- The rank-0 shape has exactly one index (the empty tuple). -/
instance subsingleton_scalar_idx : Subsingleton Cert.Pre_finite_inputs.S_.Idx :=
  ⟨fun _ _ => funext fun d => d.elim0⟩

/-- The two constants the targets are compared with, as signed integers. -/
theorem toInt_zero32 : (0#32 : BitVec 32).toInt = 0 := by decide
theorem toInt_sixtyfour32 : (64#32 : BitVec 32).toInt = 64 := by decide

/-- If the precondition evaluates to 1, every target is in [0, 64) as a signed integer. -/
theorem targets_in_range {F : FTy → Type} [FloatOps F] [Cert.Pre_finite_inputs.Facts]
    (x0 : FVec F Cert.Pre_finite_inputs.S2000000x64 .f32) (x1 : IVec Cert.Pre_finite_inputs.S2000000 32)
    (h : Cert.Pre_finite_inputs.fn (F := F) x0 x1 = fun _ => 1#1) (n : Fin 2000000) :
    0 ≤ (x1 (ix1 n)).toInt ∧ (x1 (ix1 n)).toInt < 64 := by
  have e := congrFun h ix0
  dsimp only [Cert.Pre_finite_inputs.fn] at e
  -- the outer and: (finite ∧ nonnegative) and (below 64)
  obtain ⟨e1, hlt⟩ := IntOp.andi_eq_one.1 e
  -- the inner and: finite and nonnegative
  obtain ⟨-, hge⟩ := IntOp.andi_eq_one.1 e1
  -- each and-reduction that is 1 had a 1 at every element; read it at target n
  have hge' := Host.reduce_andi_all _ _ _ _ _ hge (ix1 n)
  have hlt' := Host.reduce_andi_all _ _ _ _ _ hlt (ix1 n)
  -- the element of each mask is the signed comparison of target n with the constant (a broadcast scalar is the scalar everywhere)
  have h0 : (0#32 : BitVec 32).toInt ≤ (x1 (ix1 n)).toInt := IntOp.cmpi_sge.1 hge'
  have h64 : (x1 (ix1 n)).toInt < (64#32 : BitVec 32).toInt := IntOp.cmpi_slt.1 hlt'
  rw [toInt_zero32] at h0
  rw [toInt_sixtyfour32] at h64
  exact ⟨h0, h64⟩

end Cert.PreDecode
-- ==== Proof.lean ====
/-
  The certificate: a fused loss over two million rows of 64 class scores, a Pallas kernel against its jnp reference.

  Both programs take predictions p[n, j] (n < 2 000 000, j < 64, finite) and targets t[n] (class labels, 0 ≤ t[n] < 64) and
  return   (−Σ_n p[n, t[n]]) / N  +  (Σ_j (#{n | t[n] = j} − Σ_n exp p[n, j])²) / N,   N = 2 000 000.
  The reference counts classes with a scatter-add of ones, sums exp p over the rows, and picks p[n, t[n]] with a gather.
  The kernel views two consecutive rows as one row of 128 lanes, walks 2 cores × 100 tiles of 5000 such rows, and keeps
  per lane a hit count (a lane is hit when its class is the target of its original row), a sum of exponentials and a sum
  of the entries at hit lanes; after a core's last tile the three rows are written out, and the host adds the two cores and
  the two halves of the lanes. Over the extended reals every one of these sums is a sum in a commutative monoid, so both
  programs compute the same three totals (Proof/Spec.lean states them; Proof/LossTiles.lean and Proof/LibPackedSums.lean
  regroup the kernel's; Proof/RefCounts.lean and Proof/RefPicked.lean read the reference's), and the two tails differ only
  in (−x)/N against −(x/N), equal because N is a nonzero real (Proof/RowCount.lean). The targets' range is needed on the
  reference's side only: outside it the gather wraps negative targets and fills the rest, which the kernel does not.
  The frames of the two kernels are the generated ones; the reference's frame is its run with the result dropped; the
  idealization rewrote nothing.
-/
import proofs.«418228_j46265387712705_2_alg».proof.Defs
import proofs.«418228_j46265387712705_2_alg».proof.Proof.Gen.Kernel
import proofs.«418228_j46265387712705_2_alg».proof.Proof.Gen.Kernel.Skeleton
import proofs.«418228_j46265387712705_2_alg».proof.Proof.Gen.Kernel.Launch
import proofs.«418228_j46265387712705_2_alg».proof.Proof.Gen.Kernel.Points
import proofs.«418228_j46265387712705_2_alg».proof.Proof.Gen.Kernel.Frame
import proofs.«418228_j46265387712705_2_alg».proof.Proof.Gen.KernelIdeal
import proofs.«418228_j46265387712705_2_alg».proof.Proof.Gen.KernelIdeal.Skeleton
import proofs.«418228_j46265387712705_2_alg».proof.Proof.Gen.KernelIdeal.Launch
import proofs.«418228_j46265387712705_2_alg».proof.Proof.Gen.KernelIdeal.Points
import proofs.«418228_j46265387712705_2_alg».proof.Proof.Gen.KernelIdeal.Frame
import proofs.«418228_j46265387712705_2_alg».proof.Proof.Gen.ReferenceIdeal
import proofs.«418228_j46265387712705_2_alg».proof.Proof.Gen.Pre_finite_inputs
import proofs.«418228_j46265387712705_2_alg».proof.Proof.KernelValue
import proofs.«418228_j46265387712705_2_alg».proof.Proof.RefRunHand
import proofs.«418228_j46265387712705_2_alg».proof.Proof.RefValue
import proofs.«418228_j46265387712705_2_alg».proof.Proof.RefPicked
import proofs.«418228_j46265387712705_2_alg».proof.Proof.PreDecode
import Idealize.ShloMosaic.Adequacy
import Idealize.ShloMosaic.Init

noncomputable section

namespace Cert.Proof

open Idealize.ShloMosaic Idealize.ShloMosaic.TcCoe Idealize.SL.Sem

/-- The reference runs and keeps its arguments: its run, the result forgotten. -/
theorem frame_reference : Cert.frame_ReferenceIdeal := fun m ρ _ =>
  (θ_run Cert.ReferenceIdeal.defs _ _).mono (fun _ h c => (h c).2) (Cert.RefSide.run (F := Ideal) m ρ)

/-- From memories that agree on the arguments, under the precondition, both idealized programs end with the loss of
    those arguments: the kernel by its run, the reference by its run and the two halves of its value, the picked half
    under the targets' range that the precondition states. -/
theorem algebraic : Cert.algebraic_KernelIdeal_ReferenceIdeal := by
  intro m ρ m' ρ' hpre hagree
  refine ⟨fun c => fun _ => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Result.run m ρ, ?_⟩
  refine (θ_run Cert.ReferenceIdeal.defs _ _).mono (fun _ h c => ⟨(h c).1.trans ?_, (h c).2⟩) (Cert.RefSide.run (F := Ideal) m' ρ')
  rw [(hagree c).1, (hagree c).2]
  exact Cert.RefSide.val_eq_loss_of _ _ (Cert.RefSide.v13_eq _ _ (fun n => Cert.PreDecode.targets_in_range _ _ (hpre c) n))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
